-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1040384 : Shape := ⟨1, ![1040384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1040384 : S_.BroadcastsInDim S1040384 (![] : Fin 0 → Fin S1040384.rank)
  reducesTo_S1040384_S_d0 : S1040384.ReducesTo [0] S_

variable [Facts]

def fn_part1 {F : FTy → Type} [FloatOps F] (main_arg1 : IVec S1040384 32) (main_arg2 : IVec S1040384 32) (main_v15 : IVec S_ 1) : IVec S_ 1 :=
  let main_c_6 : IVec S_ 32 := constantI S_ 32 16384#32
  let main_v16 : IVec S1040384 32 := broadcastInDim S1040384 ![] bcast_S_S1040384 main_c_6
  let main_v17 : IVec S1040384 1 := cmpi .slt main_arg2 main_v16
  let main_c_7 : IVec S_ 1 := constantI S_ 1 1#1
  let main_v18 : IVec S_ 1 := (fun x v => Host.reduce IntOp.andi x v reducesTo_S1040384_S_d0 h_S_) main_v17 main_c_7
  let main_v19 : IVec S_ 1 := andi main_v15 main_v18
  let main_c_8 : IVec S_ 32 := constantI S_ 32 128#32
  let main_v20 : IVec S1040384 32 := broadcastInDim S1040384 ![] bcast_S_S1040384 main_c_8
  let main_v21 : IVec S1040384 32 := Host.divsi main_arg1 main_v20
  let main_c_9 : IVec S_ 32 := constantI S_ 32 128#32
  let main_v22 : IVec S1040384 32 := broadcastInDim S1040384 ![] bcast_S_S1040384 main_c_9
  let main_v23 : IVec S1040384 32 := Host.divsi main_arg2 main_v22
  let main_v24 : IVec S1040384 1 := cmpi .eq main_v21 main_v23
  let main_c_10 : IVec S_ 1 := constantI S_ 1 1#1
  let main_v25 : IVec S_ 1 := (fun x v => Host.reduce IntOp.andi x v reducesTo_S1040384_S_d0 h_S_) main_v24 main_c_10
  let main_v26 : IVec S_ 1 := andi main_v19 main_v25
  main_v26

def fn {F : FTy → Type} [FloatOps F] (main_arg0 : FVec F S16384x512 .f32) (main_arg1 : IVec S1040384 32) (main_arg2 : IVec S1040384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_c_0 : IVec S_ 32 := constantI S_ 32 0#32
  let main_v4 : IVec S1040384 32 := broadcastInDim S1040384 ![] bcast_S_S1040384 main_c_0
  let main_v5 : IVec S1040384 1 := cmpi .sge main_arg1 main_v4
  let main_c_1 : IVec S_ 1 := constantI S_ 1 1#1
  let main_v6 : IVec S_ 1 := (fun x v => Host.reduce IntOp.andi x v reducesTo_S1040384_S_d0 h_S_) main_v5 main_c_1
  let main_v7 : IVec S_ 1 := andi main_v3 main_v6
  let main_c_2 : IVec S_ 32 := constantI S_ 32 16384#32
  let main_v8 : IVec S1040384 32 := broadcastInDim S1040384 ![] bcast_S_S1040384 main_c_2
  let main_v9 : IVec S1040384 1 := cmpi .slt main_arg1 main_v8
  let main_c_3 : IVec S_ 1 := constantI S_ 1 1#1
  let main_v10 : IVec S_ 1 := (fun x v => Host.reduce IntOp.andi x v reducesTo_S1040384_S_d0 h_S_) main_v9 main_c_3
  let main_v11 : IVec S_ 1 := andi main_v7 main_v10
  let main_c_4 : IVec S_ 32 := constantI S_ 32 0#32
  let main_v12 : IVec S1040384 32 := broadcastInDim S1040384 ![] bcast_S_S1040384 main_c_4
  let main_v13 : IVec S1040384 1 := cmpi .sge main_arg2 main_v12
  let main_c_5 : IVec S_ 1 := constantI S_ 1 1#1
  let main_v14 : IVec S_ 1 := (fun x v => Host.reduce IntOp.andi x v reducesTo_S1040384_S_d0 h_S_) main_v13 main_c_5
  let main_v15 : IVec S_ 1 := andi main_v11 main_v14
  fn_part1 (F := F) main_arg1 main_arg2 main_v15
-- ==== Kernel.lean ====
abbrev S16384x512 : Shape := ⟨2, ![16384, 512]⟩
abbrev S1040384 : Shape := ⟨1, ![1040384]⟩
abbrev S128x128 : Shape := ⟨2, ![128, 128]⟩
abbrev S1024x512 : Shape := ⟨2, ![1024, 512]⟩
abbrev S2048x512 : Shape := ⟨2, ![2048, 512]⟩
abbrev S8x128 : Shape := ⟨2, ![8, 128]⟩
abbrev S1x1 : Shape := ⟨2, ![1, 1]⟩
abbrev S1024x2048 : Shape := ⟨2, ![1024, 2048]⟩
abbrev S1024 : Shape := ⟨1, ![1024]⟩
abbrev S1024x1 : Shape := ⟨2, ![1024, 1]⟩
abbrev S1 : Shape := ⟨1, ![1]⟩
abbrev S_ : Shape := ⟨0, ![]⟩
abbrev S128x128x512 : Shape := ⟨3, ![128, 128, 512]⟩
abbrev S128x128x128 : Shape := ⟨3, ![128, 128, 128]⟩
abbrev S16x128x512 : Shape := ⟨3, ![16, 128, 512]⟩
abbrev S16x128x128 : Shape := ⟨3, ![16, 128, 128]⟩
abbrev S1040384x1 : Shape := ⟨2, ![1040384, 1]⟩
abbrev S1040384x3 : Shape := ⟨2, ![1040384, 3]⟩

abbrev nBuf : Space → Nat
  | .hbm => 109
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S1040384, .i32⟩
  | .hbm, ⟨2, _⟩ => ⟨S1040384, .i32⟩
  | .hbm, ⟨3, _⟩ => ⟨S16384x512, .bf16⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128x128x512, .bf16⟩
  | .hbm, ⟨18, _⟩ => ⟨S1x1, .f32⟩
  | .hbm, ⟨19, _⟩ => ⟨S1x1, .f32⟩
  | .hbm, ⟨20, _⟩ => ⟨S128x128x128, .f32⟩
  | .hbm, ⟨21, _⟩ => ⟨S_, .i32⟩
  | .hbm, ⟨22, _⟩ => ⟨S_, .i32⟩
  | .hbm, ⟨23, _⟩ => ⟨S1040384, .i32⟩
  | .hbm, ⟨24, _⟩ => ⟨S1040384, .i32⟩
  | .hbm, ⟨25, _⟩ => ⟨S1040384, .i32⟩
  | .hbm, ⟨26, _⟩ => ⟨S_, .i32⟩
  | .hbm, ⟨27, _⟩ => ⟨S1040384, .i32⟩
  | .hbm, ⟨28, _⟩ => ⟨S1040384, .i1⟩
  | .hbm, ⟨29, _⟩ => ⟨S1040384, .i32⟩
  | .hbm, ⟨30, _⟩ => ⟨S1040384, .i32⟩
  | .hbm, ⟨31, _⟩ => ⟨S_, .i32⟩
  | .hbm, ⟨32, _⟩ => ⟨S1040384, .i32⟩
  | .hbm, ⟨33, _⟩ => ⟨S1040384, .i1⟩
  | .hbm, ⟨34, _⟩ => ⟨S1040384, .i1⟩
  | .hbm, ⟨35, _⟩ => ⟨S_, .i32⟩
  | .hbm, ⟨36, _⟩ => ⟨S1040384, .i32⟩
  | .hbm, ⟨37, _⟩ => ⟨S1040384, .i32⟩
  | .hbm, ⟨38, _⟩ => ⟨S1040384, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1040384, .i32⟩
  | .hbm, ⟨46, _⟩ => ⟨S1040384, .i32⟩
  | .hbm, ⟨47, _⟩ => ⟨S_, .i32⟩
  | .hbm, ⟨48, _⟩ => ⟨S1040384, .i32⟩
  | .hbm, ⟨49, _⟩ => ⟨S1040384, .i1⟩
  | .hbm, ⟨50, _⟩ => ⟨S_, .i32⟩
  | .hbm, ⟨51, _⟩ => ⟨S1040384, .i32⟩
  | .hbm, ⟨52, _⟩ => ⟨S1040384, .i1⟩
  | .hbm, ⟨53, _⟩ => ⟨S_, .i32⟩
  | .hbm, ⟨54, _⟩ => ⟨S_, .i1⟩
  | .hbm, ⟨55, _⟩ => ⟨S1040384, .i1⟩
  | .hbm, ⟨56, _⟩ => ⟨S1040384, .i1⟩
  | .hbm, ⟨57, _⟩ => ⟨S1040384, .i1⟩
  | .hbm, ⟨58, _⟩ => ⟨S1040384, .i32⟩
  | .hbm, ⟨59, _⟩ => ⟨S1040384, .i32⟩
  | .hbm, ⟨60, _⟩ => ⟨S1040384, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S1040384, .i32⟩
  | .hbm, ⟨68, _⟩ => ⟨S1040384, .i32⟩
  | .hbm, ⟨69, _⟩ => ⟨S_, .i32⟩
  | .hbm, ⟨70, _⟩ => ⟨S1040384, .i32⟩
  | .hbm, ⟨71, _⟩ => ⟨S1040384, .i1⟩
  | .hbm, ⟨72, _⟩ => ⟨S_, .i32⟩
  | .hbm, ⟨73, _⟩ => ⟨S1040384, .i32⟩
  | .hbm, ⟨74, _⟩ => ⟨S1040384, .i1⟩
  | .hbm, ⟨75, _⟩ => ⟨S_, .i32⟩
  | .hbm, ⟨76, _⟩ => ⟨S_, .i1⟩
  | .hbm, ⟨77, _⟩ => ⟨S1040384, .i1⟩
  | .hbm, ⟨78, _⟩ => ⟨S1040384, .i1⟩
  | .hbm, ⟨79, _⟩ => ⟨S1040384, .i1⟩
  | .hbm, ⟨80, _⟩ => ⟨S1040384, .i32⟩
  | .hbm, ⟨81, _⟩ => ⟨S1040384, .i32⟩
  | .hbm, ⟨82, _⟩ => ⟨S1040384, .i32⟩
  | .hbm, ⟨83, _⟩ => ⟨S_, .i32⟩
  | .hbm, ⟨84, _⟩ => ⟨S1040384, .i32⟩
  | .hbm, ⟨85, _⟩ => ⟨S1040384, .i1⟩
  | .hbm, ⟨86, _⟩ => ⟨S_, .i32⟩
  | .hbm, ⟨87, _⟩ => ⟨S1040384, .i32⟩
  | .hbm, ⟨88, _⟩ => ⟨S1040384, .i32⟩
  | .hbm, ⟨89, _⟩ => ⟨S1040384, .i32⟩
  | .hbm, ⟨90, _⟩ => ⟨S_, .i32⟩
  | .hbm, ⟨91, _⟩ => ⟨S1040384, .i32⟩
  | .hbm, ⟨92, _⟩ => ⟨S1040384, .i1⟩
  | .hbm, ⟨93, _⟩ => ⟨S_, .i32⟩
  | .hbm, ⟨94, _⟩ => ⟨S1040384, .i32⟩
  | .hbm, ⟨95, _⟩ => ⟨S1040384, .i32⟩
  | .hbm, ⟨96, _⟩ => ⟨S1040384, .i32⟩
  | .hbm, ⟨97, _⟩ => ⟨S_, .i32⟩
  | .hbm, ⟨98, _⟩ => ⟨S1040384, .i32⟩
  | .hbm, ⟨99, _⟩ => ⟨S1040384, .i1⟩
  | .hbm, ⟨100, _⟩ => ⟨S_, .i32⟩
  | .hbm, ⟨101, _⟩ => ⟨S1040384, .i32⟩
  | .hbm, ⟨102, _⟩ => ⟨S1040384, .i32⟩
  | .hbm, ⟨103, _⟩ => ⟨S1040384, .i32⟩
  | .hbm, ⟨104, _⟩ => ⟨S1040384x1, .i32⟩
  | .hbm, ⟨105, _⟩ => ⟨S1040384x1, .i32⟩
  | .hbm, ⟨106, _⟩ => ⟨S1040384x1, .i32⟩
  | .hbm, ⟨107, _⟩ => ⟨S1040384x3, .i32⟩
  | .hbm, ⟨108, _⟩ => ⟨S1040384, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | .local _ .vmem, ⟨9, _⟩ => ⟨S1x1, .f32⟩
  | .local _ .vmem, ⟨10, _⟩ => ⟨S16x128x512, .bf16⟩
  | .local _ .vmem, ⟨11, _⟩ => ⟨S16x128x512, .bf16⟩
  | .local _ .vmem, ⟨12, _⟩ => ⟨S1x1, .f32⟩
  | .local _ .vmem, ⟨13, _⟩ => ⟨S1x1, .f32⟩
  | .local _ .vmem, ⟨14, _⟩ => ⟨S16x128x128, .f32⟩
  | .local _ .vmem, ⟨15, _⟩ => ⟨S16x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v13 : Ref sig .tc := ⟨.hbm, 38, rfl⟩
abbrev main_c_3 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v14 : Ref sig .tc := ⟨.hbm, 60, rfl⟩
abbrev main_c_4 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v15 : Ref sig .tc := ⟨.hbm, 82, rfl⟩
abbrev main_c_5 : Ref sig .tc := ⟨.hbm, 83, rfl⟩
abbrev main_v16 : Ref sig .tc := ⟨.hbm, 84, rfl⟩
abbrev main_v17 : Ref sig .tc := ⟨.hbm, 85, rfl⟩
abbrev main_c_6 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_c_7 : Ref sig .tc := ⟨.hbm, 90, rfl⟩
abbrev main_v21 : Ref sig .tc := ⟨.hbm, 91, rfl⟩
abbrev main_v22 : Ref sig .tc := ⟨.hbm, 92, rfl⟩
abbrev main_c_8 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_c_9 : Ref sig .tc := ⟨.hbm, 97, rfl⟩
abbrev main_v26 : Ref sig .tc := ⟨.hbm, 98, rfl⟩
abbrev main_v27 : Ref sig .tc := ⟨.hbm, 99, rfl⟩
abbrev main_c_10 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  shapeCasts_S16384x512_S128x128x512 : S16384x512.ShapeCasts S128x128x512
  shapeCasts_S_S1x1 : S_.ShapeCasts S1x1
  inb_S16x128x512_S16x128x512_0_0_0 : ∀ a, (![0, 0, 0] : Fin 3 → Nat) a + S16x128x512.size a ≤ S16x128x512.size a
  h_S16x128x512 : 0 < S16x128x512.numel
  shapeCasts_S16x128x512_S16x128x512 : S16x128x512.ShapeCasts S16x128x512
  inpos_S1x1_p0_0 : ∀ a, (![0, 0] : Fin 2 → Nat) a < S1x1.size a
  inb_S16x128x128_S16x128x128_0_0_0 : ∀ a, (![0, 0, 0] : Fin 3 → Nat) a + S16x128x128.size a ≤ S16x128x128.size a
  h_S16x128x128 : 0 < S16x128x128.numel
  bcast_S_S1040384 : S_.BroadcastsInDim S1040384 (![] : Fin 0 → Fin S1040384.rank)
  bcast_S1040384_S1040384x1_0 : S1040384.BroadcastsInDim S1040384x1 (![0] : Fin 1 → Fin S1040384x1.rank)
  concatenates_S1040384x1_S1040384x1_S1040384x1_S1040384x3_d1 : Shape.Concatenates [S1040384x1, S1040384x1, S1040384x1] S1040384x3 1
  dot_S1024x512_S2048x512_S1024x2048_1_1_0_0_n_n_wf : DotDims.WF S1024x512 S2048x512 S1024x2048 [1] [1] [0] [0] [] []
  dot_S16x128x512_S16x128x512_S16x128x128_2_2_1_1_0_0_wf : DotDims.WF S16x128x512 S16x128x512 S16x128x128 [2] [2] [1] [1] [0] [0]
  gather_S128x128x128_S1040384x3_S1040384_n_012_n_n_012_1_111_wf : GatherDims.WF S128x128x128 S1040384x3 S1040384 [] [0, 1, 2] [] [0, 1, 2] [] 1 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .bf16 = 32 ∨ (Rect.block (s := S16384x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S128x128.size a
  hwx0_2 : ∀ i : grid0.Coords, EltTy.bits .f32 = 32 ∨ (Rect.block (s := S128x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x512.size a ≤ S128x128x512.size a
  hwx1_0 : ∀ i : grid1.Coords, EltTy.bits .bf16 = 32 ∨ (Rect.block (s := S128x128x512) S16x128x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x128x128.size a ≤ S128x128x128.size a
  hwx1_3 : ∀ i : grid1.Coords, EltTy.bits .f32 = 32 ∨ (Rect.block (s := S128x128x128) S16x128x128.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S16x128x512_S16x128x512_S16x128x128_2_2_1_1_0_0 : DotDims S16x128x512 S16x128x512 S16x128x128 where
  lhsContracting := [2]
  rhsContracting := [2]
  lhsNonContracting := [1]
  rhsNonContracting := [1]
  lhsBatch := [0]
  rhsBatch := [0]
  wf := dot_S16x128x512_S16x128x512_S16x128x128_2_2_1_1_0_0_wf
def gather_S128x128x128_S1040384x3_S1040384_n_012_n_n_012_1_111 : GatherDims S128x128x128 S1040384x3 S1040384 where
  offsetDims := []
  collapsedSliceDims := [0, 1, 2]
  operandBatchingDims := []
  startIndicesBatchingDims := []
  startIndexMap := [0, 1, 2]
  indexVectorDim := 1
  sliceSizes := ![1, 1, 1]
  wf := gather_S128x128x128_S1040384x3_S1040384_n_012_n_n_012_1_111_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v9) S16x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S16x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x512 : Shape := ⟨2, ![16384, 512]⟩
abbrev S1040384 : Shape := ⟨1, ![1040384]⟩
abbrev S512x16384 : Shape := ⟨2, ![512, 16384]⟩
abbrev S16384x16384 : Shape := ⟨2, ![16384, 16384]⟩
abbrev S_ : Shape := ⟨0, ![]⟩
abbrev S1040384x1 : Shape := ⟨2, ![1040384, 1]⟩
abbrev S1040384x2 : Shape := ⟨2, ![1040384, 2]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1040384, .i32⟩
  | .hbm, ⟨2, _⟩ => ⟨S1040384, .i32⟩
  | .hbm, ⟨3, _⟩ => ⟨S512x16384, .f32⟩
  | .hbm, ⟨4, _⟩ => ⟨S16384x16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S_, .i32⟩
  | .hbm, ⟨17, _⟩ => ⟨S1040384, .i32⟩
  | .hbm, ⟨18, _⟩ => ⟨S1040384, .i1⟩
  | .hbm, ⟨19, _⟩ => ⟨S_, .i32⟩
  | .hbm, ⟨20, _⟩ => ⟨S1040384, .i32⟩
  | .hbm, ⟨21, _⟩ => ⟨S1040384, .i32⟩
  | .hbm, ⟨22, _⟩ => ⟨S1040384, .i32⟩
  | .hbm, ⟨23, _⟩ => ⟨S_, .i32⟩
  | .hbm, ⟨24, _⟩ => ⟨S1040384, .i32⟩
  | .hbm, ⟨25, _⟩ => ⟨S1040384, .i1⟩
  | .hbm, ⟨26, _⟩ => ⟨S_, .i32⟩
  | .hbm, ⟨27, _⟩ => ⟨S1040384, .i32⟩
  | .hbm, ⟨28, _⟩ => ⟨S1040384, .i32⟩
  | .hbm, ⟨29, _⟩ => ⟨S1040384, .i32⟩
  | .hbm, ⟨30, _⟩ => ⟨S1040384x1, .i32⟩
  | .hbm, ⟨31, _⟩ => ⟨S1040384x1, .i32⟩
  | .hbm, ⟨32, _⟩ => ⟨S1040384x2, .i32⟩
  | .hbm, ⟨33, _⟩ => ⟨S1040384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S16384x512_S512x16384_1_0 : S16384x512.Transposes [1, 0] S512x16384
  reducesTo_S16384x16384_S_d0_1 : S16384x16384.ReducesTo [0, 1] S_
  h_S_ : 0 < S_.numel
  bcast_S_S16384x16384 : S_.BroadcastsInDim S16384x16384 (![] : Fin 0 → Fin S16384x16384.rank)
  bcast_S_S1040384 : S_.BroadcastsInDim S1040384 (![] : Fin 0 → Fin S1040384.rank)
  bcast_S1040384_S1040384x1_0 : S1040384.BroadcastsInDim S1040384x1 (![0] : Fin 1 → Fin S1040384x1.rank)
  concatenates_S1040384x1_S1040384x1_S1040384x2_d1 : Shape.Concatenates [S1040384x1, S1040384x1] S1040384x2 1
  dot_S16384x512_S512x16384_S16384x16384_1_0_0_1_n_n_wf : DotDims.WF S16384x512 S512x16384 S16384x16384 [1] [0] [0] [1] [] []
  gather_S16384x16384_S1040384x2_S1040384_n_01_n_n_01_1_11_wf : GatherDims.WF S16384x16384 S1040384x2 S1040384 [] [0, 1] [] [0, 1] [] 1 ![1, 1]

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf
def gather_S16384x16384_S1040384x2_S1040384_n_01_n_n_01_1_11 : GatherDims S16384x16384 S1040384x2 S1040384 where
  offsetDims := []
  collapsedSliceDims := [0, 1]
  operandBatchingDims := []
  startIndicesBatchingDims := []
  startIndexMap := [0, 1]
  indexVectorDim := 1
  sliceSizes := ![1, 1]
  wf := gather_S16384x16384_S1040384x2_S1040384_n_01_n_n_01_1_11_wf

class Facts : Prop extends Facts₀ where

variable [Facts]
-- ==== Proof.KMinMaxDat.lean ====
/-
  Region 0 (the min / max kernel) as proof data, at any float instance.

  The grid is 16 x 8: point t = 8 i + j handles row tile i (1024 rows) against column tile j (2048 rows of the
  same matrix, read as columns of the similarity matrix).  Two 1 x 1 scratch cells carry the running least and
  greatest similarity of row tile i: reset at j = 0 (to +inf and -inf), lowered / raised by the tile's own least and
  greatest entry at every j, and broadcast into the two 8 x 128 output blocks at j = 7, the only points that write
  those blocks back.  Both input windows read ONE array, so the array's share is halved between them.
-/
import proofs.«405393_j40785009443380_2_alg».proof.Proof.Gen.Kernel.Launch
import proofs.«405393_j40785009443380_2_alg».proof.Proof.Gen.Kernel.Skeleton
import proofs.«405393_j40785009443380_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, and the body's run in each of the three cases -/

/-- The condition of the body's first branch (is the column tile the first?), from the grid coordinates. -/
abbrev cond0_0 (i : grid0.Coords) : Prop := (Scalar.cmpi .ne (Scalar.extui (Scalar.cmpi .eq (BitVec.ofNat 32 (i 1).val) 0#32)) 0#32) = 1#1
/-- The condition of the body's second branch (is the column tile the last?). -/
abbrev cond0_1 (i : grid0.Coords) : Prop := k0_cond2 i = 1#1

/-- The zero offsets of a rank-two whole-buffer access. -/
theorem hz2 : (![0, 0] : Fin 2 → Nat) = fun _ => 0 := funext fun a => by fin_cases a <;> rfl

/-- A store of a whole buffer, made last, leaves its payload there whatever was stored before: what the buffer
    reads afterwards, through any view of it. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨⟨Rect.unit off S.size inb, w⟩, List.mem_cons_self .., View.mem_set_unit_zero h inb y⟩),
    View.canon_cons_unit_zero h]

set_option maxHeartbeats 1000000 in
/-- The body at a point with j = 0: the first branch resets the two cells to +inf and -inf, whatever they held; the
    update then lowers / raises them by the tile's least and greatest similarity, reading back what the reset stored;
    the second branch does not run and the two output buffers are not touched. -/
theorem runA (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S2048x512 .bf16) (xi2 xi3 : Vec F S8x128 .f32)
    (E : Set ℕ) (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay4 x0 x1 k0_pay1) ∗ owns (c : Thread nD τ) arg7 fullShare (k0_pay5 x0 x1 k0_pay2)) -∗ K ⟨⟩))
      ⊢ wp frame (wpE (defs₀ (F := F)) Variants.none c none) E (cc0__minmax_kernel i arg2 harg2 arg3 harg3 arg4 harg4 arg5 harg5 arg6 harg6 arg7 harg7) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    sl_unfold_words
    rw [read_writes_whole _ _ hz2]
    simp only [View.readAt_eq_ld, harg2.read_unread, harg3.read_unread, View.readCov_unit_zero (S := S1x1) _ hz2,
      View.ld_unit_zero (S := S1024x512) hz2, View.ld_unit_zero (S := S2048x512) hz2]
  iexists _; isplitr
  swap; · iexact HS1
  ipureintro
  sl_unfold_words
  rw [read_writes_whole _ _ hz2]
  simp only [View.readAt_eq_ld, harg2.read_unread, harg3.read_unread, View.readCov_unit_zero (S := S1x1) _ hz2,
    View.ld_unit_zero (S := S1024x512) hz2, View.ld_unit_zero (S := S2048x512) hz2]

set_option maxHeartbeats 1000000 in
/-- The body at a point with 0 < j < 7: neither branch runs; the two cells are lowered / raised by the tile's least and
    greatest similarity, the two output buffers are not touched. -/
theorem runB (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S2048x512 .bf16) (xi2 xi3 : Vec F S8x128 .f32) (xs0 xs1 : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xi3
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__minmax_kernel i arg2 harg2 arg3 harg3 arg4 harg4 arg5 harg5 arg6 harg6 arg7 harg7) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1
  obtain rfl := harg4.eq_unread hf2; obtain rfl := harg5.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    rw [read_writes_whole _ _ hz2]
    simp only [View.readAt_eq_ld, harg2.read_unread, harg3.read_unread, harg6.read_unread,
      View.ld_unit_zero (S := S1024x512) hz2, View.ld_unit_zero (S := S2048x512) hz2, View.ld_unit_zero (S := S1x1) hz2]
  iexists _; isplitr
  swap; · iexact HS1
  ipureintro
  rw [read_writes_whole _ _ hz2]
  simp only [View.readAt_eq_ld, harg2.read_unread, harg3.read_unread, harg7.read_unread,
    View.ld_unit_zero (S := S1024x512) hz2, View.ld_unit_zero (S := S2048x512) hz2, View.ld_unit_zero (S := S1x1) hz2]

set_option maxHeartbeats 1000000 in
/-- The body at a point with j = 7: the first branch does not run; the two cells are lowered / raised by the tile's
    least and greatest similarity; the second branch then reads each cell back and stores its broadcast over the whole
    of its output buffer, whatever that held. -/
theorem runC (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S2048x512 .bf16) (xs0 xs1 : Vec F S1x1 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare (k0_pay6 (k0_pay4 x0 x1 xs0)) ∗ owns (c : Thread nD τ) arg5 fullShare (k0_pay7 (k0_pay5 x0 x1 xs1))
            ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__minmax_kernel i arg2 harg2 arg3 harg3 arg4 harg4 arg5 harg5 arg6 harg6 arg7 harg7) K := by
  simp only [cc0__minmax_kernel_eq_skeleton]; unfold cc0__minmax_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_writes_whole _ _ hz2]
    simp only [View.readAt_eq_ld, harg2.read_unread, harg3.read_unread, harg6.read_unread, View.readCov_unit_zero (S := S1x1) _ hz2,
      View.ld_unit_zero (S := S1024x512) hz2, View.ld_unit_zero (S := S2048x512) hz2, View.ld_unit_zero (S := S1x1) hz2]
  isplitl [H3]
  · iexists _; isplitr
    swap; · iexact H3
    ipureintro
    sl_unfold_words
    rw [read_writes_whole _ _ hz2]
    simp only [View.readAt_eq_ld, harg2.read_unread, harg3.read_unread, harg7.read_unread, View.readCov_unit_zero (S := S1x1) _ hz2,
      View.ld_unit_zero (S := S1024x512) hz2, View.ld_unit_zero (S := S2048x512) hz2, View.ld_unit_zero (S := S1x1) hz2]
  isplitl [HS0]
  · iexists _; isplitr
    swap; · iexact HS0
    ipureintro
    sl_unfold_words
    rw [read_writes_whole _ _ hz2]
    simp only [View.readAt_eq_ld, harg2.read_unread, harg3.read_unread, harg6.read_unread, View.readCov_unit_zero (S := S1x1) _ hz2,
      View.ld_unit_zero (S := S1024x512) hz2, View.ld_unit_zero (S := S2048x512) hz2, View.ld_unit_zero (S := S1x1) hz2]
  iexists _; isplitr
  swap; · iexact HS1
  ipureintro
  sl_unfold_words
  rw [read_writes_whole _ _ hz2]
  simp only [View.readAt_eq_ld, harg2.read_unread, harg3.read_unread, harg7.read_unread, View.readCov_unit_zero (S := S1x1) _ hz2,
    View.ld_unit_zero (S := S1024x512) hz2, View.ld_unit_zero (S := S2048x512) hz2, View.ld_unit_zero (S := S1x1) hz2]

/-! ## Where the branches run and where the windows are idle -/

/-- The first branch runs exactly at the points with j = 0 — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second branch runs exactly at the points with j = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from j = 7 the two output windows are idle and their blocks are not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at j = 7 they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-- Each window's current staging memref at point `t`, as the pipeline passes it to the body, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

/-! ## The proof data -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the two scratch cells from the row tile `a`, the column tile `b` and what the cells held. -/
def accStep (a : Vec F S1024x512 .bf16) (b : Vec F S2048x512 .bf16) (prev : Vec F S1x1 .f32 × Vec F S1x1 .f32) :
    Vec F S1x1 .f32 × Vec F S1x1 .f32 :=
  (k0_pay4 a b prev.1, k0_pay5 a b prev.2)

/-- What the two scratch cells hold after point `n`: at a point with j = 0 the update of the reset cells (+inf, -inf),
    elsewhere the update of what the point before left. -/
def acc0 (c : Dev nD) : (n : ℕ) → n < cfg0.N → Vec F S1x1 .f32 × Vec F S1x1 .f32
  | 0, hn => accStep (iblk0 V c 0 ⟨0, hn⟩) (iblk0 V c 1 ⟨0, hn⟩) (k0_pay1, k0_pay2)
  | n + 1, hn =>
    accStep (iblk0 V c 0 ⟨n + 1, hn⟩) (iblk0 V c 1 ⟨n + 1, hn⟩)
      (if (n + 1) % 8 = 0 then (k0_pay1, k0_pay2) else acc0 c n (Nat.lt_of_succ_lt hn))

theorem acc0_reset (c : Dev nD) (t : Fin cfg0.N) (h : t.val % 8 = 0) :
    acc0 V c t.val t.isLt = accStep (iblk0 V c 0 t) (iblk0 V c 1 t) (k0_pay1, k0_pay2) := by
  obtain ⟨n, hn⟩ := t
  cases n with
  | zero => rfl
  | succ n => simp only [acc0, if_pos h]

theorem acc0_step (c : Dev nD) (t : Fin cfg0.N) (h : ¬ t.val % 8 = 0) :
    acc0 V c t.val t.isLt = accStep (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => simp only [acc0, if_neg h, Nat.add_sub_cancel]

/-- The two scratch operands as memrefs. -/
abbrev scM0 : Memref sig .tc .vmem S1x1 .f32 := Memref.whole cc0_scratch0
abbrev scM1 : Memref sig .tc .vmem S1x1 .f32 := Memref.whole cc0_scratch1

/-- The core's scoped buffers that are neither a staging buffer of this call nor one of its scratch cells (the other
    call's staging buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The class invariant with the two scratch cells as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 (F := F) c)
          ∗ (∃ r, prngReg c r)) := by
  unfold Pipeline.ΦA; rw [scopedRest0_eq]; unfold rest0; simp only [scM0, scM1, owns_whole]; try rfl

/-- The invariant before position `n`: before the first point the class's; afterwards the two scratch cells at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn).1 ∗ owns (c : Thread nD τ) scM1 fullShare (acc0 V c n hn).2 ∗ rest0 (F := F) c)
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn).1 ∗ owns (c : Thread nD τ) scM1 fullShare (acc0 V c n hn).2 ∗ rest0 (F := F) c)
      ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)).1 ∗ owns (c : Thread nD τ) scM1 fullShare (acc0 V c (n - 1) (by omega)).2 ∗ rest0 (F := F) c)
      ∗ (∃ r, prngReg c r)) := by
  cases n with
  | zero => exact absurd rfl hz
  | succ n => rfl

/-- The proof data of pipeline 0 on core `c`: the arrays as the region finds them; after the body at point `t` each
    input's buffer at its block, each output's at the broadcast of the scratch cell the point leaves (read only at the
    points j = 7, where the block is written back; elsewhere the window is idle); the invariant `PhiS0`; the shared
    input array's share halved between the two input windows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).2
  Φ t := PhiS0 V c t.val (Nat.le_of_lt_succ t.isLt)
  q w := match w with
    | ⟨0, _⟩ => (fullShare : PosShare TreeShare).left
    | ⟨1, _⟩ => (fullShare : PosShare TreeShare).right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).2 := by dsimp only [dat0]

/-! ## The body obligation, at a generic point -/

/-- Each input's current staging buffer holds its block at every point, fetched there or not: where the pipeline does
    not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- At any position the invariant gives the two scratch cells at some contents, the other scoped buffers and the
    generator register: what the cells hold is forgotten. -/
theorem PhiS0_forget (c : Dev nD) (n : ℕ) (h : n ≤ cfg0.N) :
    PhiS0 V c n h ⊢ iprop(iprop((∃ d, owns (c : Thread nD τ) scM0 fullShare d) ∗ (∃ d, owns (c : Thread nD τ) scM1 fullShare d) ∗ rest0 (F := F) c)
          ∗ (∃ r, prngReg c r)) := by
  cases n with
  | zero => rw [PhiS0_zero V c 0 h rfl, PhiA0_eq]
  | succ n =>
    rw [PhiS0_succ]
    iintro ⟨⟨HS0, HS1, Hr⟩, Hg⟩
    isplitl [HS0 HS1 Hr]
    · isplitl [HS0]; · iexists _; iexact HS0
      isplitl [HS1]; · iexists _; iexact HS1
      iexact Hr
    iexact Hg

/-- What the body leaves in the inputs' buffers: their blocks (the windows are never idle). -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
/-- At j = 7 the outputs' buffers are left at the broadcast of the point's cells. -/
theorem leaves0_2 (c : Dev nD) (t : Fin cfg0.N) (h : cond0_1 (grid0.coords t)) :
    (dat0 V c).leavesExact 2 t = owns (c : Thread nD τ) (ms0_2 t) fullShare (k0_pay6 (acc0 V c t.val t.isLt).1) := by
  rw [show (dat0 V c).leavesExact 2 t = owns (c : Thread nD τ) (ms0_2 t) fullShare ((dat0 V c).after 2 t) from by
    unfold Dat.leavesExact; rw [liveAt0_2 t h], after0_2]
theorem leaves0_3 (c : Dev nD) (t : Fin cfg0.N) (h : cond0_1 (grid0.coords t)) :
    (dat0 V c).leavesExact 3 t = owns (c : Thread nD τ) (ms0_3 t) fullShare (k0_pay7 (acc0 V c t.val t.isLt).2) := by
  rw [show (dat0 V c).leavesExact 3 t = owns (c : Thread nD τ) (ms0_3 t) fullShare ((dat0 V c).after 3 t) from by
    unfold Dat.leavesExact; rw [liveAt0_3 t h], after0_3]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; by the column tile j the point is in one of three
    cases (j = 0: the cells are reset, then updated; 0 < j < 7: updated from what the point before left; j = 7: updated,
    then broadcast into the outputs), and that case's run applies; the invariant hands over the two cells at what the
    point before left (at anything where they are reset) and takes them back at this point's contents; away from j = 7
    the outputs' buffers go back as they came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, PhiS0_castSucc]
  have hN : t.val < 128 := lt_of_lt_of_eq t.isLt (show cfg0.N = 128 from N_0)
  by_cases h0 : t.val % 8 = 0
  · have h1 : ¬t.val % 8 = 7 := by omega
    have hc1 : ¬cond0_1 (grid0.coords t) := fun h => h1 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1)]
    rw [acc0_reset V c t h0]; unfold accStep; dsimp only
    refine (sep_mono (PhiS0_forget V c _ _) .rfl).trans ?_
    iintro ⟨⟨⟨HS0, HS1, Hr⟩, Hg⟩, Ho, ⟨%d0, H0⟩, ⟨%d1, H1⟩, ⟨%d2, H2⟩, ⟨%d3, H3⟩⟩
    iapply (runA c (grid0.coords t) _ _ _ _ _ _ _ _ _ _ _ _ ((hcond0_0 t).mpr h0) hc1 (iblk0 V c 0 t) (iblk0 V c 1 t) _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [acc0_step V c t h0, PhiS0_pos V c _ _ hz]; unfold accStep; dsimp only
    by_cases h1 : t.val % 8 = 7
    · have hc1 : cond0_1 (grid0.coords t) := (hcond0_1 t).mpr h1
      rw [leaves0_2 V c t hc1, leaves0_3 V c t hc1, acc0_step V c t h0]; unfold accStep; dsimp only
      iintro ⟨⟨⟨HS0, HS1, Hr⟩, Hg⟩, Ho, ⟨%d0, H0⟩, ⟨%d1, H1⟩, ⟨%d2, H2⟩, ⟨%d3, H3⟩⟩
      iapply (runC c (grid0.coords t) _ _ _ _ _ _ _ _ _ _ _ _ hc0 hc1 (iblk0 V c 0 t) (iblk0 V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hr⟩, Hg⟩, Ho, ⟨%d0, H0⟩, ⟨%d1, H1⟩, ⟨%d2, H2⟩, ⟨%d3, H3⟩⟩
      iapply (runB c (grid0.coords t) _ _ _ _ _ _ _ _ _ _ _ _ hc0 hc1 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch cells' contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.KDiag.lean ====
/-
  Region 1 (the diagonal-block kernel) as proof data, at any float instance.

  The grid has 8 points; point t handles graphs 16 t .. 16 t + 15.  The body loads the tile's 16 x 128 x 512 block
  of embeddings and the two 1 x 1 scalars (scale, shift), multiplies each graph's 128 x 512 block by its own
  transpose, scales and shifts, and stores the 16 x 128 x 128 result whole; every point writes its block back.
-/
import proofs.«405393_j40785009443380_2_alg».proof.Proof.Gen.Kernel.Launch
import proofs.«405393_j40785009443380_2_alg».proof.Proof.Gen.Kernel.Skeleton
import proofs.«405393_j40785009443380_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body at point `t` each
    input's buffer at its block and the output's at the body's one payload of the three input blocks; the class
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## The input windows at a point

Window 0 is fetched at every point; windows 1 and 2 (the two scalars) are fetched at the first point only and their
block index never moves.  In both cases the current staging buffer holds the window's block when the body runs. -/

/-- The block the transfers read at a point is the block of the entry contents. -/
theorem blockOf1 (c : Dev nD) (w : Fin cfg1.W) (t : Fin cfg1.N) : (dat1 V c).blockOf w t = iblk1 V c w t := by
  unfold Dat.blockOf iblk1; rw [A_eq1]

theorem before1_0 (c : Dev nD) (t : Fin cfg1.N) (d) : (dat1 V c).before 0 t d = iblk1 V c 0 t := by
  rw [(dat1 V c).before_in_eq_fetched 0 rfl (fun _ => rfl) (fun _ _ _ => rfl)
    (fun t => by rw [after1_0, blockOf1]) t d]
  unfold Dat.fetched; rw [blockOf1]; rfl

theorem before1_1 (c : Dev nD) (t : Fin cfg1.N) (d) : (dat1 V c).before 1 t d = iblk1 V c 1 t := by
  rw [(dat1 V c).before_in_eq_fetched 1 rfl (fun _ => rfl) (fun _ _ _ => rfl)
    (fun t => by rw [after1_1, blockOf1]) t d]
  unfold Dat.fetched; rw [blockOf1]; rfl

theorem before1_2 (c : Dev nD) (t : Fin cfg1.N) (d) : (dat1 V c).before 2 t d = iblk1 V c 2 t := by
  rw [(dat1 V c).before_in_eq_fetched 2 rfl (fun _ => rfl) (fun _ _ _ => rfl)
    (fun t => by rw [after1_2, blockOf1]) t d]
  unfold Dat.fetched; rw [blockOf1]; rfl

/-! ## The body on whole staging buffers -/

/-- The zero offsets of a rank-3 and of a rank-2 access, as constant functions. -/
private theorem off3 : (![0, 0, 0] : Fin 3 → ℕ) = fun _ => 0 := funext fun a => by fin_cases a <;> rfl
private theorem off2 : (![0, 0] : Fin 2 → ℕ) = fun _ => 0 := funext fun a => by fin_cases a <;> rfl

/-- The whole-buffer rectangle of the output block. -/
abbrev rOut1 : Rect S16x128x128 := Rect.unit (s := S16x128x128) ![0, 0, 0] S16x128x128.size inb_S16x128x128_S16x128x128_0_0_0

set_option maxHeartbeats 1000000 in
/-- The body on whole staging memrefs: the three inputs at contents `x0 x1 x2`, the output at anything, runs to the
    continuation holding the inputs as they were and the output at the payload of the three inputs. -/
theorem sound_kernel1 (c : Dev nD) (E : Set ℕ) (i : grid1.Coords)
    (arg1 : Memref sig .tc .vmem S16x128x512 .bf16) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S16x128x128 .f32) (harg4 : arg4.IsWhole)
    (x0 : Vec F S16x128x512 .bf16) (x1 x2 : Vec F S1x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E (cc1__diag_kernel i arg1 harg1 arg2 harg2 arg3 harg3 arg4 harg4) K := by
  simp only [cc1__diag_kernel_eq_skeleton]; unfold cc1__diag_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the buffer, so the buffer reads as the store's payload; each load through the whole-buffer
  -- rectangle reads its buffer's contents
  rw [View.read_writes_eq_canon _ _ _
      (fun y => ⟨_, List.mem_singleton_self _, View.mem_set_unit_zero (S := S16x128x128) off3 inb_S16x128x128_S16x128x128_0_0_0 y⟩),
    View.canon_unit_zero (S := S16x128x128) off3 inb_S16x128x128_S16x128x128_0_0_0]
  exact congr (congr (congrArg (k1_pay1 (F := F)) (View.ld_unit_zero (S := S16x128x512) off3 inb_S16x128x512_S16x128x512_0_0_0 _))
    (View.ld_unit_zero (S := S1x1) off2 inb_S1x1_S1x1_0_0 _)) (View.ld_unit_zero (S := S1x1) off2 inb_S1x1_S1x1_0_0 _)

/-! ## The body at a point of the grid -/

/-- The body at any point: each input's staging buffer holds its block, the output's holds anything; the body leaves
    the inputs in place and the output at the payload of the three blocks.  The invariant and what the core owes pass
    through unread. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  have hΦ : (dat1 V c).Φ t.succ = (dat1 V c).Φ t.castSucc := rfl
  have ho : (dat1 V c).owesAt () t.succ = (dat1 V c).owesAt () t.castSucc := rfl
  simp only [before1_0, before1_1, before1_2]
  rw [hΦ, ho, after1_0, after1_1, after1_2, after1_3]
  unfold bodyAt1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact body_at1 V c t

end Cert.Kernel.Hand

end
-- ==== Proof.KRunCond.lean ====
/-
  The run of @main over its segments, with the result buffer named in the post.

  @main is eleven items: a host stretch, region 0, a host stretch, region 1, and seven host stretches.  Between two
  items each core holds every unscoped buffer whole at a known valuation (the launch contents, then each host
  stretch's operations applied, then what a region leaves in its output arrays).  Given one segment record per
  region around those thread states, the whole program runs, faults nowhere, and ends with the result buffer at the
  last valuation's contents and the argument arrays as launched.
-/
import proofs.«405393_j40785009443380_2_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run with the RESULT named. Under the same hypotheses as the conditional frame — per region a segment record
    entered from the thread state before it and left at the one after it — every weakly fair execution of @main from
    memory `m` with zero counters terminates, and every final memory holds the result buffer at the last valuation's
    contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v35) = V11 m outs c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, .rfl, .rfl, .rfl, .rfl, .rfl, .rfl, sep_mono .rfl (hE2 c)⟩)
    (hinit := ?_) (QY := fun c s => s.mem ((c.tc : Thread nD τ).loc main_v35) = V11 m outs c main_v35 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c)⟩
    · iexact HSI

end Cert.Kernel.Hand

end
-- ==== Proof.KRun.lean ====
/-
  The kernel program's run: both regions' segment records and the launch.

  The thread state between two items of @main is: every unscoped buffer whole at the item boundary's valuation, the
  generator register at some state, nothing owed.  Region 1's four arrays are distinct buffers, split out of the
  unscoped buffers at entry and put back at exit with the output array at what the write-backs leave.  Region 0's two
  input windows read ONE array: at entry that buffer's full share is halved between the two windows, at exit the
  two halves (both still at the entry contents: an input array is never written) are joined again.
-/
import proofs.«405393_j40785009443380_2_alg».proof.Proof.KMinMaxDat
import proofs.«405393_j40785009443380_2_alg».proof.Proof.KDiag
import proofs.«405393_j40785009443380_2_alg».proof.Proof.KRunCond
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The contents the regions leave, and the valuations at the regions' entries -/

/-- Region 0's entry contents, read at the TensorCore's references. -/
abbrev E1 (c : Dev nD) (b : Ref sig .tc) : Buf (Elt F) ((c : Thread nD τ).loc b) := V1 m c b

/-- What region 0 leaves in its two output arrays (every other reference: a placeholder nothing reads). -/
def outsA : Outs (F := F) := fun _ =>
  Function.update (Function.update (fun r c => m ((c : Thread nD τ).loc r))
    main_v1_0 (fun c => (dat0 (E1 m) c).arrAt 2 cfg0.N)) main_v1_1 (fun c => (dat0 (E1 m) c).arrAt 3 cfg0.N)

/-- Region 1's entry contents: region 0's results, then the host lines between the regions. -/
abbrev E3 (c : Dev nD) (b : Ref sig .tc) : Buf (Elt F) ((c : Thread nD τ).loc b) := V3 m (outsA m) c b

/-- What both regions leave: region 0's two output arrays and region 1's one. -/
def outs : Outs (F := F) := fun J =>
  Function.update (outsA m J) main_v12 (fun c => (dat1 (E3 m) c).arrAt 3 cfg1.N)

theorem outs_v1_0 (J : ℕ) (c : Dev nD) : outs m J main_v1_0 c = (dat0 (E1 m) c).arrAt 2 cfg0.N := by
  unfold outs outsA
  rw [Function.update_of_ne (by decide), Function.update_of_ne (by decide), Function.update_self]

theorem outs_v1_1 (J : ℕ) (c : Dev nD) : outs m J main_v1_1 c = (dat0 (E1 m) c).arrAt 3 cfg0.N := by
  unfold outs outsA
  rw [Function.update_of_ne (by decide), Function.update_self]

theorem outs_v12 (J : ℕ) (c : Dev nD) : outs m J main_v12 c = (dat1 (E3 m) c).arrAt 3 cfg1.N := by
  unfold outs
  rw [Function.update_self]

theorem outsA_v1_0 (J : ℕ) (c : Dev nD) : outsA m J main_v1_0 c = (dat0 (E1 m) c).arrAt 2 cfg0.N := by
  unfold outsA
  rw [Function.update_of_ne (by decide), Function.update_self]

theorem outsA_v1_1 (J : ℕ) (c : Dev nD) : outsA m J main_v1_1 c = (dat0 (E1 m) c).arrAt 3 cfg0.N := by
  unfold outsA
  rw [Function.update_self]

/-- The valuation after region 0 reads only region 0's two results: it is the same over both families. -/
theorem V2_outs (c : Dev nD) : V2 m (outs m) c = V2 m (outsA m) c := by
  unfold V2
  rw [outs_v1_0, outs_v1_1, outsA_v1_0, outsA_v1_1]

theorem V3_outs (c : Dev nD) : V3 m (outs m) c = V3 m (outsA m) c := by
  unfold V3
  rw [V2_outs]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## Region 1 -/

/-- Region 1's exit contents at the TensorCore's references. -/
abbrev E4 (c : Dev nD) (b : Ref sig .tc) : Buf (Elt F) ((c : Thread nD τ).loc b) := V4 m (outs m) c b

theorem hF1 (c : Dev nD) (w : Fin cfg1.W) : (dat1 (E3 m) c).arrAt w cfg1.N = E4 m c (Pipeline.arrRef spec1 w) := by
  have h3 : ∀ b : Ref sig .tc, b ∉ ([main_v12] : List (Ref sig .tc)) → E4 m c b = E3 m c b := fun b hb => by
    show V4 m (outs m) c b = V3 m (outsA m) c b
    rw [V4_of m (outs m) c b hb, V3_outs]
  match w with
  | ⟨0, _⟩ => exact ((dat1 (E3 m) c).arrAt_in 0 rfl _).trans ((A_eq1 (E3 m) c 0).trans (h3 _ (by decide)).symm)
  | ⟨1, _⟩ => exact ((dat1 (E3 m) c).arrAt_in 1 rfl _).trans ((A_eq1 (E3 m) c 1).trans (h3 _ (by decide)).symm)
  | ⟨2, _⟩ => exact ((dat1 (E3 m) c).arrAt_in 2 rfl _).trans ((A_eq1 (E3 m) c 2).trans (h3 _ (by decide)).symm)
  | ⟨3, _⟩ =>
    show _ = V4 m (outs m) c main_v12
    unfold V4
    rw [Function.update_self, outs_v12]
    rfl

theorem hrest1 (c : Dev nD) : ∀ b, b ∉ Finset.univ.image (Pipeline.arrRef spec1) → E4 m c b = V3 m (outs m) c b :=
  fun b hb => V4_of m (outs m) c b (fun h => hb (by
    rw [List.mem_singleton] at h; subst h
    exact Finset.mem_image.mpr ⟨3, Finset.mem_univ _, rfl⟩))

set_option backward.isDefEq.respectTransparency.types false in
/-- REGION 1 over the thread state: entered from every unscoped buffer at the valuation after the host lines between
    the regions, left with the output array at what the write-backs leave. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (fun b hb => (hrest1 m c b hb).trans (by rw [V3_outs]))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0: two input windows on one array -/

/-- Region 0's exit contents at the TensorCore's references. -/
abbrev E2 (c : Dev nD) (b : Ref sig .tc) : Buf (Elt F) ((c : Thread nD τ).loc b) := V2 m (outs m) c b

/-- The distinct buffers behind region 0's four windows are three: the shared input array and the two output arrays. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1_0) ↦{fullShare} W main_v1_0)
          ∗ (((c : Thread nD τ).loc main_v1_1) ↦{fullShare} W main_v1_1)) := by
  unfold Pipeline.arrBufs
  rw [bigSep_eq_bigSepL_of_eq [main_v0, main_v1_0, main_v1_1] (by decide) (by decide)]
  rfl

/-- Region 0's arrays window by window: the shared input array at the left and the right half of its share, the two
    output arrays whole. -/
theorem arrays0_eq (c : Dev nD) (Fn : (w : Fin cfg0.W) → Buf (Elt F) ((cfg0.win w).arr.view.loc (c : Thread nD τ))) :
    ((dat0 (E1 m) c).arrays Fn : sProp 𝕄)
      = iprop((((c : Thread nD τ).loc main_v0) ↦{(fullShare : PosShare TreeShare).left} Fn 0)
          ∗ (((c : Thread nD τ).loc main_v0) ↦{(fullShare : PosShare TreeShare).right} Fn 1)
          ∗ (((c : Thread nD τ).loc main_v1_0) ↦{fullShare} Fn 2)
          ∗ (((c : Thread nD τ).loc main_v1_1) ↦{fullShare} Fn 3)) := by
  unfold Dat.arrays
  rw [bigSep_W0, (arr_whole0 0).set_eq_univ, (arr_whole0 2).set_eq_univ, (arr_whole0 3).set_eq_univ]
  rfl

/-- ENTRY: the shared array's full share halved between the two input windows. -/
theorem hsplit0 (c : Dev nD) :
    (Pipeline.arrBufs spec0 c (E1 m c) : sProp 𝕄) ⊢ (dat0 (E1 m) c).arrays ((dat0 (E1 m) c).arrAt · 0) := by
  rw [arrBufs0_eq, arrays0_eq]
  iintro ⟨H0, H2, H3⟩
  ihave H0' := (pointsTo_share (PosShare.mem_left_op_right fullShare)).1 $$ H0
  icases H0' with ⟨HL, HR⟩
  isplitl [HL]; · iexact HL
  isplitl [HR]; · iexact HR
  isplitl [H2]; · iexact H2
  iexact H3

theorem E2_v0 (c : Dev nD) : E2 m c main_v0 = E1 m c main_v0 :=
  V2_of m (outs m) c main_v0 (by decide)

theorem E2_v1_0 (c : Dev nD) : E2 m c main_v1_0 = (dat0 (E1 m) c).arrAt 2 cfg0.N := by
  show V2 m (outs m) c main_v1_0 = _
  unfold V2
  rw [Function.update_of_ne (StableHlo.devRef_ne_of_ne (by decide)), Function.update_self, outs_v1_0]

theorem E2_v1_1 (c : Dev nD) : E2 m c main_v1_1 = (dat0 (E1 m) c).arrAt 3 cfg0.N := by
  show V2 m (outs m) c main_v1_1 = _
  unfold V2
  rw [Function.update_self, outs_v1_1]

/-- EXIT: the two halves of the shared array, both still at its entry contents, joined; the output arrays at what the
    write-backs leave. -/
theorem hjoin0 (c : Dev nD) :
    (dat0 (E1 m) c).arrays ((dat0 (E1 m) c).arrAt · cfg0.N) ⊢ (Pipeline.arrBufs spec0 c (E2 m c) : sProp 𝕄) := by
  rw [arrBufs0_eq, arrays0_eq, E2_v0, E2_v1_0, E2_v1_1,
    show (dat0 (E1 m) c).arrAt 0 cfg0.N = E1 m c main_v0 from ((dat0 (E1 m) c).arrAt_in 0 rfl _).trans (A_eq0 (E1 m) c 0),
    show (dat0 (E1 m) c).arrAt 1 cfg0.N = E1 m c main_v0 from ((dat0 (E1 m) c).arrAt_in 1 rfl _).trans (A_eq0 (E1 m) c 1)]
  iintro ⟨HL, HR, H2, H3⟩
  isplitl [HL HR]
  · iapply (pointsTo_share (PosShare.mem_left_op_right fullShare)).2
    isplitl [HL] <;> iassumption
  isplitl [H2]; · iexact H2
  iexact H3

/-- Off region 0's arrays the exit contents are the entry contents. -/
theorem rest0_E2 (c : Dev nD) :
    (Pipeline.unscopedRest spec0 c (E2 m c) : sProp 𝕄) = Pipeline.unscopedRest spec0 c (E1 m c) := by
  unfold Pipeline.unscopedRest
  exact bigSep_congr fun b hb => by
    rw [show E2 m c b = E1 m c b from V2_of m (outs m) c b (fun h => (Finset.mem_sdiff.mp hb).2 (by
      rcases List.mem_cons.mp h with rfl | h
      · exact Finset.mem_image.mpr ⟨2, Finset.mem_univ _, rfl⟩
      · rw [List.mem_singleton] at h; subst h
        exact Finset.mem_image.mpr ⟨3, Finset.mem_univ _, rfl⟩))]

theorem hunscoped0 : ∀ w, (Pipeline.arrRef spec0 w).isScoped = false := by decide

set_option backward.isDefEq.respectTransparency.types false in
/-- REGION 0 over the thread state: entered from every unscoped buffer at the valuation after the first host line, left
    with the two output arrays at what the write-backs leave. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none, ← Pipeline.unscopedBufs_held (Ix := Unit) (Name := ℕ) (U := UR sig nD τ) (Lvl := ℕ) c (V1 m c),
      Pipeline.unscopedBufs_split₀ cfgs 0 hunscoped0 c (E1 m c)]
    iintro ⟨⟨⟨Ha, Hrest⟩, Hp, HO⟩, -, -⟩
    imodintro
    isplitl [Ha]; · iapply (hsplit0 m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    rw [← Pipeline.unscopedBufs_held (Ix := Unit) (Name := ℕ) (U := UR sig nD τ) (Lvl := ℕ) c (V2 m (outs m) c),
      Pipeline.unscopedBufs_split₀ cfgs 0 hunscoped0 c (E2 m c),
      show (Pipeline.unscopedRest (cfgs 0).spec c (E2 m c) : sProp 𝕄) = Pipeline.unscopedRest spec0 c (E1 m c) from rest0_E2 m c]
    iintro ⟨Ha, HO, HY, Hrest⟩
    imodintro
    isplitl [Ha Hrest]
    · isplitl [Ha]; · iapply (hjoin0 m c); iexact Ha
      iexact Hrest
    isplitl [HY]; · iexact HY
    unfold Pipeline.Dat.owesAt Pipeline.owesWithin
    icases HO with ⟨%W, -, HO⟩; iexists W; iexact HO

/-! ## The launch -/

variable (ρ : Dev nD → PrngReg)

set_option backward.isDefEq.respectTransparency.types false in
/-- Every weakly fair execution of @main from memory `m` with zero counters terminates, faults nowhere, and ends with
    the result buffer at the last valuation's contents and the three argument arrays as launched. -/
theorem run_main : θ_run defs (onTc (τ := τ) (main (F := F))) ⟨m, fun _ => 0, ρ⟩ (fun r => ∀ c : Dev nD,
      r.2.mem ((c.tc : Thread nD τ).loc main_v35) = V11 m (outs m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl) (reg1 m) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KIMinMaxDat.lean ====
/-
  Region 0 (the min / max kernel) as proof data, at any float instance.

  The grid is 16 x 8: point t = 8 i + j handles row tile i (1024 rows) against column tile j (2048 rows of the
  same matrix, read as columns of the similarity matrix).  Two 1 x 1 scratch cells carry the running least and
  greatest similarity of row tile i: reset at j = 0 (to +inf and -inf), lowered / raised by the tile's own least and
  greatest entry at every j, and broadcast into the two 8 x 128 output blocks at j = 7, the only points that write
  those blocks back.  Both input windows read ONE array, so the array's share is halved between them.
-/
import proofs.«405393_j40785009443380_2_alg».proof.Proof.Gen.KernelIdeal.Launch
import proofs.«405393_j40785009443380_2_alg».proof.Proof.Gen.KernelIdeal.Skeleton
import proofs.«405393_j40785009443380_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, and the body's run in each of the three cases -/

/-- The condition of the body's first branch (is the column tile the first?), from the grid coordinates. -/
abbrev cond0_0 (i : grid0.Coords) : Prop := (Scalar.cmpi .ne (Scalar.extui (Scalar.cmpi .eq (BitVec.ofNat 32 (i 1).val) 0#32)) 0#32) = 1#1
/-- The condition of the body's second branch (is the column tile the last?). -/
abbrev cond0_1 (i : grid0.Coords) : Prop := k0_cond2 i = 1#1

/-- The zero offsets of a rank-two whole-buffer access. -/
theorem hz2 : (![0, 0] : Fin 2 → Nat) = fun _ => 0 := funext fun a => by fin_cases a <;> rfl

/-- A store of a whole buffer, made last, leaves its payload there whatever was stored before: what the buffer
    reads afterwards, through any view of it. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨⟨Rect.unit off S.size inb, w⟩, List.mem_cons_self .., View.mem_set_unit_zero h inb y⟩),
    View.canon_cons_unit_zero h]

set_option maxHeartbeats 1000000 in
/-- The body at a point with j = 0: the first branch resets the two cells to +inf and -inf, whatever they held; the
    update then lowers / raises them by the tile's least and greatest similarity, reading back what the reset stored;
    the second branch does not run and the two output buffers are not touched. -/
theorem runA (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 : Vec F S1024x512 .bf16) (x1 : Vec F S2048x512 .bf16) (xi2 xi3 : Vec F S8x128 .f32)
    (E : Set ℕ) (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xi3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay4 x0 x1 k0_pay1) ∗ owns (c : Thread nD τ) arg7 fullShare (k0_pay5 x0 x1 k0_pay2)) -∗ K ⟨⟩))
      ⊢ wp frame (wpE (defs₀ (F := F)) Variants.none c none) E (cc0__minmax_kernel i arg2 harg2 arg3 harg3 arg4 harg4 arg5 harg5 arg6 harg6 arg7 harg7) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    sl_unfold_words
    rw [read_writes_whole _ _ hz2]
    simp only [View.readAt_eq_ld, harg2.read_unread, harg3.read_unread, View.readCov_unit_zero (S := S1x1) _ hz2,
      View.ld_unit_zero (S := S1024x512) hz2, View.ld_unit_zero (S := S2048x512) hz2]
  iexists _; isplitr
  swap; · iexact HS1
  ipureintro
  sl_unfold_words
  rw [read_writes_whole _ _ hz2]
  simp only [View.readAt_eq_ld, harg2.read_unread, harg3.read_unread, View.readCov_unit_zero (S := S1x1) _ hz2,
    View.ld_unit_zero (S := S1024x512) hz2, View.ld_unit_zero (S := S2048x512) hz2]

set_option maxHeartbeats 1000000 in
/-- The body at a point with 0 < j < 7: neither branch runs; the two cells are lowered / raised by the tile's least and
    greatest similarity, the two output buffers are not touched. -/
theorem runB (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 : Vec F S1024x512 .bf16) (x1 : Vec F S2048x512 .bf16) (xi2 xi3 : Vec F S8x128 .f32) (xs0 xs1 : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xi3
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__minmax_kernel i arg2 harg2 arg3 harg3 arg4 harg4 arg5 harg5 arg6 harg6 arg7 harg7) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1
  obtain rfl := harg4.eq_unread hf2; obtain rfl := harg5.eq_unread hf3
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr
    swap; · iexact HS0
    ipureintro
    rw [read_writes_whole _ _ hz2]
    simp only [View.readAt_eq_ld, harg2.read_unread, harg3.read_unread, harg6.read_unread,
      View.ld_unit_zero (S := S1024x512) hz2, View.ld_unit_zero (S := S2048x512) hz2, View.ld_unit_zero (S := S1x1) hz2]
  iexists _; isplitr
  swap; · iexact HS1
  ipureintro
  rw [read_writes_whole _ _ hz2]
  simp only [View.readAt_eq_ld, harg2.read_unread, harg3.read_unread, harg7.read_unread,
    View.ld_unit_zero (S := S1024x512) hz2, View.ld_unit_zero (S := S2048x512) hz2, View.ld_unit_zero (S := S1x1) hz2]

set_option maxHeartbeats 1000000 in
/-- The body at a point with j = 7: the first branch does not run; the two cells are lowered / raised by the tile's
    least and greatest similarity; the second branch then reads each cell back and stores its broadcast over the whole
    of its output buffer, whatever that held. -/
theorem runC (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S8x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 : Vec F S1024x512 .bf16) (x1 : Vec F S2048x512 .bf16) (xs0 xs1 : Vec F S1x1 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg2 fullShare x0 ∗ owns (c : Thread nD τ) arg3 fullShare x1
            ∗ owns (c : Thread nD τ) arg4 fullShare (k0_pay6 (k0_pay4 x0 x1 xs0)) ∗ owns (c : Thread nD τ) arg5 fullShare (k0_pay7 (k0_pay5 x0 x1 xs1))
            ∗ owns (c : Thread nD τ) arg6 fullShare (k0_pay4 x0 x1 xs0) ∗ owns (c : Thread nD τ) arg7 fullShare (k0_pay5 x0 x1 xs1)) -∗ K ⟨⟩))
      ⊢ wp frame (wpE (defs₀ (F := F)) Variants.none c none) E (cc0__minmax_kernel i arg2 harg2 arg3 harg3 arg4 harg4 arg5 harg5 arg6 harg6 arg7 harg7) K := by
  simp only [cc0__minmax_kernel_eq_skeleton]; unfold cc0__minmax_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg2.eq_unread hf0; obtain rfl := harg3.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [read_writes_whole _ _ hz2]
    simp only [View.readAt_eq_ld, harg2.read_unread, harg3.read_unread, harg6.read_unread, View.readCov_unit_zero (S := S1x1) _ hz2,
      View.ld_unit_zero (S := S1024x512) hz2, View.ld_unit_zero (S := S2048x512) hz2, View.ld_unit_zero (S := S1x1) hz2]
  isplitl [H3]
  · iexists _; isplitr
    swap; · iexact H3
    ipureintro
    sl_unfold_words
    rw [read_writes_whole _ _ hz2]
    simp only [View.readAt_eq_ld, harg2.read_unread, harg3.read_unread, harg7.read_unread, View.readCov_unit_zero (S := S1x1) _ hz2,
      View.ld_unit_zero (S := S1024x512) hz2, View.ld_unit_zero (S := S2048x512) hz2, View.ld_unit_zero (S := S1x1) hz2]
  isplitl [HS0]
  · iexists _; isplitr
    swap; · iexact HS0
    ipureintro
    sl_unfold_words
    rw [read_writes_whole _ _ hz2]
    simp only [View.readAt_eq_ld, harg2.read_unread, harg3.read_unread, harg6.read_unread, View.readCov_unit_zero (S := S1x1) _ hz2,
      View.ld_unit_zero (S := S1024x512) hz2, View.ld_unit_zero (S := S2048x512) hz2, View.ld_unit_zero (S := S1x1) hz2]
  iexists _; isplitr
  swap; · iexact HS1
  ipureintro
  sl_unfold_words
  rw [read_writes_whole _ _ hz2]
  simp only [View.readAt_eq_ld, harg2.read_unread, harg3.read_unread, harg7.read_unread, View.readCov_unit_zero (S := S1x1) _ hz2,
    View.ld_unit_zero (S := S1024x512) hz2, View.ld_unit_zero (S := S2048x512) hz2, View.ld_unit_zero (S := S1x1) hz2]

/-! ## Where the branches run and where the windows are idle -/

/-- The first branch runs exactly at the points with j = 0 — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second branch runs exactly at the points with j = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from j = 7 the two output windows are idle and their blocks are not written back; -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- at j = 7 they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-- Each window's current staging memref at point `t`, as the pipeline passes it to the body, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

/-! ## The proof data -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the two scratch cells from the row tile `a`, the column tile `b` and what the cells held. -/
def accStep (a : Vec F S1024x512 .bf16) (b : Vec F S2048x512 .bf16) (prev : Vec F S1x1 .f32 × Vec F S1x1 .f32) :
    Vec F S1x1 .f32 × Vec F S1x1 .f32 :=
  (k0_pay4 a b prev.1, k0_pay5 a b prev.2)

/-- What the two scratch cells hold after point `n`: at a point with j = 0 the update of the reset cells (+inf, -inf),
    elsewhere the update of what the point before left. -/
def acc0 (c : Dev nD) : (n : ℕ) → n < cfg0.N → Vec F S1x1 .f32 × Vec F S1x1 .f32
  | 0, hn => accStep (iblk0 V c 0 ⟨0, hn⟩) (iblk0 V c 1 ⟨0, hn⟩) (k0_pay1, k0_pay2)
  | n + 1, hn =>
    accStep (iblk0 V c 0 ⟨n + 1, hn⟩) (iblk0 V c 1 ⟨n + 1, hn⟩)
      (if (n + 1) % 8 = 0 then (k0_pay1, k0_pay2) else acc0 c n (Nat.lt_of_succ_lt hn))

theorem acc0_reset (c : Dev nD) (t : Fin cfg0.N) (h : t.val % 8 = 0) :
    acc0 V c t.val t.isLt = accStep (iblk0 V c 0 t) (iblk0 V c 1 t) (k0_pay1, k0_pay2) := by
  obtain ⟨n, hn⟩ := t
  cases n with
  | zero => rfl
  | succ n => simp only [acc0, if_pos h]

theorem acc0_step (c : Dev nD) (t : Fin cfg0.N) (h : ¬ t.val % 8 = 0) :
    acc0 V c t.val t.isLt = accStep (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => simp only [acc0, if_neg h, Nat.add_sub_cancel]

/-- The two scratch operands as memrefs. -/
abbrev scM0 : Memref sig .tc .vmem S1x1 .f32 := Memref.whole cc0_scratch0
abbrev scM1 : Memref sig .tc .vmem S1x1 .f32 := Memref.whole cc0_scratch1

/-- The core's scoped buffers that are neither a staging buffer of this call nor one of its scratch cells (the other
    call's staging buffers), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The class invariant with the two scratch cells as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ rest0 (F := F) c)
          ∗ (∃ r, prngReg c r)) := by
  unfold Pipeline.ΦA; rw [scopedRest0_eq]; unfold rest0; simp only [scM0, scM1, owns_whole]; try rfl

/-- The invariant before position `n`: before the first point the class's; afterwards the two scratch cells at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn).1 ∗ owns (c : Thread nD τ) scM1 fullShare (acc0 V c n hn).2 ∗ rest0 (F := F) c)
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn).1 ∗ owns (c : Thread nD τ) scM1 fullShare (acc0 V c n hn).2 ∗ rest0 (F := F) c)
      ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)).1 ∗ owns (c : Thread nD τ) scM1 fullShare (acc0 V c (n - 1) (by omega)).2 ∗ rest0 (F := F) c)
      ∗ (∃ r, prngReg c r)) := by
  cases n with
  | zero => exact absurd rfl hz
  | succ n => rfl

/-- The proof data of pipeline 0 on core `c`: the arrays as the region finds them; after the body at point `t` each
    input's buffer at its block, each output's at the broadcast of the scratch cell the point leaves (read only at the
    points j = 7, where the block is written back; elsewhere the window is idle); the invariant `PhiS0`; the shared
    input array's share halved between the two input windows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (acc0 V c t.val t.isLt).1
    | ⟨3, _⟩ => k0_pay7 (acc0 V c t.val t.isLt).2
  Φ t := PhiS0 V c t.val (Nat.le_of_lt_succ t.isLt)
  q w := match w with
    | ⟨0, _⟩ => (fullShare : PosShare TreeShare).left
    | ⟨1, _⟩ => (fullShare : PosShare TreeShare).right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (acc0 V c t.val t.isLt).1 := by dsimp only [dat0]
theorem after0_3 (c : Dev nD) (t : Fin cfg0.N) : (dat0 V c).after 3 t = k0_pay7 (acc0 V c t.val t.isLt).2 := by dsimp only [dat0]

/-! ## The body obligation, at a generic point -/

/-- Each input's current staging buffer holds its block at every point, fetched there or not: where the pipeline does
    not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- At any position the invariant gives the two scratch cells at some contents, the other scoped buffers and the
    generator register: what the cells hold is forgotten. -/
theorem PhiS0_forget (c : Dev nD) (n : ℕ) (h : n ≤ cfg0.N) :
    PhiS0 V c n h ⊢ iprop(iprop((∃ d, owns (c : Thread nD τ) scM0 fullShare d) ∗ (∃ d, owns (c : Thread nD τ) scM1 fullShare d) ∗ rest0 (F := F) c)
          ∗ (∃ r, prngReg c r)) := by
  cases n with
  | zero => rw [PhiS0_zero V c 0 h rfl, PhiA0_eq]
  | succ n =>
    rw [PhiS0_succ]
    iintro ⟨⟨HS0, HS1, Hr⟩, Hg⟩
    isplitl [HS0 HS1 Hr]
    · isplitl [HS0]; · iexists _; iexact HS0
      isplitl [HS1]; · iexists _; iexact HS1
      iexact Hr
    iexact Hg

/-- What the body leaves in the inputs' buffers: their blocks (the windows are never idle). -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
/-- At j = 7 the outputs' buffers are left at the broadcast of the point's cells. -/
theorem leaves0_2 (c : Dev nD) (t : Fin cfg0.N) (h : cond0_1 (grid0.coords t)) :
    (dat0 V c).leavesExact 2 t = owns (c : Thread nD τ) (ms0_2 t) fullShare (k0_pay6 (acc0 V c t.val t.isLt).1) := by
  rw [show (dat0 V c).leavesExact 2 t = owns (c : Thread nD τ) (ms0_2 t) fullShare ((dat0 V c).after 2 t) from by
    unfold Dat.leavesExact; rw [liveAt0_2 t h], after0_2]
theorem leaves0_3 (c : Dev nD) (t : Fin cfg0.N) (h : cond0_1 (grid0.coords t)) :
    (dat0 V c).leavesExact 3 t = owns (c : Thread nD τ) (ms0_3 t) fullShare (k0_pay7 (acc0 V c t.val t.isLt).2) := by
  rw [show (dat0 V c).leavesExact 3 t = owns (c : Thread nD τ) (ms0_3 t) fullShare ((dat0 V c).after 3 t) from by
    unfold Dat.leavesExact; rw [liveAt0_3 t h], after0_3]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; by the column tile j the point is in one of three
    cases (j = 0: the cells are reset, then updated; 0 < j < 7: updated from what the point before left; j = 7: updated,
    then broadcast into the outputs), and that case's run applies; the invariant hands over the two cells at what the
    point before left (at anything where they are reset) and takes them back at this point's contents; away from j = 7
    the outputs' buffers go back as they came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, PhiS0_castSucc]
  have hN : t.val < 128 := lt_of_lt_of_eq t.isLt (show cfg0.N = 128 from N_0)
  by_cases h0 : t.val % 8 = 0
  · have h1 : ¬t.val % 8 = 7 := by omega
    have hc1 : ¬cond0_1 (grid0.coords t) := fun h => h1 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1)]
    rw [acc0_reset V c t h0]; unfold accStep; dsimp only
    refine (sep_mono (PhiS0_forget V c _ _) .rfl).trans ?_
    iintro ⟨⟨⟨HS0, HS1, Hr⟩, Hg⟩, Ho, ⟨%d0, H0⟩, ⟨%d1, H1⟩, ⟨%d2, H2⟩, ⟨%d3, H3⟩⟩
    iapply (runA c (grid0.coords t) _ _ _ _ _ _ _ _ _ _ _ _ ((hcond0_0 t).mpr h0) hc1 (iblk0 V c 0 t) (iblk0 V c 1 t) _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [acc0_step V c t h0, PhiS0_pos V c _ _ hz]; unfold accStep; dsimp only
    by_cases h1 : t.val % 8 = 7
    · have hc1 : cond0_1 (grid0.coords t) := (hcond0_1 t).mpr h1
      rw [leaves0_2 V c t hc1, leaves0_3 V c t hc1, acc0_step V c t h0]; unfold accStep; dsimp only
      iintro ⟨⟨⟨HS0, HS1, Hr⟩, Hg⟩, Ho, ⟨%d0, H0⟩, ⟨%d1, H1⟩, ⟨%d2, H2⟩, ⟨%d3, H3⟩⟩
      iapply (runC c (grid0.coords t) _ _ _ _ _ _ _ _ _ _ _ _ hc0 hc1 (iblk0 V c 0 t) (iblk0 V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hr⟩, Hg⟩, Ho, ⟨%d0, H0⟩, ⟨%d1, H1⟩, ⟨%d2, H2⟩, ⟨%d3, H3⟩⟩
      iapply (runB c (grid0.coords t) _ _ _ _ _ _ _ _ _ _ _ _ hc0 hc1 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the scratch cells' contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.KIDiag.lean ====
/-
  Region 1 (the diagonal-block kernel) as proof data, at any float instance.

  The grid has 8 points; point t handles graphs 16 t .. 16 t + 15.  The body loads the tile's 16 x 128 x 512 block
  of embeddings and the two 1 x 1 scalars (scale, shift), multiplies each graph's 128 x 512 block by its own
  transpose, scales and shifts, and stores the 16 x 128 x 128 result whole; every point writes its block back.
-/
import proofs.«405393_j40785009443380_2_alg».proof.Proof.Gen.KernelIdeal.Launch
import proofs.«405393_j40785009443380_2_alg».proof.Proof.Gen.KernelIdeal.Skeleton
import proofs.«405393_j40785009443380_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: the arrays as the region finds them; after the body at point `t` each
    input's buffer at its block and the output's at the body's one payload of the three input blocks; the class
    invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-! ## The input windows at a point

Window 0 is fetched at every point; windows 1 and 2 (the two scalars) are fetched at the first point only and their
block index never moves.  In both cases the current staging buffer holds the window's block when the body runs. -/

/-- The block the transfers read at a point is the block of the entry contents. -/
theorem blockOf1 (c : Dev nD) (w : Fin cfg1.W) (t : Fin cfg1.N) : (dat1 V c).blockOf w t = iblk1 V c w t := by
  unfold Dat.blockOf iblk1; rw [A_eq1]

theorem before1_0 (c : Dev nD) (t : Fin cfg1.N) (d) : (dat1 V c).before 0 t d = iblk1 V c 0 t := by
  rw [(dat1 V c).before_in_eq_fetched 0 rfl (fun _ => rfl) (fun _ _ _ => rfl)
    (fun t => by rw [after1_0, blockOf1]) t d]
  unfold Dat.fetched; rw [blockOf1]; rfl

theorem before1_1 (c : Dev nD) (t : Fin cfg1.N) (d) : (dat1 V c).before 1 t d = iblk1 V c 1 t := by
  rw [(dat1 V c).before_in_eq_fetched 1 rfl (fun _ => rfl) (fun _ _ _ => rfl)
    (fun t => by rw [after1_1, blockOf1]) t d]
  unfold Dat.fetched; rw [blockOf1]; rfl

theorem before1_2 (c : Dev nD) (t : Fin cfg1.N) (d) : (dat1 V c).before 2 t d = iblk1 V c 2 t := by
  rw [(dat1 V c).before_in_eq_fetched 2 rfl (fun _ => rfl) (fun _ _ _ => rfl)
    (fun t => by rw [after1_2, blockOf1]) t d]
  unfold Dat.fetched; rw [blockOf1]; rfl

/-! ## The body on whole staging buffers -/

/-- The zero offsets of a rank-3 and of a rank-2 access, as constant functions. -/
private theorem off3 : (![0, 0, 0] : Fin 3 → ℕ) = fun _ => 0 := funext fun a => by fin_cases a <;> rfl
private theorem off2 : (![0, 0] : Fin 2 → ℕ) = fun _ => 0 := funext fun a => by fin_cases a <;> rfl

/-- The whole-buffer rectangle of the output block. -/
abbrev rOut1 : Rect S16x128x128 := Rect.unit (s := S16x128x128) ![0, 0, 0] S16x128x128.size inb_S16x128x128_S16x128x128_0_0_0

set_option maxHeartbeats 1000000 in
/-- The body on whole staging memrefs: the three inputs at contents `x0 x1 x2`, the output at anything, runs to the
    continuation holding the inputs as they were and the output at the payload of the three inputs. -/
theorem sound_kernel1 (c : Dev nD) (E : Set ℕ) (i : grid1.Coords)
    (arg1 : Memref sig .tc .vmem S16x128x512 .bf16) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S16x128x128 .f32) (harg4 : arg4.IsWhole)
    (x0 : Vec F S16x128x512 .bf16) (x1 x2 : Vec F S1x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E (cc1__diag_kernel i arg1 harg1 arg2 harg2 arg3 harg3 arg4 harg4) K := by
  simp only [cc1__diag_kernel_eq_skeleton]; unfold cc1__diag_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the buffer, so the buffer reads as the store's payload; each load through the whole-buffer
  -- rectangle reads its buffer's contents
  rw [View.read_writes_eq_canon _ _ _
      (fun y => ⟨_, List.mem_singleton_self _, View.mem_set_unit_zero (S := S16x128x128) off3 inb_S16x128x128_S16x128x128_0_0_0 y⟩),
    View.canon_unit_zero (S := S16x128x128) off3 inb_S16x128x128_S16x128x128_0_0_0]
  exact congr (congr (congrArg (k1_pay1 (F := F)) (View.ld_unit_zero (S := S16x128x512) off3 inb_S16x128x512_S16x128x512_0_0_0 _))
    (View.ld_unit_zero (S := S1x1) off2 inb_S1x1_S1x1_0_0 _)) (View.ld_unit_zero (S := S1x1) off2 inb_S1x1_S1x1_0_0 _)

/-! ## The body at a point of the grid -/

/-- The body at any point: each input's staging buffer holds its block, the output's holds anything; the body leaves
    the inputs in place and the output at the payload of the three blocks.  The invariant and what the core owes pass
    through unread. -/
theorem body_at1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  have hΦ : (dat1 V c).Φ t.succ = (dat1 V c).Φ t.castSucc := rfl
  have ho : (dat1 V c).owesAt () t.succ = (dat1 V c).owesAt () t.castSucc := rfl
  simp only [before1_0, before1_1, before1_2]
  rw [hΦ, ho, after1_0, after1_1, after1_2, after1_3]
  unfold bodyAt1
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact body_at1 V c t

end Cert.KernelIdeal.Hand

end
-- ==== Proof.KIRunCond.lean ====
/-
  The run of @main over its segments, with the result buffer named in the post.

  @main is eleven items: a host stretch, region 0, a host stretch, region 1, and seven host stretches.  Between two
  items each core holds every unscoped buffer whole at a known valuation (the launch contents, then each host
  stretch's operations applied, then what a region leaves in its output arrays).  Given one segment record per
  region around those thread states, the whole program runs, faults nowhere, and ends with the result buffer at the
  last valuation's contents and the argument arrays as launched.
-/
import proofs.«405393_j40785009443380_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run with the RESULT named. Under the same hypotheses as the conditional frame — per region a segment record
    entered from the thread state before it and left at the one after it — every weakly fair execution of @main from
    memory `m` with zero counters terminates, and every final memory holds the result buffer at the last valuation's
    contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v35) = V11 m outs c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, .rfl, .rfl, .rfl, .rfl, .rfl, .rfl, sep_mono .rfl (hE2 c)⟩)
    (hinit := ?_) (QY := fun c s => s.mem ((c.tc : Thread nD τ).loc main_v35) = V11 m outs c main_v35 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v35) (Finset.mem_filter.mpr ⟨StableHlo.devRef_mem_tcRefs main_v35, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c)⟩
    · iexact HSI

end Cert.KernelIdeal.Hand

end
-- ==== Proof.KIRun.lean ====
/-
  The kernel program's run: both regions' segment records and the launch.

  The thread state between two items of @main is: every unscoped buffer whole at the item boundary's valuation, the
  generator register at some state, nothing owed.  Region 1's four arrays are distinct buffers, split out of the
  unscoped buffers at entry and put back at exit with the output array at what the write-backs leave.  Region 0's two
  input windows read ONE array: at entry that buffer's full share is halved between the two windows, at exit the
  two halves (both still at the entry contents: an input array is never written) are joined again.
-/
import proofs.«405393_j40785009443380_2_alg».proof.Proof.KIMinMaxDat
import proofs.«405393_j40785009443380_2_alg».proof.Proof.KIDiag
import proofs.«405393_j40785009443380_2_alg».proof.Proof.KIRunCond
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The contents the regions leave, and the valuations at the regions' entries -/

/-- Region 0's entry contents, read at the TensorCore's references. -/
abbrev E1 (c : Dev nD) (b : Ref sig .tc) : Buf (Elt F) ((c : Thread nD τ).loc b) := V1 m c b

/-- What region 0 leaves in its two output arrays (every other reference: a placeholder nothing reads). -/
def outsA : Outs (F := F) := fun _ =>
  Function.update (Function.update (fun r c => m ((c : Thread nD τ).loc r))
    main_v1_0 (fun c => (dat0 (E1 m) c).arrAt 2 cfg0.N)) main_v1_1 (fun c => (dat0 (E1 m) c).arrAt 3 cfg0.N)

/-- Region 1's entry contents: region 0's results, then the host lines between the regions. -/
abbrev E3 (c : Dev nD) (b : Ref sig .tc) : Buf (Elt F) ((c : Thread nD τ).loc b) := V3 m (outsA m) c b

/-- What both regions leave: region 0's two output arrays and region 1's one. -/
def outs : Outs (F := F) := fun J =>
  Function.update (outsA m J) main_v12 (fun c => (dat1 (E3 m) c).arrAt 3 cfg1.N)

theorem outs_v1_0 (J : ℕ) (c : Dev nD) : outs m J main_v1_0 c = (dat0 (E1 m) c).arrAt 2 cfg0.N := by
  unfold outs outsA
  rw [Function.update_of_ne (by decide), Function.update_of_ne (by decide), Function.update_self]

theorem outs_v1_1 (J : ℕ) (c : Dev nD) : outs m J main_v1_1 c = (dat0 (E1 m) c).arrAt 3 cfg0.N := by
  unfold outs outsA
  rw [Function.update_of_ne (by decide), Function.update_self]

theorem outs_v12 (J : ℕ) (c : Dev nD) : outs m J main_v12 c = (dat1 (E3 m) c).arrAt 3 cfg1.N := by
  unfold outs
  rw [Function.update_self]

theorem outsA_v1_0 (J : ℕ) (c : Dev nD) : outsA m J main_v1_0 c = (dat0 (E1 m) c).arrAt 2 cfg0.N := by
  unfold outsA
  rw [Function.update_of_ne (by decide), Function.update_self]

theorem outsA_v1_1 (J : ℕ) (c : Dev nD) : outsA m J main_v1_1 c = (dat0 (E1 m) c).arrAt 3 cfg0.N := by
  unfold outsA
  rw [Function.update_self]

/-- The valuation after region 0 reads only region 0's two results: it is the same over both families. -/
theorem V2_outs (c : Dev nD) : V2 m (outs m) c = V2 m (outsA m) c := by
  unfold V2
  rw [outs_v1_0, outs_v1_1, outsA_v1_0, outsA_v1_1]

theorem V3_outs (c : Dev nD) : V3 m (outs m) c = V3 m (outsA m) c := by
  unfold V3
  rw [V2_outs]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## Region 1 -/

/-- Region 1's exit contents at the TensorCore's references. -/
abbrev E4 (c : Dev nD) (b : Ref sig .tc) : Buf (Elt F) ((c : Thread nD τ).loc b) := V4 m (outs m) c b

theorem hF1 (c : Dev nD) (w : Fin cfg1.W) : (dat1 (E3 m) c).arrAt w cfg1.N = E4 m c (Pipeline.arrRef spec1 w) := by
  have h3 : ∀ b : Ref sig .tc, b ∉ ([main_v12] : List (Ref sig .tc)) → E4 m c b = E3 m c b := fun b hb => by
    show V4 m (outs m) c b = V3 m (outsA m) c b
    rw [V4_of m (outs m) c b hb, V3_outs]
  match w with
  | ⟨0, _⟩ => exact ((dat1 (E3 m) c).arrAt_in 0 rfl _).trans ((A_eq1 (E3 m) c 0).trans (h3 _ (by decide)).symm)
  | ⟨1, _⟩ => exact ((dat1 (E3 m) c).arrAt_in 1 rfl _).trans ((A_eq1 (E3 m) c 1).trans (h3 _ (by decide)).symm)
  | ⟨2, _⟩ => exact ((dat1 (E3 m) c).arrAt_in 2 rfl _).trans ((A_eq1 (E3 m) c 2).trans (h3 _ (by decide)).symm)
  | ⟨3, _⟩ =>
    show _ = V4 m (outs m) c main_v12
    unfold V4
    rw [Function.update_self, outs_v12]
    rfl

theorem hrest1 (c : Dev nD) : ∀ b, b ∉ Finset.univ.image (Pipeline.arrRef spec1) → E4 m c b = V3 m (outs m) c b :=
  fun b hb => V4_of m (outs m) c b (fun h => hb (by
    rw [List.mem_singleton] at h; subst h
    exact Finset.mem_image.mpr ⟨3, Finset.mem_univ _, rfl⟩))

set_option backward.isDefEq.respectTransparency.types false in
/-- REGION 1 over the thread state: entered from every unscoped buffer at the valuation after the host lines between
    the regions, left with the output array at what the write-backs leave. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (fun b hb => (hrest1 m c b hb).trans (by rw [V3_outs]))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0: two input windows on one array -/

/-- Region 0's exit contents at the TensorCore's references. -/
abbrev E2 (c : Dev nD) (b : Ref sig .tc) : Buf (Elt F) ((c : Thread nD τ).loc b) := V2 m (outs m) c b

/-- The distinct buffers behind region 0's four windows are three: the shared input array and the two output arrays. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1_0) ↦{fullShare} W main_v1_0)
          ∗ (((c : Thread nD τ).loc main_v1_1) ↦{fullShare} W main_v1_1)) := by
  unfold Pipeline.arrBufs
  rw [bigSep_eq_bigSepL_of_eq [main_v0, main_v1_0, main_v1_1] (by decide) (by decide)]
  rfl

/-- Region 0's arrays window by window: the shared input array at the left and the right half of its share, the two
    output arrays whole. -/
theorem arrays0_eq (c : Dev nD) (Fn : (w : Fin cfg0.W) → Buf (Elt F) ((cfg0.win w).arr.view.loc (c : Thread nD τ))) :
    ((dat0 (E1 m) c).arrays Fn : sProp 𝕄)
      = iprop((((c : Thread nD τ).loc main_v0) ↦{(fullShare : PosShare TreeShare).left} Fn 0)
          ∗ (((c : Thread nD τ).loc main_v0) ↦{(fullShare : PosShare TreeShare).right} Fn 1)
          ∗ (((c : Thread nD τ).loc main_v1_0) ↦{fullShare} Fn 2)
          ∗ (((c : Thread nD τ).loc main_v1_1) ↦{fullShare} Fn 3)) := by
  unfold Dat.arrays
  rw [bigSep_W0, (arr_whole0 0).set_eq_univ, (arr_whole0 2).set_eq_univ, (arr_whole0 3).set_eq_univ]
  rfl

/-- ENTRY: the shared array's full share halved between the two input windows. -/
theorem hsplit0 (c : Dev nD) :
    (Pipeline.arrBufs spec0 c (E1 m c) : sProp 𝕄) ⊢ (dat0 (E1 m) c).arrays ((dat0 (E1 m) c).arrAt · 0) := by
  rw [arrBufs0_eq, arrays0_eq]
  iintro ⟨H0, H2, H3⟩
  ihave H0' := (pointsTo_share (PosShare.mem_left_op_right fullShare)).1 $$ H0
  icases H0' with ⟨HL, HR⟩
  isplitl [HL]; · iexact HL
  isplitl [HR]; · iexact HR
  isplitl [H2]; · iexact H2
  iexact H3

theorem E2_v0 (c : Dev nD) : E2 m c main_v0 = E1 m c main_v0 :=
  V2_of m (outs m) c main_v0 (by decide)

theorem E2_v1_0 (c : Dev nD) : E2 m c main_v1_0 = (dat0 (E1 m) c).arrAt 2 cfg0.N := by
  show V2 m (outs m) c main_v1_0 = _
  unfold V2
  rw [Function.update_of_ne (StableHlo.devRef_ne_of_ne (by decide)), Function.update_self, outs_v1_0]

theorem E2_v1_1 (c : Dev nD) : E2 m c main_v1_1 = (dat0 (E1 m) c).arrAt 3 cfg0.N := by
  show V2 m (outs m) c main_v1_1 = _
  unfold V2
  rw [Function.update_self, outs_v1_1]

/-- EXIT: the two halves of the shared array, both still at its entry contents, joined; the output arrays at what the
    write-backs leave. -/
theorem hjoin0 (c : Dev nD) :
    (dat0 (E1 m) c).arrays ((dat0 (E1 m) c).arrAt · cfg0.N) ⊢ (Pipeline.arrBufs spec0 c (E2 m c) : sProp 𝕄) := by
  rw [arrBufs0_eq, arrays0_eq, E2_v0, E2_v1_0, E2_v1_1,
    show (dat0 (E1 m) c).arrAt 0 cfg0.N = E1 m c main_v0 from ((dat0 (E1 m) c).arrAt_in 0 rfl _).trans (A_eq0 (E1 m) c 0),
    show (dat0 (E1 m) c).arrAt 1 cfg0.N = E1 m c main_v0 from ((dat0 (E1 m) c).arrAt_in 1 rfl _).trans (A_eq0 (E1 m) c 1)]
  iintro ⟨HL, HR, H2, H3⟩
  isplitl [HL HR]
  · iapply (pointsTo_share (PosShare.mem_left_op_right fullShare)).2
    isplitl [HL] <;> iassumption
  isplitl [H2]; · iexact H2
  iexact H3

/-- Off region 0's arrays the exit contents are the entry contents. -/
theorem rest0_E2 (c : Dev nD) :
    (Pipeline.unscopedRest spec0 c (E2 m c) : sProp 𝕄) = Pipeline.unscopedRest spec0 c (E1 m c) := by
  unfold Pipeline.unscopedRest
  exact bigSep_congr fun b hb => by
    rw [show E2 m c b = E1 m c b from V2_of m (outs m) c b (fun h => (Finset.mem_sdiff.mp hb).2 (by
      rcases List.mem_cons.mp h with rfl | h
      · exact Finset.mem_image.mpr ⟨2, Finset.mem_univ _, rfl⟩
      · rw [List.mem_singleton] at h; subst h
        exact Finset.mem_image.mpr ⟨3, Finset.mem_univ _, rfl⟩))]

theorem hunscoped0 : ∀ w, (Pipeline.arrRef spec0 w).isScoped = false := by decide

set_option backward.isDefEq.respectTransparency.types false in
/-- REGION 0 over the thread state: entered from every unscoped buffer at the valuation after the first host line, left
    with the two output arrays at what the write-backs leave. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none, ← Pipeline.unscopedBufs_held (Ix := Unit) (Name := ℕ) (U := UR sig nD τ) (Lvl := ℕ) c (V1 m c),
      Pipeline.unscopedBufs_split₀ cfgs 0 hunscoped0 c (E1 m c)]
    iintro ⟨⟨⟨Ha, Hrest⟩, Hp, HO⟩, -, -⟩
    imodintro
    isplitl [Ha]; · iapply (hsplit0 m c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    rw [← Pipeline.unscopedBufs_held (Ix := Unit) (Name := ℕ) (U := UR sig nD τ) (Lvl := ℕ) c (V2 m (outs m) c),
      Pipeline.unscopedBufs_split₀ cfgs 0 hunscoped0 c (E2 m c),
      show (Pipeline.unscopedRest (cfgs 0).spec c (E2 m c) : sProp 𝕄) = Pipeline.unscopedRest spec0 c (E1 m c) from rest0_E2 m c]
    iintro ⟨Ha, HO, HY, Hrest⟩
    imodintro
    isplitl [Ha Hrest]
    · isplitl [Ha]; · iapply (hjoin0 m c); iexact Ha
      iexact Hrest
    isplitl [HY]; · iexact HY
    unfold Pipeline.Dat.owesAt Pipeline.owesWithin
    icases HO with ⟨%W, -, HO⟩; iexists W; iexact HO

/-! ## The launch -/

variable (ρ : Dev nD → PrngReg)

set_option backward.isDefEq.respectTransparency.types false in
/-- Every weakly fair execution of @main from memory `m` with zero counters terminates, faults nowhere, and ends with
    the result buffer at the last valuation's contents and the three argument arrays as launched. -/
theorem run_main : θ_run defs (onTc (τ := τ) (main (F := F))) ⟨m, fun _ => 0, ρ⟩ (fun r => ∀ c : Dev nD,
      r.2.mem ((c.tc : Thread nD τ).loc main_v35) = V11 m (outs m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl) (reg1 m) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.Spec.lean ====
/-
  The one function both programs compute, on the extended reals.

  From a 16384 x 512 matrix of embeddings E: the similarity of rows i and j is the inner product
  sim E i j = sum over k of E(i,k) * E(j,k); lo E and hi E are the least and the greatest similarity over all
  16384 x 16384 pairs; and entry k of the result, for gather indices row(k), col(k), is
  (sim E row(k) col(k) - lo E) / (hi E - lo E + eps), eps the float 1e-7 both programs carry.
-/
import Idealize.ShloMosaic.PureOps.Ideal
import Idealize.ShloMosaic.Lib.ValueIdx

noncomputable section

open scoped BigOperators

namespace Cert.Spec

open Idealize.ShloMosaic Idealize.ShloMosaic.ValueIdx

/-- The embeddings' shape and the gather indices' shape. -/
abbrev SEmb : Shape := ⟨2, ![16384, 512]⟩
abbrev SIdx : Shape := ⟨1, ![1040384]⟩

/-- The similarity of rows `i` and `j`: their inner product over the 512 features. -/
def sim (E : SEmb.Idx → EReal) (i j : Fin 16384) : EReal := ∑ k : Fin 512, E (ix2 i k) * E (ix2 j k)

/-- The least similarity over all pairs of rows. -/
def lo (E : SEmb.Idx → EReal) : EReal := ⨅ p : Fin 16384 × Fin 16384, sim E p.1 p.2

/-- The greatest similarity over all pairs of rows. -/
def hi (E : SEmb.Idx → EReal) : EReal := ⨆ p : Fin 16384 × Fin 16384, sim E p.1 p.2

/-- The float 1e-7 (its binary value) that keeps the normalisation's denominator off zero. -/
def eps : EReal := Ideal.ofBits .f32 0x33D6BF95#32

/-- The normalisation's denominator. -/
def den (E : SEmb.Idx → EReal) : EReal := hi E - lo E + eps

/-- A 32-bit word read as a row of the similarity matrix (the word's value, for a word below 16384). -/
def rowOf (w : BitVec 32) : Fin 16384 := ⟨w.toNat % 16384, Nat.mod_lt _ (by decide)⟩

/-- The 128 x 128 diagonal block a row lies in, and its position inside the block. -/
def blkOf (w : BitVec 32) : Fin 128 := ⟨(w.toNat / 128) % 128, Nat.mod_lt _ (by decide)⟩
def laneOf (w : BitVec 32) : Fin 128 := ⟨w.toNat % 128, Nat.mod_lt _ (by decide)⟩

/-- The result: entry `k` is the normalised similarity of rows `row k` and `col k`. -/
def G (E : SEmb.Idx → EReal) (row col : SIdx.Idx → BitVec 32) : SIdx.Idx → EReal :=
  fun k => Ideal.div (sim E (rowOf (row k)) (rowOf (col k)) - lo E) (den E)

end Cert.Spec

end
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
/-
  Reading a short stretch of host operations.

  `StableHlo.nary xs y f` writes `f` of the family of its operands' contents into `y`; for a LITERAL family of two
  references the result is stated here with each operand's contents at its own reference (the library has this form at
  four references, and at three, five and nine in a sibling file), so that a rewriting pass goes on into the operands.
  `read_stretch` is one rewriting pass over a goal about `StableHlo.after` of a literal stretch: it unfolds the fold and
  rewrites each operation's result at its own buffer to its function's value and at any other buffer to what was there
  (two references told apart by deciding), with the literal-family forms of `nary` only — never the general form, which
  leaves the operands under a binder.
-/
import Idealize.ShloMosaic.Lib.StableHlo.Run
import proofs.«405393_j40785009443380_2_alg».proof.Proof.LibNaryResult

noncomputable section

namespace Idealize.ShloMosaic.StableHlo

variable {nD : Nat} {τ : Topo} {sig : RefSig} {Val : EltTy → Type}
variable {x a y : Ref sig .tc}

/-- `nary` over a LITERAL family of 2 references: the result with each operand's contents at its own reference. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl
/-- The same with the result reference un-indexed, for `simp`. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in
/-- One rewriting pass over a literal stretch's fold (see the header). -/
macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.KIHostIdx.lean ====
/-
  The host lines after region 1: the gather's three indices are (row / 128, row mod 128, col mod 128).

  For a row index below 16384 jnp's floor division by 128 is the plain quotient and its remainder the plain
  remainder (no sign correction binds), both are non-negative so the wrap of negative indices does nothing, and the
  quotient is below 128 so the gather's clamp does nothing: entry k of the result is the diagonal-block array at
  (row k / 128, row k mod 128, col k mod 128).

  In order: the three chains on one 32-bit word; the gather of single elements of a rank-3 array read at an index; a
  column of a three-column concatenation and a vector laid out as a column, read at an index; each stretch of host
  operations read back as a function of the contents before it; the stretches chained.
-/
import proofs.«405393_j40785009443380_2_alg».proof.Proof.Gen.KernelIdeal.Regions
import proofs.«405393_j40785009443380_2_alg».proof.Proof.Spec
import proofs.«405393_j40785009443380_2_alg».proof.Proof.LibReadStretch
import Idealize.ShloMosaic.Lib.StableHlo.Run
import Idealize.ShloMosaic.Lib.StableHlo.Predicate
import Idealize.ShloMosaic.Lib.Affine
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## Words: floor division and remainder by 128, and the wrap of a negative index, on a non-negative word -/

/-- The sign of a word as a word: 0, -1 or 1. -/
def sgnW (w : BitVec 32) : BitVec 32 := if w = 0 then 0 else if w.msb then -1 else 1

/-- Floor division of the word `w` by the word `d`, operation by operation: the quotient rounded toward zero, less one
    where the signs differ and the remainder is not zero. -/
def fdivW (d w : BitVec 32) : BitVec 32 :=
  Scalar.select
    (IntOp.andi (IntOp.cmpi .ne (sgnW w) (sgnW d)) (IntOp.cmpi .ne (IntOp.remsi .host w d) 0#32))
    (IntOp.subi (IntOp.divsi .host w d) 1#32)
    (IntOp.divsi .host w d)

/-- The floor remainder of the word `w` by the word `d`, operation by operation: the remainder of the dividend's
    sign, plus the divisor where it is not zero and its sign is not the divisor's. -/
def fremW (d w : BitVec 32) : BitVec 32 :=
  Scalar.select
    (IntOp.andi (IntOp.cmpi .ne (IntOp.cmpi .slt (IntOp.remsi .host w d) 0#32) (IntOp.cmpi .slt d 0#32))
      (IntOp.cmpi .ne (IntOp.remsi .host w d) 0#32))
    (IntOp.addi (IntOp.remsi .host w d) d)
    (IntOp.remsi .host w d)

/-- The wrap of a negative index into an axis of 128. -/
def wrapW (x : BitVec 32) : BitVec 32 := Scalar.select (IntOp.cmpi .slt x 0#32) (IntOp.addi x 128#32) x

theorem divsi_128 (w : BitVec 32) (hw : w.toNat < 2 ^ 31) :
    IntOp.divsi .host w 128#32 = BitVec.ofNat 32 (w.toNat / 128) := by
  have hcorner : ¬ IntOp.SDivCorner w 128#32 := by
    intro hc; rcases hc with hc | ⟨_, hc⟩ <;> exact absurd hc (by decide)
  have hm : w.msb = false := BitVec.msb_eq_false_iff_two_mul_lt.mpr (by omega)
  apply BitVec.eq_of_toNat_eq
  simp only [IntOp.divsi, if_neg hcorner, BitVec.sdiv_eq, hm, show (128#32 : BitVec 32).msb = false from by decide,
    BitVec.udiv_eq, BitVec.toNat_udiv, BitVec.toNat_ofNat, Nat.reducePow, Nat.reduceMod]
  omega

theorem remsi_128 (w : BitVec 32) (hw : w.toNat < 2 ^ 31) :
    IntOp.remsi .host w 128#32 = BitVec.ofNat 32 (w.toNat % 128) := by
  apply BitVec.eq_of_toNat_eq
  rw [show (128#32 : BitVec 32) = BitVec.ofNat 32 128 from rfl, IntOp.toNat_remsi .host (by omega) 128 (by omega) (by omega),
    BitVec.toNat_ofNat]
  omega

/-- A word below 2³¹ is not negative. -/
theorem slt_zero_of_lt (x : BitVec 32) (hx : x.toNat < 2 ^ 31) : IntOp.cmpi .slt x 0#32 = 0#1 := by
  apply eq_zero_of_ne_one
  intro h
  have := (StableHlo.Predicate.slt_iff_toNat hx (by decide)).mp h
  simp at this

theorem wrapW_eq (x : BitVec 32) (hx : x.toNat < 2 ^ 31) : wrapW x = x := by
  unfold wrapW
  rw [slt_zero_of_lt x hx, select_zero]

theorem fdivW_eq (w : BitVec 32) (hw : w.toNat < 2 ^ 31) :
    fdivW 128#32 w = BitVec.ofNat 32 (w.toNat / 128) := by
  have hm : w.msb = false := BitVec.msb_eq_false_iff_two_mul_lt.mpr (by omega)
  have hc : IntOp.andi (IntOp.cmpi .ne (sgnW w) (sgnW 128#32)) (IntOp.cmpi .ne (IntOp.remsi .host w 128#32) 0#32) = 0#1 := by
    by_cases h0 : w = 0
    · subst h0; decide
    · have hs : sgnW w = sgnW 128#32 := by
        unfold sgnW
        rw [if_neg h0, hm]
        decide
      rw [hs]
      generalize IntOp.cmpi .ne (IntOp.remsi .host w 128#32) 0#32 = c
      generalize sgnW 128#32 = s
      have : IntOp.cmpi .ne s s = 0#1 := by
        simp [IntOp.cmpi]
      rw [this]
      revert c; decide
  unfold fdivW
  rw [hc, select_zero, divsi_128 w hw]

theorem fremW_eq (w : BitVec 32) (hw : w.toNat < 2 ^ 31) :
    fremW 128#32 w = BitVec.ofNat 32 (w.toNat % 128) := by
  have hr : IntOp.remsi .host w 128#32 = BitVec.ofNat 32 (w.toNat % 128) := remsi_128 w hw
  have hlt : (BitVec.ofNat 32 (w.toNat % 128)).toNat < 2 ^ 31 := by
    rw [BitVec.toNat_ofNat]; omega
  unfold fremW
  rw [hr, slt_zero_of_lt _ hlt, show IntOp.cmpi .slt 128#32 0#32 = 0#1 from by decide]
  generalize IntOp.cmpi .ne (BitVec.ofNat 32 (w.toNat % 128)) 0#32 = c
  have : IntOp.andi (IntOp.cmpi .ne 0#1 0#1) c = 0#1 := by revert c; decide
  rw [this, select_zero]

/-! ## The gather of single elements of a rank-3 array by rows of three start indices -/

/-- The dimension numbers of `x[i0, i1, i2]` element by element (operand `[A, B, C]`, start indices `[N, 3]`, result
    `[N]`): no offset axis, the operand's three axes collapsed and named in order by the start index, the index
    vector on axis 1, slices of one element. -/
private abbrev pickDims (A B C N : ℕ)
    (wf : GatherDims.WF (⟨3, ![A, B, C]⟩ : Shape) (⟨2, ![N, 3]⟩ : Shape) (⟨1, ![N]⟩ : Shape) [] [0, 1, 2] [] [0, 1, 2] [] 1
      ![1, 1, 1]) :
    GatherDims (⟨3, ![A, B, C]⟩ : Shape) (⟨2, ![N, 3]⟩ : Shape) (⟨1, ![N]⟩ : Shape) :=
  ⟨[], [0, 1, 2], [], [], [0, 1, 2], 1, ![1, 1, 1], wf⟩

/-- Entry `r` of the gather is the operand at the three words of row `r` of the start indices, each read as a signed
    integer and clamped into its axis (the slice size is 1, so the clamp's upper end is the axis size less one). -/
theorem gather_pick_apply {α : Type} {A B C N : ℕ} (hA : 0 < A) (hB : 0 < B) (hC : 0 < C)
    (d : GatherDims (⟨3, ![A, B, C]⟩ : Shape) (⟨2, ![N, 3]⟩ : Shape) (⟨1, ![N]⟩ : Shape))
    (hod : d.offsetDims = []) (hcs : d.collapsedSliceDims = [0, 1, 2]) (hob : d.operandBatchingDims = [])
    (hsb : d.startIndicesBatchingDims = []) (hsim : d.startIndexMap = [0, 1, 2]) (hiv : d.indexVectorDim = 1)
    (hss : d.sliceSizes = ![1, 1, 1])
    (x : (⟨3, ![A, B, C]⟩ : Shape).Idx → α) (idx : IVec (⟨2, ![N, 3]⟩ : Shape) 32) (r : Fin N) :
    Host.gather d x idx (ix1 r)
      = x (ix3 (⟨min (idx (ix2 r (0 : Fin 3))).toInt.toNat (A - 1), by omega⟩ : Fin A)
               (⟨min (idx (ix2 r (1 : Fin 3))).toInt.toNat (B - 1), by omega⟩ : Fin B)
               (⟨min (idx (ix2 r (2 : Fin 3))).toInt.toNat (C - 1), by omega⟩ : Fin C)) := by
  obtain ⟨od, cs, ob, sb, sim, iv, ss, wf⟩ := d
  dsimp only at hod hcs hob hsb hsim hiv hss
  subst hod hcs hob hsb hsim hiv hss
  unfold Host.gather
  congr 1
  funext a
  refine Fin.ext ?_
  have hsi : ∀ c : Fin (pickDims A B C N wf).startIndexMap.length,
      (pickDims A B C N wf).siIdx (ix1 r) c = ix2 r (⟨c.val, c.isLt⟩ : Fin 3) := by
    intro c
    funext b; refine Fin.ext ?_
    match b with
    | ⟨0, _⟩ => rfl
    | ⟨1, _⟩ => rfl
  match a with
  | ⟨0, _⟩ =>
    show (pickDims A B C N wf).start (ix1 r) idx 0 + (pickDims A B C N wf).batchCoord (ix1 r) 0
      + (pickDims A B C N wf).offCoord (ix1 r) 0 = min (idx (ix2 r (0 : Fin 3))).toInt.toNat (A - 1)
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 3) ∈ (pickDims A B C N wf).startIndexMap from List.mem_cons_self)]
    rw [hsi]
    rfl
  | ⟨1, _⟩ =>
    show (pickDims A B C N wf).start (ix1 r) idx 1 + (pickDims A B C N wf).batchCoord (ix1 r) 1
      + (pickDims A B C N wf).offCoord (ix1 r) 1 = min (idx (ix2 r (1 : Fin 3))).toInt.toNat (B - 1)
    rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 3) ∈ (pickDims A B C N wf).startIndexMap from List.mem_cons_of_mem _ List.mem_cons_self)]
    rw [hsi]
    rfl
  | ⟨2, _⟩ =>
    show (pickDims A B C N wf).start (ix1 r) idx 2 + (pickDims A B C N wf).batchCoord (ix1 r) 2
      + (pickDims A B C N wf).offCoord (ix1 r) 2 = min (idx (ix2 r (2 : Fin 3))).toInt.toNat (C - 1)
    rw [GatherDims.batchCoord_eq_zero _ _ _ List.not_mem_nil,
      GatherDims.offCoord_eq_zero _ _ _ (fun h => ((GatherDims.mem_sKept _ _).mp h).1 (List.mem_cons_of_mem _ (List.mem_cons_of_mem _ List.mem_cons_self)))]
    simp only [Nat.add_zero]
    unfold GatherDims.start
    rw [dif_pos (show (2 : Fin 3) ∈ (pickDims A B C N wf).startIndexMap from List.mem_cons_of_mem _ (List.mem_cons_of_mem _ List.mem_cons_self))]
    rw [hsi]
    rfl

/-- The same when the three words of row `r`, read signed, are the coordinates `i0`, `i1`, `i2` of an element: the clamp
    does nothing and entry `r` of the gather is that element. -/
theorem gather_pick_inrange {α : Type} {A B C N : ℕ}
    (d : GatherDims (⟨3, ![A, B, C]⟩ : Shape) (⟨2, ![N, 3]⟩ : Shape) (⟨1, ![N]⟩ : Shape))
    (hod : d.offsetDims = []) (hcs : d.collapsedSliceDims = [0, 1, 2]) (hob : d.operandBatchingDims = [])
    (hsb : d.startIndicesBatchingDims = []) (hsim : d.startIndexMap = [0, 1, 2]) (hiv : d.indexVectorDim = 1)
    (hss : d.sliceSizes = ![1, 1, 1])
    (x : (⟨3, ![A, B, C]⟩ : Shape).Idx → α) (idx : IVec (⟨2, ![N, 3]⟩ : Shape) 32) (r : Fin N)
    (i0 : Fin A) (i1 : Fin B) (i2 : Fin C)
    (h0 : (idx (ix2 r (0 : Fin 3))).toInt.toNat = i0.val) (h1 : (idx (ix2 r (1 : Fin 3))).toInt.toNat = i1.val)
    (h2 : (idx (ix2 r (2 : Fin 3))).toInt.toNat = i2.val) :
    Host.gather d x idx (ix1 r) = x (ix3 i0 i1 i2) := by
  have hA := i0.isLt
  have hB := i1.isLt
  have hC := i2.isLt
  rw [gather_pick_apply (by omega) (by omega) (by omega) d hod hcs hob hsb hsim hiv hss x idx r]
  congr 1
  funext a
  refine Fin.ext ?_
  match a with
  | ⟨0, _⟩ => show min (idx (ix2 r (0 : Fin 3))).toInt.toNat (A - 1) = i0.val; omega
  | ⟨1, _⟩ => show min (idx (ix2 r (1 : Fin 3))).toInt.toNat (B - 1) = i1.val; omega
  | ⟨2, _⟩ => show min (idx (ix2 r (2 : Fin 3))).toInt.toNat (C - 1) = i2.val; omega

/-! ## A column of three concatenated columns, and a vector laid out as a column, read at an index -/

/-- Entry `(r, j)` of three `[n, 1]` columns concatenated along axis 1 is entry `(r, 0)` of column `j`. -/
theorem concat3_col {α : Type} {n : ℕ} (u0 u1 u2 : (⟨2, ![n, 1]⟩ : Shape).Idx → α)
    (h : Shape.Concatenates [(⟨2, ![n, 1]⟩ : Shape), ⟨2, ![n, 1]⟩, ⟨2, ![n, 1]⟩] (⟨2, ![n, 3]⟩ : Shape) 1) (r : Fin n) :
    concatenate (⟨2, ![n, 3]⟩ : Shape) 1 [⟨⟨2, ![n, 1]⟩, u0⟩, ⟨⟨2, ![n, 1]⟩, u1⟩, ⟨⟨2, ![n, 1]⟩, u2⟩] h (ix2 r (0 : Fin 3))
        = u0 (ix2 r (0 : Fin 1))
      ∧ concatenate (⟨2, ![n, 3]⟩ : Shape) 1 [⟨⟨2, ![n, 1]⟩, u0⟩, ⟨⟨2, ![n, 1]⟩, u1⟩, ⟨⟨2, ![n, 1]⟩, u2⟩] h (ix2 r (1 : Fin 3))
        = u1 (ix2 r (0 : Fin 1))
      ∧ concatenate (⟨2, ![n, 3]⟩ : Shape) 1 [⟨⟨2, ![n, 1]⟩, u0⟩, ⟨⟨2, ![n, 1]⟩, u1⟩, ⟨⟨2, ![n, 1]⟩, u2⟩] h (ix2 r (2 : Fin 3))
        = u2 (ix2 r (0 : Fin 1)) := by
  have hi : ∀ (j : Fin 3) (b : Fin (⟨2, ![n, 1]⟩ : Shape).rank), b.cast (rfl : (⟨2, ![n, 1]⟩ : Shape).rank = (⟨2, ![n, 3]⟩ : Shape).rank) ≠ 1 →
      ((ix2 r (0 : Fin 1) : (⟨2, ![n, 1]⟩ : Shape).Idx) b).val
        = ((ix2 r j : (⟨2, ![n, 3]⟩ : Shape).Idx) (b.cast (rfl : (⟨2, ![n, 1]⟩ : Shape).rank = (⟨2, ![n, 3]⟩ : Shape).rank))).val := by
    intro j b hb
    match b with
    | ⟨0, _⟩ => rfl
    | ⟨1, _⟩ => exact absurd rfl hb
  refine ⟨?_, ?_, ?_⟩
  · exact concatenate_apply_piece 1 [⟨⟨2, ![n, 1]⟩, u0⟩, ⟨⟨2, ![n, 1]⟩, u1⟩, ⟨⟨2, ![n, 1]⟩, u2⟩] h (ix2 r (0 : Fin 3)) 0
      (Nat.succ_pos _) ⟨2, ![n, 1]⟩ u0 rfl rfl 0 rfl (ix2 r (0 : Fin 1)) (hi 0) rfl
  · exact concatenate_apply_piece 1 [⟨⟨2, ![n, 1]⟩, u0⟩, ⟨⟨2, ![n, 1]⟩, u1⟩, ⟨⟨2, ![n, 1]⟩, u2⟩] h (ix2 r (1 : Fin 3)) 1
      (Nat.succ_lt_succ (Nat.succ_pos _)) ⟨2, ![n, 1]⟩ u1 rfl rfl 1 rfl (ix2 r (0 : Fin 1)) (hi 1) rfl
  · exact concatenate_apply_piece 1 [⟨⟨2, ![n, 1]⟩, u0⟩, ⟨⟨2, ![n, 1]⟩, u1⟩, ⟨⟨2, ![n, 1]⟩, u2⟩] h (ix2 r (2 : Fin 3)) 2
      (Nat.succ_lt_succ (Nat.succ_lt_succ (Nat.succ_pos _))) ⟨2, ![n, 1]⟩ u2 rfl rfl 2 rfl (ix2 r (0 : Fin 1)) (hi 2) rfl

/-- A vector laid out as an `[n, 1]` column reads, at `(r, 0)`, the vector at `r`. -/
theorem bcast_col_apply {α : Type} {n : ℕ} (hn : n ≠ 1) (h₁ : (⟨1, ![n]⟩ : Shape).BroadcastsInDim ⟨2, ![n, 1]⟩ ![0])
    (v : (⟨1, ![n]⟩ : Shape).Idx → α) (r : Fin n) (z : Fin 1) :
    broadcastInDim ⟨2, ![n, 1]⟩ ![0] h₁ v (ix2 r z) = v (ix1 r) := by
  simp only [broadcastInDim]
  congr 1
  funext a
  have ha : a = 0 := Subsingleton.elim _ _
  subst ha
  apply Fin.ext
  split
  · next h1 => exact absurd h1 hn
  · rfl

variable {F : FTy → Type} [FloatOps F]

/-! ## The stretches read back, over any contents before them -/

/-- Contents moved to a typed reference's buffer and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-- Each of the three one-operation stretches writes the divisor 128. -/
theorem stage_c (V : Valuation τ sig (Elt F)) :
    (StableHlo.after (hostOps2 (F := F)) V (Proc.devRef .tc main_c) : (⟨S_, .i32⟩ : BufTy).Contents (Elt F))
      = constantI S_ 32 128#32 := by
  after_results_simp

theorem stage_c3 (V : Valuation τ sig (Elt F)) :
    (StableHlo.after (hostOps2_2 (F := F)) V (Proc.devRef .tc main_c_3) : (⟨S_, .i32⟩ : BufTy).Contents (Elt F))
      = constantI S_ 32 128#32 := by
  after_results_simp

theorem stage_c4 (V : Valuation τ sig (Elt F)) :
    (StableHlo.after (hostOps2_4 (F := F)) V (Proc.devRef .tc main_c_4) : (⟨S_, .i32⟩ : BufTy).Contents (Elt F))
      = constantI S_ 32 128#32 := by
  after_results_simp

/-- The floor division's stretch: its result is the floor division by 128 of each word of the first index vector. -/
theorem stage_fdiv (V : Valuation τ sig (Elt F))
    (hc : (V (Proc.devRef .tc main_c) : (⟨S_, .i32⟩ : BufTy).Contents (Elt F)) = constantI S_ 32 128#32) :
    (StableHlo.after (hostOps2_1 (F := F)) V (Proc.devRef .tc main_v13) : (⟨S1040384, .i32⟩ : BufTy).Contents (Elt F))
      = fun k => fdivW 128#32 ((V (Proc.devRef .tc main_arg1) : (⟨S1040384, .i32⟩ : BufTy).Contents (Elt F)) k) := by
  after_results_simp
  rw [hc]
  simp only [ofBuf_toBuf]
  funext k
  rfl

/-- The first remainder's stretch: its result is the floor remainder of each word of the first index vector by the
    divisor the stretch makes of 128 (128 itself, as it is not zero). -/
theorem stage_rem1 (V : Valuation τ sig (Elt F))
    (hc : (V (Proc.devRef .tc main_c_3) : (⟨S_, .i32⟩ : BufTy).Contents (Elt F)) = constantI S_ 32 128#32) :
    (StableHlo.after (hostOps2_3 (F := F)) V (Proc.devRef .tc main_v14) : (⟨S1040384, .i32⟩ : BufTy).Contents (Elt F))
      = fun k => fremW (Scalar.select (IntOp.cmpi .eq 128#32 0#32) 1#32 128#32)
          ((V (Proc.devRef .tc main_arg1) : (⟨S1040384, .i32⟩ : BufTy).Contents (Elt F)) k) := by
  after_results_simp
  rw [hc]
  simp only [ofBuf_toBuf]
  funext k
  rfl

/-- The second remainder's stretch, likewise on the second index vector. -/
theorem stage_rem2 (V : Valuation τ sig (Elt F))
    (hc : (V (Proc.devRef .tc main_c_4) : (⟨S_, .i32⟩ : BufTy).Contents (Elt F)) = constantI S_ 32 128#32) :
    (StableHlo.after (hostOps2_5 (F := F)) V (Proc.devRef .tc main_v15) : (⟨S1040384, .i32⟩ : BufTy).Contents (Elt F))
      = fun k => fremW (Scalar.select (IntOp.cmpi .eq 128#32 0#32) 1#32 128#32)
          ((V (Proc.devRef .tc main_arg2) : (⟨S1040384, .i32⟩ : BufTy).Contents (Elt F)) k) := by
  after_results_simp
  rw [hc]
  simp only [ofBuf_toBuf]
  funext k
  rfl

/-- A stretch read in two parts: the contents after it are the contents after its tail, started from the contents after
    its first `n` operations. -/
theorem after_split_at (n : Nat) (ops : List (HloOp τ sig (Elt F))) (V : Valuation τ sig (Elt F)) :
    StableHlo.after ops V = StableHlo.after (ops.drop n) (StableHlo.after (ops.take n) V) := by
  rw [← StableHlo.after_append, List.take_append_drop]

/-- The last stretch up to the concatenate: the three index columns, each the wrap of its index vector. -/
theorem head_v31 (V : Valuation τ sig (Elt F)) :
    (StableHlo.after ((hostOps2_6 (F := F)).take 24) V (Proc.devRef .tc main_v31) : (⟨S1040384x1, .i32⟩ : BufTy).Contents (Elt F))
      = broadcastInDim S1040384x1 ![0] bcast_S1040384_S1040384x1_0
          (fun k => wrapW ((V (Proc.devRef .tc main_v13) : (⟨S1040384, .i32⟩ : BufTy).Contents (Elt F)) k)) := by
  simp only [hostOps2_6, List.take_succ_cons, List.take_zero]
  read_stretch
  rfl

theorem head_v32 (V : Valuation τ sig (Elt F)) :
    (StableHlo.after ((hostOps2_6 (F := F)).take 24) V (Proc.devRef .tc main_v32) : (⟨S1040384x1, .i32⟩ : BufTy).Contents (Elt F))
      = broadcastInDim S1040384x1 ![0] bcast_S1040384_S1040384x1_0
          (fun k => wrapW ((V (Proc.devRef .tc main_v14) : (⟨S1040384, .i32⟩ : BufTy).Contents (Elt F)) k)) := by
  simp only [hostOps2_6, List.take_succ_cons, List.take_zero]
  read_stretch
  rfl

theorem head_v33 (V : Valuation τ sig (Elt F)) :
    (StableHlo.after ((hostOps2_6 (F := F)).take 24) V (Proc.devRef .tc main_v33) : (⟨S1040384x1, .i32⟩ : BufTy).Contents (Elt F))
      = broadcastInDim S1040384x1 ![0] bcast_S1040384_S1040384x1_0
          (fun k => wrapW ((V (Proc.devRef .tc main_v15) : (⟨S1040384, .i32⟩ : BufTy).Contents (Elt F)) k)) := by
  simp only [hostOps2_6, List.take_succ_cons, List.take_zero]
  read_stretch
  rfl

/-- None of them writes the diagonal-block array. -/
theorem head_v12 (V : Valuation τ sig (Elt F)) :
    StableHlo.after ((hostOps2_6 (F := F)).take 24) V (Proc.devRef .tc main_v12) = V (Proc.devRef .tc main_v12) := by
  simp only [hostOps2_6, List.take_succ_cons, List.take_zero]
  read_stretch

/-- The concatenate and the gather, over any contents `W` before them whose three index columns are `x31`, `x32`, `x33`. -/
theorem tail_read (W : Valuation τ sig (Elt F)) (x31 x32 x33 : (⟨S1040384x1, .i32⟩ : BufTy).Contents (Elt F))
    (h31 : W (Proc.devRef .tc main_v31) = x31) (h32 : W (Proc.devRef .tc main_v32) = x32) (h33 : W (Proc.devRef .tc main_v33) = x33) :
    (StableHlo.after ((hostOps2_6 (F := F)).drop 24) W (Proc.devRef .tc main_v35) : (⟨S1040384, .f32⟩ : BufTy).Contents (Elt F))
      = Host.gather gather_S128x128x128_S1040384x3_S1040384_n_012_n_n_012_1_111
          (W (Proc.devRef .tc main_v12) : (⟨S128x128x128, .f32⟩ : BufTy).Contents (Elt F))
          (concatenate S1040384x3 1 [⟨S1040384x1, x31⟩, ⟨S1040384x1, x32⟩, ⟨S1040384x1, x33⟩]
            concatenates_S1040384x1_S1040384x1_S1040384x1_S1040384x3_d1) := by
  subst h31 h32 h33
  simp only [hostOps2_6, List.drop_succ_cons, List.drop_zero]
  read_stretch
  rfl

/-- The last stretch: the gather of the diagonal-block array at the three wrapped index vectors, over contents whose
    array is `x12` and whose three index vectors are `w13`, `w14`, `w15`. -/
theorem stage_gather (V : Valuation τ sig (Elt F)) (x12 : (⟨S128x128x128, .f32⟩ : BufTy).Contents (Elt F))
    (w13 w14 w15 : (⟨S1040384, .i32⟩ : BufTy).Contents (Elt F))
    (h12 : V (Proc.devRef .tc main_v12) = x12) (h13 : V (Proc.devRef .tc main_v13) = w13)
    (h14 : V (Proc.devRef .tc main_v14) = w14) (h15 : V (Proc.devRef .tc main_v15) = w15) :
    (StableHlo.after (hostOps2_6 (F := F)) V (Proc.devRef .tc main_v35) : (⟨S1040384, .f32⟩ : BufTy).Contents (Elt F))
      = Host.gather gather_S128x128x128_S1040384x3_S1040384_n_012_n_n_012_1_111 x12
          (concatenate S1040384x3 1
            [⟨S1040384x1, broadcastInDim S1040384x1 ![0] bcast_S1040384_S1040384x1_0 (fun k => wrapW (w13 k))⟩,
             ⟨S1040384x1, broadcastInDim S1040384x1 ![0] bcast_S1040384_S1040384x1_0 (fun k => wrapW (w14 k))⟩,
             ⟨S1040384x1, broadcastInDim S1040384x1 ![0] bcast_S1040384_S1040384x1_0 (fun k => wrapW (w15 k))⟩]
            concatenates_S1040384x1_S1040384x1_S1040384x1_S1040384x3_d1) := by
  subst h12 h13 h14 h15
  rw [after_split_at 24 (hostOps2_6 (F := F)) V,
    tail_read _ _ _ _ (head_v31 V) (head_v32 V) (head_v33 V), head_v12]
  rfl

/-! ## The three gather indices of an entry -/

/-- The first index of an entry: the block of its row. -/
theorem idx_blk (w : BitVec 32) (hw : w.toNat < 16384) :
    (wrapW (fdivW 128#32 w)).toInt.toNat = (Cert.Spec.blkOf w).val := by
  have h2 : (BitVec.ofNat 32 (w.toNat / 128)).toNat = w.toNat / 128 := by rw [BitVec.toNat_ofNat]; omega
  rw [fdivW_eq w (by omega), wrapW_eq _ (by rw [h2]; omega), StableHlo.Predicate.toInt_ofNat_small _ (by omega)]
  simp only [Cert.Spec.blkOf]
  omega

/-- The second and third: the position of its row, and of its column, inside the block. -/
theorem idx_lane (w : BitVec 32) (hw : w.toNat < 16384) :
    (wrapW (fremW (Scalar.select (IntOp.cmpi .eq 128#32 0#32) 1#32 128#32) w)).toInt.toNat = (Cert.Spec.laneOf w).val := by
  have hD : Scalar.select (IntOp.cmpi .eq 128#32 0#32) 1#32 128#32 = 128#32 := by decide
  have h2 : (BitVec.ofNat 32 (w.toNat % 128)).toNat = w.toNat % 128 := by rw [BitVec.toNat_ofNat]; omega
  rw [hD, fremW_eq w (by omega), wrapW_eq _ (by rw [h2]; omega), StableHlo.Predicate.toInt_ofNat_small _ (by omega)]
  simp only [Cert.Spec.laneOf]
  omega

/-! ## The stretches chained -/

variable (m : (ℓ : Loc nD τ sig) → Buf (Elt F) ℓ) (outs : Outs (F := F))

/-- No item before the floor division writes the first index vector. -/
theorem V5_arg1 (c : Dev nD) : V5 m outs c main_arg1 = m ((c : Thread nD τ).loc main_arg1) :=
  (V5_of m outs c main_arg1 (by decide)).trans <| (V4_of m outs c main_arg1 (by decide)).trans <|
    (V3_of m outs c main_arg1 (by decide)).trans <| (V2_of m outs c main_arg1 (by decide)).trans <|
    (V1_of m c main_arg1 (by decide)).trans rfl

theorem V7_arg1 (c : Dev nD) : V7 m outs c main_arg1 = m ((c : Thread nD τ).loc main_arg1) :=
  (V7_of m outs c main_arg1 (by decide)).trans <| (V6_of m outs c main_arg1 (by decide)).trans <| V5_arg1 m outs c

theorem V9_arg2 (c : Dev nD) : V9 m outs c main_arg2 = m ((c : Thread nD τ).loc main_arg2) :=
  (V9_of m outs c main_arg2 (by decide)).trans <| (V8_of m outs c main_arg2 (by decide)).trans <|
    (V7_of m outs c main_arg2 (by decide)).trans <| (V6_of m outs c main_arg2 (by decide)).trans <|
    (V5_of m outs c main_arg2 (by decide)).trans <| (V4_of m outs c main_arg2 (by decide)).trans <|
    (V3_of m outs c main_arg2 (by decide)).trans <| (V2_of m outs c main_arg2 (by decide)).trans <|
    (V1_of m c main_arg2 (by decide)).trans rfl

/-- The diagonal-block array reaches the gather as region 1 left it. -/
theorem V10_v12 (c : Dev nD) : V10 m outs c main_v12 = V4 m outs c main_v12 :=
  (V10_of m outs c main_v12 (by decide)).trans <| (V9_of m outs c main_v12 (by decide)).trans <|
    (V8_of m outs c main_v12 (by decide)).trans <| (V7_of m outs c main_v12 (by decide)).trans <|
    (V6_of m outs c main_v12 (by decide)).trans <| V5_of m outs c main_v12 (by decide)

/-- The first index vector at the gather: the floor division of the row words. -/
theorem V10_v13 (c : Dev nD) :
    (V10 m outs c main_v13 : (⟨S1040384, .i32⟩ : BufTy).Contents (Elt F))
      = fun k => fdivW 128#32 ((m ((c : Thread nD τ).loc main_arg1) : (⟨S1040384, .i32⟩ : BufTy).Contents (Elt F)) k) := by
  have h := stage_fdiv (V5 m outs c) (stage_c (V4 m outs c))
  rw [V5_arg1 m outs c] at h
  exact (V10_of m outs c main_v13 (by decide)).trans <| (V9_of m outs c main_v13 (by decide)).trans <|
    (V8_of m outs c main_v13 (by decide)).trans <| (V7_of m outs c main_v13 (by decide)).trans <| h

/-- The second: the floor remainder of the row words. -/
theorem V10_v14 (c : Dev nD) :
    (V10 m outs c main_v14 : (⟨S1040384, .i32⟩ : BufTy).Contents (Elt F))
      = fun k => fremW (Scalar.select (IntOp.cmpi .eq 128#32 0#32) 1#32 128#32)
          ((m ((c : Thread nD τ).loc main_arg1) : (⟨S1040384, .i32⟩ : BufTy).Contents (Elt F)) k) := by
  have h := stage_rem1 (V7 m outs c) (stage_c3 (V6 m outs c))
  rw [V7_arg1 m outs c] at h
  exact (V10_of m outs c main_v14 (by decide)).trans <| (V9_of m outs c main_v14 (by decide)).trans <| h

/-- The third: the floor remainder of the column words. -/
theorem V10_v15 (c : Dev nD) :
    (V10 m outs c main_v15 : (⟨S1040384, .i32⟩ : BufTy).Contents (Elt F))
      = fun k => fremW (Scalar.select (IntOp.cmpi .eq 128#32 0#32) 1#32 128#32)
          ((m ((c : Thread nD τ).loc main_arg2) : (⟨S1040384, .i32⟩ : BufTy).Contents (Elt F)) k) := by
  have h := stage_rem2 (V9 m outs c) (stage_c4 (V8 m outs c))
  rw [V9_arg2 m outs c] at h
  exact h

/-- The result buffer after the last host line, entry by entry, from the diagonal-block array region 1 left. -/
theorem v35_read (c : Dev nD)
    (hr : ∀ k, ((m ((c : Thread nD τ).loc main_arg1) : (⟨S1040384, .i32⟩ : BufTy).Contents (Elt F)) k).toNat < 16384)
    (hc : ∀ k, ((m ((c : Thread nD τ).loc main_arg2) : (⟨S1040384, .i32⟩ : BufTy).Contents (Elt F)) k).toNat < 16384)
    (k : S1040384.Idx) :
    (V11 m outs c main_v35 : (⟨S1040384, .f32⟩ : BufTy).Contents (Elt F)) k
      = (V4 m outs c main_v12 : (⟨S128x128x128, .f32⟩ : BufTy).Contents (Elt F))
          (ix3 (Cert.Spec.blkOf ((m ((c : Thread nD τ).loc main_arg1) : (⟨S1040384, .i32⟩ : BufTy).Contents (Elt F)) k))
               (Cert.Spec.laneOf ((m ((c : Thread nD τ).loc main_arg1) : (⟨S1040384, .i32⟩ : BufTy).Contents (Elt F)) k))
               (Cert.Spec.laneOf ((m ((c : Thread nD τ).loc main_arg2) : (⟨S1040384, .i32⟩ : BufTy).Contents (Elt F)) k))) := by
  have hg := stage_gather (V10 m outs c) _ _ _ _ (V10_v12 m outs c) (V10_v13 m outs c) (V10_v14 m outs c) (V10_v15 m outs c)
  obtain ⟨r, rfl⟩ : ∃ r, k = ix1 r := ⟨k 0, eq_ix1 k⟩
  show (StableHlo.after (hostOps2_6 (F := F)) (V10 m outs c) (Proc.devRef .tc main_v35)
    : (⟨S1040384, .f32⟩ : BufTy).Contents (Elt F)) (ix1 r) = _
  rw [hg]
  obtain ⟨e0, e1, e2⟩ := concat3_col
    (broadcastInDim S1040384x1 ![0] bcast_S1040384_S1040384x1_0 (fun k => wrapW (fdivW 128#32
      ((m ((c : Thread nD τ).loc main_arg1) : (⟨S1040384, .i32⟩ : BufTy).Contents (Elt F)) k))))
    (broadcastInDim S1040384x1 ![0] bcast_S1040384_S1040384x1_0 (fun k => wrapW (fremW (Scalar.select (IntOp.cmpi .eq 128#32 0#32) 1#32 128#32)
      ((m ((c : Thread nD τ).loc main_arg1) : (⟨S1040384, .i32⟩ : BufTy).Contents (Elt F)) k))))
    (broadcastInDim S1040384x1 ![0] bcast_S1040384_S1040384x1_0 (fun k => wrapW (fremW (Scalar.select (IntOp.cmpi .eq 128#32 0#32) 1#32 128#32)
      ((m ((c : Thread nD τ).loc main_arg2) : (⟨S1040384, .i32⟩ : BufTy).Contents (Elt F)) k))))
    concatenates_S1040384x1_S1040384x1_S1040384x1_S1040384x3_d1 r
  refine gather_pick_inrange gather_S128x128x128_S1040384x3_S1040384_n_012_n_n_012_1_111 rfl rfl rfl rfl rfl rfl rfl _ _ r _ _ _ ?_ ?_ ?_
  · refine Eq.trans (congrArg (fun x : BitVec 32 => x.toInt.toNat)
      (e0.trans (bcast_col_apply (by decide) bcast_S1040384_S1040384x1_0 _ r 0))) ?_
    exact idx_blk _ (hr _)
  · refine Eq.trans (congrArg (fun x : BitVec 32 => x.toInt.toNat)
      (e1.trans (bcast_col_apply (by decide) bcast_S1040384_S1040384x1_0 _ r 0))) ?_
    exact idx_lane _ (hr _)
  · refine Eq.trans (congrArg (fun x : BitVec 32 => x.toInt.toNat)
      (e2.trans (bcast_col_apply (by decide) bcast_S1040384_S1040384x1_0 _ r 0))) ?_
    exact idx_lane _ (hc _)

end Cert.KernelIdeal.Hand

end
-- ==== Proof.KIDiagValue.lean ====
/-
  The final contents of the diagonal-block array, at the extended reals.

  Region 1 writes, at point t, graphs 16 t .. 16 t + 15 of the 128 x 128 x 128 array: entry (g, r, q) is the inner
  product of rows r and q of graph g's 128 x 512 block of embeddings, times the scale scalar, plus the shift scalar.
  The eight points' blocks tile the array, so after the region the whole array is that function of the region's inputs.
-/
import proofs.«405393_j40785009443380_2_alg».proof.Proof.KIDiag
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

/-- The region's three inputs as it finds them, as functions into the extended reals: the embeddings graph by graph,
    the scale and the shift. -/
abbrev embAt (c : Dev nD) : S128x128x512.Idx → EReal := V c main_v9
abbrev scaleAt (c : Dev nD) : S1x1.Idx → EReal := V c main_v10
abbrev shiftAt (c : Dev nD) : S1x1.Idx → EReal := V c main_v11

/-! ## The batched product's operand indices

The product contracts axis 2 of both operands, keeps axis 1 of each, and batches over axis 0: at output index
(b, r, q) and contraction position k the left operand is read at (b, r, k) and the right at (b, q, k). -/

theorem lhs_diag_0 (i : S16x128x128.Idx) (p : dot_S16x128x512_S16x128x512_S16x128x128_2_2_1_1_0_0.contr.Idx) :
    (dot_S16x128x512_S16x128x512_S16x128x128_2_2_1_1_0_0.lhsIdx i p 0).val = (i 0).val := by
  unfold DotDims.lhsIdx
  rw [dif_pos (show (0 : Fin S16x128x512.rank) ∈ dot_S16x128x512_S16x128x512_S16x128x128_2_2_1_1_0_0.lhsBatch by decide)]
  rfl
theorem lhs_diag_1 (i : S16x128x128.Idx) (p : dot_S16x128x512_S16x128x512_S16x128x128_2_2_1_1_0_0.contr.Idx) :
    (dot_S16x128x512_S16x128x512_S16x128x128_2_2_1_1_0_0.lhsIdx i p 1).val = (i 1).val := by
  unfold DotDims.lhsIdx
  rw [dif_neg (show ¬(1 : Fin S16x128x512.rank) ∈ dot_S16x128x512_S16x128x512_S16x128x128_2_2_1_1_0_0.lhsBatch by decide),
    dif_pos (show (1 : Fin S16x128x512.rank) ∈ dot_S16x128x512_S16x128x512_S16x128x128_2_2_1_1_0_0.lhsNonContracting by decide)]
  rfl
theorem lhs_diag_2 (i : S16x128x128.Idx) (p : dot_S16x128x512_S16x128x512_S16x128x128_2_2_1_1_0_0.contr.Idx) :
    (dot_S16x128x512_S16x128x512_S16x128x128_2_2_1_1_0_0.lhsIdx i p 2).val = (p ⟨0, by decide⟩).val :=
  dot_S16x128x512_S16x128x512_S16x128x128_2_2_1_1_0_0.lhsIdx_val_of_single rfl i p
theorem rhs_diag_0 (i : S16x128x128.Idx) (p : dot_S16x128x512_S16x128x512_S16x128x128_2_2_1_1_0_0.contr.Idx) :
    (dot_S16x128x512_S16x128x512_S16x128x128_2_2_1_1_0_0.rhsIdx i p 0).val = (i 0).val := by
  unfold DotDims.rhsIdx
  rw [dif_pos (show (0 : Fin S16x128x512.rank) ∈ dot_S16x128x512_S16x128x512_S16x128x128_2_2_1_1_0_0.rhsBatch by decide)]
  rfl
theorem rhs_diag_1 (i : S16x128x128.Idx) (p : dot_S16x128x512_S16x128x512_S16x128x128_2_2_1_1_0_0.contr.Idx) :
    (dot_S16x128x512_S16x128x512_S16x128x128_2_2_1_1_0_0.rhsIdx i p 1).val = (i 2).val := by
  unfold DotDims.rhsIdx
  rw [dif_neg (show ¬(1 : Fin S16x128x512.rank) ∈ dot_S16x128x512_S16x128x512_S16x128x128_2_2_1_1_0_0.rhsBatch by decide),
    dif_pos (show (1 : Fin S16x128x512.rank) ∈ dot_S16x128x512_S16x128x512_S16x128x128_2_2_1_1_0_0.rhsNonContracting by decide)]
  rfl
theorem rhs_diag_2 (i : S16x128x128.Idx) (p : dot_S16x128x512_S16x128x512_S16x128x128_2_2_1_1_0_0.contr.Idx) :
    (dot_S16x128x512_S16x128x512_S16x128x128_2_2_1_1_0_0.rhsIdx i p 2).val = (p ⟨0, by decide⟩).val :=
  dot_S16x128x512_S16x128x512_S16x128x128_2_2_1_1_0_0.rhsIdx_val_of_single rfl i p

/-! ## The payload at an index -/

/-- The one entry of a 1 x 1 block, extracted at position (0, 0). -/
theorem extract_first (x : Vec Ideal S1x1 .f32) : extractAt ![0, 0] x inpos_S1x1_p0_0 = x (ix2 (n0 := 1) (n1 := 1) 0 0) := by
  unfold extractAt
  exact congrArg x (funext fun a => by match a with | ⟨0, _⟩ => rfl | ⟨1, _⟩ => rfl)

/-- The body's payload at output index `j` = (b, r, q): the inner product of rows r and q of block b, scaled and shifted. -/
theorem pay1_apply (x0 : Vec Ideal S16x128x512 .bf16) (x1 x2 : Vec Ideal S1x1 .f32) (j : S16x128x128.Idx) :
    k1_pay1 (F := Ideal) x0 x1 x2 j
      = (∑ k : Fin 512, x0 (ix3 (n0 := 16) (n1 := 128) (n2 := 512) (j 0) (j 1) k) * x0 (ix3 (n0 := 16) (n1 := 128) (n2 := 512) (j 0) (j 2) k))
          * x1 (ix2 (n0 := 1) (n1 := 1) 0 0) + x2 (ix2 (n0 := 1) (n1 := 1) 0 0) := by
  unfold k1_pay1
  simp only [shapeCast_self]
  rw [addf_apply, mulf_apply, broadcast_apply, broadcast_apply, extract_first, extract_first]
  simp only [matmul]
  rw [Ideal.matmul_constant_zero_apply,
    ← Equiv.sum_comp (contrEquiv1 dot_S16x128x512_S16x128x512_S16x128x128_2_2_1_1_0_0 512 rfl rfl).symm]
  refine congrArg₂ (· + ·) (congrArg₂ (· * ·) (Finset.sum_congr rfl fun k _ => ?_) rfl) rfl
  have hk := contrEquiv1_symm_val dot_S16x128x512_S16x128x512_S16x128x128_2_2_1_1_0_0 512 rfl rfl k
  have el : dot_S16x128x512_S16x128x512_S16x128x128_2_2_1_1_0_0.lhsIdx j ((contrEquiv1 dot_S16x128x512_S16x128x512_S16x128x128_2_2_1_1_0_0 512 rfl rfl).symm k)
      = ix3 (n0 := 16) (n1 := 128) (n2 := 512) (j 0) (j 1) k := funext fun a => Fin.ext (by
    match a with
    | ⟨0, _⟩ => exact lhs_diag_0 _ _
    | ⟨1, _⟩ => exact lhs_diag_1 _ _
    | ⟨2, _⟩ => exact (lhs_diag_2 _ _).trans hk)
  have er : dot_S16x128x512_S16x128x512_S16x128x128_2_2_1_1_0_0.rhsIdx j ((contrEquiv1 dot_S16x128x512_S16x128x512_S16x128x128_2_2_1_1_0_0 512 rfl rfl).symm k)
      = ix3 (n0 := 16) (n1 := 128) (n2 := 512) (j 0) (j 2) k := funext fun a => Fin.ext (by
    match a with
    | ⟨0, _⟩ => exact rhs_diag_0 _ _
    | ⟨1, _⟩ => exact rhs_diag_1 _ _
    | ⟨2, _⟩ => exact (rhs_diag_2 _ _).trans hk)
  rw [el, er]

/-! ## From the blocks to the array -/

/-- The windows' block indices at a point: the embeddings' and the output's blocks move together along the graphs'
    axis, one block of 16 graphs a point; the two scalars' blocks never move. -/
theorem idx_facts1 : ∀ t : Fin cfg1.N,
    win1_0.index t (0 : Fin 3) = t.val ∧ win1_0.index t (1 : Fin 3) = 0 ∧ win1_0.index t (2 : Fin 3) = 0
    ∧ win1_3.index t (0 : Fin 3) = t.val ∧ win1_3.index t (1 : Fin 3) = 0 ∧ win1_3.index t (2 : Fin 3) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What the array ends holding: entry (g, r, q) is the inner product of rows r and q of graph g, scaled and shifted. -/
def diagG (c : Dev nD) : S128x128x128.Idx → EReal := fun i =>
  (∑ k : Fin 512, embAt V c (ix3 (n0 := 128) (n1 := 128) (n2 := 512) (i 0) (i 1) k)
      * embAt V c (ix3 (n0 := 128) (n1 := 128) (n2 := 512) (i 0) (i 2) k))
    * scaleAt V c (ix2 (n0 := 1) (n1 := 1) 0 0) + shiftAt V c (ix2 (n0 := 1) (n1 := 1) 0 0)

/-- What point `t` writes back is block `t` of `diagG`. -/
theorem flushed1_3 (c : Dev nD) (t : Fin cfg1.N) :
    (dat1 V c).flushed 3 t = ((cfg1.win 3).blk t).view.read (Elt Ideal) (diagG V c) := by
  show (cfg1.win 3).cut (grid1.coords t) ((dat1 V c).after 3 t) = _
  rw [after1_3]
  obtain ⟨a0, a1, a2, o0, o1, o2, s0, s1, h0, h1⟩ := idx_facts1 t
  funext y
  show k1_pay1 (F := Ideal) (iblk1 V c 0 t) (iblk1 V c 1 t) (iblk1 V c 2 t) y = diagG V c (((cfg1.win 3).blk t).view.emb y)
  rw [pay1_apply]
  unfold diagG
  refine congrArg₂ (· + ·) (congrArg₂ (· * ·) (Finset.sum_congr rfl fun k _ => ?_) ?_) ?_
  · -- an entry of the embeddings' block sits in the array at the block's graph offset, which is the output block's
    show embAt V c (((cfg1.win 0).blk t).view.emb (ix3 (n0 := 16) (n1 := 128) (n2 := 512) (y 0) (y 1) k))
        * embAt V c (((cfg1.win 0).blk t).view.emb (ix3 (n0 := 16) (n1 := 128) (n2 := 512) (y 0) (y 2) k)) = _
    have e1 : ((cfg1.win 0).blk t).view.emb (ix3 (n0 := 16) (n1 := 128) (n2 := 512) (y 0) (y 1) k)
        = ix3 (n0 := 128) (n1 := 128) (n2 := 512) (((cfg1.win 3).blk t).view.emb y 0) (((cfg1.win 3).blk t).view.emb y 1) k := by
      funext a; apply Fin.ext
      match a with
      | ⟨0, _⟩ => show win1_0.index t (0 : Fin 3) * 16 + 1 * (y 0).val = win1_3.index t (0 : Fin 3) * 16 + 1 * (y 0).val; omega
      | ⟨1, _⟩ => show win1_0.index t (1 : Fin 3) * 128 + 1 * (y 1).val = win1_3.index t (1 : Fin 3) * 128 + 1 * (y 1).val; omega
      | ⟨2, _⟩ => show win1_0.index t (2 : Fin 3) * 512 + 1 * k.val = k.val; omega
    have e2 : ((cfg1.win 0).blk t).view.emb (ix3 (n0 := 16) (n1 := 128) (n2 := 512) (y 0) (y 2) k)
        = ix3 (n0 := 128) (n1 := 128) (n2 := 512) (((cfg1.win 3).blk t).view.emb y 0) (((cfg1.win 3).blk t).view.emb y 2) k := by
      funext a; apply Fin.ext
      match a with
      | ⟨0, _⟩ => show win1_0.index t (0 : Fin 3) * 16 + 1 * (y 0).val = win1_3.index t (0 : Fin 3) * 16 + 1 * (y 0).val; omega
      | ⟨1, _⟩ => show win1_0.index t (1 : Fin 3) * 128 + 1 * (y 2).val = win1_3.index t (2 : Fin 3) * 128 + 1 * (y 2).val; omega
      | ⟨2, _⟩ => show win1_0.index t (2 : Fin 3) * 512 + 1 * k.val = k.val; omega
    rw [e1, e2]
  · -- the scale's one block is the whole 1 x 1 array
    show scaleAt V c (((cfg1.win 1).blk t).view.emb (ix2 (n0 := 1) (n1 := 1) 0 0)) = _
    refine congrArg (scaleAt V c) (funext fun a => Fin.ext ?_)
    match a with
    | ⟨0, _⟩ => show win1_1.index t (0 : Fin 2) * 1 + 1 * 0 = 0; omega
    | ⟨1, _⟩ => show win1_1.index t (1 : Fin 2) * 1 + 1 * 0 = 0; omega
  · -- and so is the shift's
    show shiftAt V c (((cfg1.win 2).blk t).view.emb (ix2 (n0 := 1) (n1 := 1) 0 0)) = _
    refine congrArg (shiftAt V c) (funext fun a => Fin.ext ?_)
    match a with
    | ⟨0, _⟩ => show win1_2.index t (0 : Fin 2) * 1 + 1 * 0 = 0; omega
    | ⟨1, _⟩ => show win1_2.index t (1 : Fin 2) * 1 + 1 * 0 = 0; omega

/-- An index of the array is in point `t`'s block iff each coordinate is in the block's range on its axis. -/
theorem mem_blk1_3 (t : Fin cfg1.N) (i : S128x128x128.Idx) :
    i ∈ ((cfg1.win 3).blk t).view.set ↔ ∀ a : Fin 3, win1_3.index t a * S16x128x128.size a ≤ (i a).val
      ∧ (i a).val < win1_3.index t a * S16x128x128.size a + S16x128x128.size a := by
  show i ∈ ((View.whole main_v12).slice (win1_3.rect t)).set ↔ _
  rw [View.set_slice_whole, Rect.mem_set_unit]
  exact Iff.rfl

/-- Every entry of the array is written back by the point that handles its graph: graph g by point g / 16. -/
theorem cover1_3 (i : S128x128x128.Idx) :
    ∃ t : Fin cfg1.N, (cfg1.win 3).flush t = true ∧ i ∈ ((cfg1.win 3).blk t).view.set := by
  have hi0 : (i 0).val < 128 := (i 0).isLt
  have hi1 : (i 1).val < 128 := (i 1).isLt
  have hi2 : (i 2).val < 128 := (i 2).isLt
  have h8 : cfg1.N = 8 := N_1
  have ht : (i 0).val / 16 < cfg1.N := by rw [h8]; omega
  refine ⟨⟨(i 0).val / 16, ht⟩, flush1_3 _, ?_⟩
  rw [mem_blk1_3]
  obtain ⟨-, -, -, o0, o1, o2, -⟩ := idx_facts1 ⟨(i 0).val / 16, ht⟩
  have o0' : win1_3.index ⟨(i 0).val / 16, ht⟩ (0 : Fin 3) = (i 0).val / 16 := o0
  intro a
  match a with
  | ⟨0, _⟩ =>
    show win1_3.index ⟨(i 0).val / 16, ht⟩ (0 : Fin 3) * 16 ≤ (i 0).val
      ∧ (i 0).val < win1_3.index ⟨(i 0).val / 16, ht⟩ (0 : Fin 3) * 16 + 16
    omega
  | ⟨1, _⟩ =>
    show win1_3.index ⟨(i 0).val / 16, ht⟩ (1 : Fin 3) * 128 ≤ (i 1).val
      ∧ (i 1).val < win1_3.index ⟨(i 0).val / 16, ht⟩ (1 : Fin 3) * 128 + 128
    omega
  | ⟨2, _⟩ =>
    show win1_3.index ⟨(i 0).val / 16, ht⟩ (2 : Fin 3) * 128 ≤ (i 2).val
      ∧ (i 2).val < win1_3.index ⟨(i 0).val / 16, ht⟩ (2 : Fin 3) * 128 + 128
    omega

/-- So after the region the whole array is `diagG`. -/
theorem arrAt1_3_eq (c : Dev nD) : (dat1 V c).arrAt 3 cfg1.N = diagG V c :=
  (dat1 V c).arrAt_eq_of_cover 3 (diagG V c) (fun t _ => flushed1_3 V c t) cover1_3

/-- The diagonal-block array after the region, entry by entry. -/
theorem arrAt1_3 (c : Dev nD) (g r q : Fin 128) :
    ((dat1 V c).arrAt 3 cfg1.N (ix3 g r q) : EReal)
      = (∑ k : Fin 512, embAt V c (ix3 g r k) * embAt V c (ix3 g q k)) * scaleAt V c (ix2 0 0) + shiftAt V c (ix2 0 0) := by
  rw [arrAt1_3_eq]
  rfl

end Cert.KernelIdeal.Hand

end
-- ==== Proof.LibRank3Layout.lean ====
/-
  Rank-3 layout operations read at an index, at literal-free extents: the forms a kernel meets when it keeps a reduced
  axis as a unit axis (`keepdims`), broadcasts a per-row quantity over a middle axis, or merges the two leading axes
  of a rank-3 value into one before a matrix product and splits them again after it.

  * `shapeCast_ab_a1b_apply`   an [a, b] array cast to [a, 1, b], at (r, u, d), is the operand at (r, d);
  * `broadcastTo_a1b_acb_apply` an [a, 1, b] array broadcast to [a, c, b], at (r, e, d), is the operand at (r, 0, d);
  * `shapeCast_ab_ab1_apply`   an [a, b] array cast to [a, b, 1], at (r, e, u), is the operand at (r, e);
  * `broadcastTo_ab1_abc_apply` an [a, b, 1] array broadcast to [a, b, c], at (r, e, d), is the operand at (r, e, 0);
  * `shapeCast_abc_mc_apply`   an [a, b, c] array cast to [m, c] with rows merged, at (r * b + e, d), is the operand
                               at (r, e, d);
  * `shapeCast_mc_abc_apply`   an [m, c] array cast to [a, b, c], at (r, e, d), is the operand at (r * b + e, d).
  Each is the library's `shapeCast_apply` (equal row-major positions) or `broadcastTo_apply` (trailing coordinates,
  zero on the operand's unit axes) with both indices written by coordinates.
-/
import Idealize.ShloMosaic.Lib.Pipeline.Value
import Idealize.ShloMosaic.Lib.ValueIdx

namespace Idealize.ShloMosaic.ValueIdx

open Idealize.ShloMosaic

variable {α : Type}

/-- An `[a, b]` array cast to `[a, 1, b]` reads, at `(r, u, d)`, the operand at `(r, d)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- An `[a, 1, b]` array broadcast to `[a, c, b]` reads, at `(r, e, d)`, the operand at `(r, 0, d)`: one row of
    `b` per leading coordinate, repeated over the middle axis. -/
theorem broadcastTo_a1b_acb_apply {a b c : ℕ} (x : (⟨3, ![a, 1, b]⟩ : Shape).Idx → α)
    (h : (⟨3, ![a, 1, b]⟩ : Shape).Broadcasts ⟨3, ![a, c, b]⟩) (r : Fin a) (e : Fin c) (d : Fin b) :
    broadcastTo ⟨3, ![a, c, b]⟩ x h (ix3 r e d) = x (ix3 r (0 : Fin 1) d) := by
  refine broadcastTo_apply x h (ix3 r e d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if b = 1 then 0 else d.val
    split
    · have := d.isLt; omega
    · rfl

/-- An `[a, b]` array cast to `[a, b, 1]` reads, at `(r, e, u)`, the operand at `(r, e)`: a reduction over the last
    axis that keeps it as a unit axis. -/
theorem shapeCast_ab_ab1_apply {a b : ℕ} (x : (⟨2, ![a, b]⟩ : Shape).Idx → α)
    (h : (⟨2, ![a, b]⟩ : Shape).ShapeCasts ⟨3, ![a, b, 1]⟩) (r : Fin a) (e : Fin b) (u : Fin 1) :
    shapeCast ⟨3, ![a, b, 1]⟩ x h (ix3 r e u) = x (ix2 r e) :=
  shapeCast_apply x h _ _ (by
    have hu : u.val = 0 := by omega
    rw [Shape.rowMajor_val_three, Shape.rowMajor_val_two]
    show r.val * b + e.val = (r.val * b + e.val) * 1 + u.val
    rw [hu, Nat.mul_one, Nat.add_zero])

/-- An `[a, b, 1]` array broadcast to `[a, b, c]` reads, at `(r, e, d)`, the operand at `(r, e, 0)`: a per-row
    quantity spread along the last axis. -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (e : Fin b) (d : Fin c) :
    broadcastTo ⟨3, ![a, b, c]⟩ x h (ix3 r e d) = x (ix3 r e (0 : Fin 1)) := by
  refine broadcastTo_apply x h (ix3 r e d) (ix3 r e (0 : Fin 1)) fun ax => ?_
  match ax with
  | ⟨0, _⟩ =>
    show r.val = if a = 1 then 0 else r.val
    split
    · have := r.isLt; omega
    · rfl
  | ⟨1, _⟩ =>
    show e.val = if b = 1 then 0 else e.val
    split
    · have := e.isLt; omega
    · rfl
  | ⟨2, _⟩ => rfl

/-- An `[a, b, c]` array cast to `[m, c]` (its two leading axes merged, row-major) reads, at row `r * b + e` and
    column `d`, the operand at `(r, e, d)`. -/
theorem shapeCast_abc_mc_apply {a b c m : ℕ} (x : (⟨3, ![a, b, c]⟩ : Shape).Idx → α)
    (h : (⟨3, ![a, b, c]⟩ : Shape).ShapeCasts ⟨2, ![m, c]⟩) (r : Fin a) (e : Fin b) (d : Fin c)
    (hq : r.val * b + e.val < m) :
    shapeCast ⟨2, ![m, c]⟩ x h (ix2 (⟨r.val * b + e.val, hq⟩ : Fin m) d) = x (ix3 r e d) :=
  shapeCast_apply x h _ _ (by
    rw [Shape.rowMajor_val_three, Shape.rowMajor_val_two]
    rfl)

/-- An `[m, c]` array cast to `[a, b, c]` (its rows split in two axes, row-major) reads, at `(r, e, d)`, the operand
    at row `r * b + e` and column `d`. -/
theorem shapeCast_mc_abc_apply {a b c m : ℕ} (x : (⟨2, ![m, c]⟩ : Shape).Idx → α)
    (h : (⟨2, ![m, c]⟩ : Shape).ShapeCasts ⟨3, ![a, b, c]⟩) (r : Fin a) (e : Fin b) (d : Fin c)
    (hq : r.val * b + e.val < m) :
    shapeCast ⟨3, ![a, b, c]⟩ x h (ix3 r e d) = x (ix2 (⟨r.val * b + e.val, hq⟩ : Fin m) d) :=
  shapeCast_apply x h _ _ (by
    rw [Shape.rowMajor_val_three, Shape.rowMajor_val_two]
    rfl)

end Idealize.ShloMosaic.ValueIdx
-- ==== Proof.KIHostMid.lean ====
/-
  The host lines around the regions, at the ideal instance: what the two regions read.

  Before region 0 the embeddings are cast to bf16, which changes nothing on the extended reals.  Between the regions
  the host takes the least and the greatest entry of region 0's two output arrays, forms the denominator
  d = hi - lo + eps, the scale 1 / d and the shift (-lo) / d as 1 x 1 arrays, and views the [16384, 512] embeddings as
  [128, 128, 512]: graph g, node r is row 128 g + r.
-/
import proofs.«405393_j40785009443380_2_alg».proof.Proof.Gen.KernelIdeal.Regions
import proofs.«405393_j40785009443380_2_alg».proof.Proof.Spec
import proofs.«405393_j40785009443380_2_alg».proof.Proof.LibRank3Layout
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (outs : Outs (F := Ideal))

/-- The least entry of region 0's first output array, as the host computes it. -/
def loV (c : Dev nD) : EReal :=
  (Host.reduce FloatOps.minimumf (V2 m outs c main_v1_0 : (⟨S128x128, .f32⟩ : BufTy).Contents (Elt Ideal))
    (constant S_ .f32 0x7F800000#32) reducesTo_S128x128_S_d0_1 h_S_ : FVec Ideal S_ .f32) ix0

/-- The greatest entry of region 0's second output array, as the host computes it. -/
def hiV (c : Dev nD) : EReal :=
  (Host.reduce FloatOps.maximumf (V2 m outs c main_v1_1 : (⟨S128x128, .f32⟩ : BufTy).Contents (Elt Ideal))
    (constant S_ .f32 0xFF800000#32) reducesTo_S128x128_S_d0_1 h_S_ : FVec Ideal S_ .f32) ix0

/-- The scale's host line read at its one entry, over any two scalars in place of the greatest and the least. -/
theorem hostMid_scale_read (HI LO : FVec Ideal S_ .f32) :
    shapeCast S1x1 (Host.divf (constant (F := Ideal) S_ .f32 0x3F800000#32)
        (addf (subf HI LO) (constant (F := Ideal) S_ .f32 0x33D6BF95#32))) shapeCasts_S_S1x1 (ix2 0 0)
      = Ideal.div (Ideal.ofBits .f32 0x3F800000#32) (HI ix0 - LO ix0 + Ideal.ofBits .f32 0x33D6BF95#32) := by
  refine (shapeCast_apply _ shapeCasts_S_S1x1 (ix2 0 0) ix0 ?_).trans rfl
  rw [Shape.rowMajor_val_two]
  exact Shape.rowMajorPi_zero _ _

/-- The shift's host line read at its one entry, likewise. -/
theorem hostMid_shift_read (HI LO : FVec Ideal S_ .f32) :
    shapeCast S1x1 (Host.divf (Host.negf LO)
        (addf (subf HI LO) (constant (F := Ideal) S_ .f32 0x33D6BF95#32))) shapeCasts_S_S1x1 (ix2 0 0)
      = Ideal.div (-(LO ix0)) (HI ix0 - LO ix0 + Ideal.ofBits .f32 0x33D6BF95#32) := by
  refine (shapeCast_apply _ shapeCasts_S_S1x1 (ix2 0 0) ix0 ?_).trans rfl
  rw [Shape.rowMajor_val_two]
  exact Shape.rowMajorPi_zero _ _

/-- The bf16 copy of the embeddings is the embeddings: a change of format is the identity on the extended reals. -/
theorem V1_v0 (c : Dev nD) :
    (V1 m c main_v0 : (⟨S16384x512, .bf16⟩ : BufTy).Contents (Elt Ideal))
      = (m ((c : Thread nD τ).loc main_arg0) : (⟨S16384x512, .f32⟩ : BufTy).Contents (Elt Ideal)) := by
  show StableHlo.after hostOps0 (V0 m c) (Proc.devRef .tc main_v0) = _
  after_results
  rfl

/-- The [128, 128, 512] view of the embeddings: graph `g`, node `r`, feature `k` is row 128 g + r, column k. -/
theorem V3_v9_apply (c : Dev nD) (g r : Fin 128) (k : Fin 512) :
    (V3 m outs c main_v9 : (⟨S128x128x512, .bf16⟩ : BufTy).Contents (Elt Ideal)) (ix3 g r k)
      = (V2 m outs c main_v0 : (⟨S16384x512, .bf16⟩ : BufTy).Contents (Elt Ideal))
          (ix2 (⟨g.val * 128 + r.val, by have := g.isLt; have := r.isLt; omega⟩ : Fin 16384) k) := by
  have e : (V3 m outs c main_v9 : (⟨S128x128x512, .bf16⟩ : BufTy).Contents (Elt Ideal))
      = shapeCast S128x128x512 (V2 m outs c main_v0 : (⟨S16384x512, .bf16⟩ : BufTy).Contents (Elt Ideal)) shapeCasts_S16384x512_S128x128x512 := by
    show StableHlo.after hostOps1 (V2 m outs c) (Proc.devRef .tc main_v9) = _
    after_results
    rfl
  rw [e]
  exact shapeCast_mc_abc_apply _ shapeCasts_S16384x512_S128x128x512 g r k _

/-- The scale: 1 / (hi - lo + eps). -/
theorem V3_v10_apply (c : Dev nD) :
    (V3 m outs c main_v10 : (⟨S1x1, .f32⟩ : BufTy).Contents (Elt Ideal)) (ix2 0 0)
      = Ideal.div (Ideal.ofBits .f32 0x3F800000#32) (hiV m outs c - loV m outs c + Cert.Spec.eps) := by
  have e : (V3 m outs c main_v10 : (⟨S1x1, .f32⟩ : BufTy).Contents (Elt Ideal))
      = shapeCast S1x1 (Host.divf (constant (F := Ideal) S_ .f32 0x3F800000#32)
          (addf (subf
              (Host.reduce FloatOps.maximumf (V2 m outs c main_v1_1 : (⟨S128x128, .f32⟩ : BufTy).Contents (Elt Ideal))
                (constant (F := Ideal) S_ .f32 0xFF800000#32) reducesTo_S128x128_S_d0_1 h_S_ : FVec Ideal S_ .f32)
              (Host.reduce FloatOps.minimumf (V2 m outs c main_v1_0 : (⟨S128x128, .f32⟩ : BufTy).Contents (Elt Ideal))
                (constant (F := Ideal) S_ .f32 0x7F800000#32) reducesTo_S128x128_S_d0_1 h_S_ : FVec Ideal S_ .f32))
            (constant (F := Ideal) S_ .f32 0x33D6BF95#32))) shapeCasts_S_S1x1 := by
    show StableHlo.after hostOps1 (V2 m outs c) (Proc.devRef .tc main_v10) = _
    after_results
    rfl
  rw [e]
  unfold loV hiV Cert.Spec.eps
  exact hostMid_scale_read _ _

/-- The shift: (-lo) / (hi - lo + eps). -/
theorem V3_v11_apply (c : Dev nD) :
    (V3 m outs c main_v11 : (⟨S1x1, .f32⟩ : BufTy).Contents (Elt Ideal)) (ix2 0 0)
      = Ideal.div (-(loV m outs c)) (hiV m outs c - loV m outs c + Cert.Spec.eps) := by
  have e : (V3 m outs c main_v11 : (⟨S1x1, .f32⟩ : BufTy).Contents (Elt Ideal))
      = shapeCast S1x1 (Host.divf
          (Host.negf (Host.reduce FloatOps.minimumf (V2 m outs c main_v1_0 : (⟨S128x128, .f32⟩ : BufTy).Contents (Elt Ideal))
                (constant (F := Ideal) S_ .f32 0x7F800000#32) reducesTo_S128x128_S_d0_1 h_S_ : FVec Ideal S_ .f32))
          (addf (subf
              (Host.reduce FloatOps.maximumf (V2 m outs c main_v1_1 : (⟨S128x128, .f32⟩ : BufTy).Contents (Elt Ideal))
                (constant (F := Ideal) S_ .f32 0xFF800000#32) reducesTo_S128x128_S_d0_1 h_S_ : FVec Ideal S_ .f32)
              (Host.reduce FloatOps.minimumf (V2 m outs c main_v1_0 : (⟨S128x128, .f32⟩ : BufTy).Contents (Elt Ideal))
                (constant (F := Ideal) S_ .f32 0x7F800000#32) reducesTo_S128x128_S_d0_1 h_S_ : FVec Ideal S_ .f32))
            (constant (F := Ideal) S_ .f32 0x33D6BF95#32))) shapeCasts_S_S1x1 := by
    show StableHlo.after hostOps1 (V2 m outs c) (Proc.devRef .tc main_v11) = _
    after_results
    rfl
  rw [e]
  unfold loV hiV Cert.Spec.eps
  exact hostMid_shift_read _ _

end Cert.KernelIdeal.Hand

end
-- ==== Proof.LibRowMin.lean ====
/-
  A row's minimum at the ideal values.  A float `vector.multi_reduction <minimumf>` over ONE axis is, at each reduced
  index, the fold of `min` from the accumulator's value over that axis's coordinates — the mirror image of the
  library's reading of a `<maximumf>` reduction (`Ideal.multiReduction_maximumf_single`), with the same proof: `min`
  on the extended reals commutes and associates, so the fold over the set of source indices lying over `j` is the
  fold over the dropped axis's coordinates.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KIMinMaxValue.lean ====
/-
  What region 0 leaves, read by the host: the global least and greatest similarity.

  After the region, row block i (rows 8 i .. 8 i + 7, all 128 columns) of the first output array holds the least entry
  of rows 1024 i .. 1024 i + 1023 of the similarity matrix, and of the second the greatest; the host's min / max over
  the whole 128 x 128 array is therefore the least / greatest similarity over all pairs of rows.

  Every minimum is carried by its universal property on the extended reals: a number x is below the minimum iff it is
  below every entry.  Stage by stage: an entry of the tile a point computes is an inner product of two rows of the
  embeddings; x is below the tile's least entry iff it is below every entry (two lane reductions, over the columns and
  then over the rows); x is below the scratch cell after point n iff it is below every entry of every tile of n's row
  tile computed so far (induction on the point: the cell is reset to +inf at the first point of a row tile and lowered
  by the tile's least entry at every point); the block written back at the last point of a row tile is the broadcast
  of the cell, so the output array is one function of the index; and x is below the host's minimum over that array iff
  it is below every entry.  Joined, x is below the host's minimum iff it is below the similarity of every pair of rows,
  which is the universal property of the infimum.  The maximum is the mirror image.
-/
import proofs.«405393_j40785009443380_2_alg».proof.Proof.KIMinMaxDat
import proofs.«405393_j40785009443380_2_alg».proof.Proof.Spec
import proofs.«405393_j40785009443380_2_alg».proof.Proof.LibRowMin
import proofs.«405393_j40785009443380_2_alg».proof.Proof.LibColumnCast
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace MinMax

/-! ## The tile of the similarity matrix a point computes -/

theorem lhsT_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhsT_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhsT_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhsT_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- Entry (r, s) of the tile: the inner product of row r of the row tile with row s of the column tile. -/
theorem tile_apply (a : Vec Ideal S1024x512 .bf16) (b : Vec Ideal S2048x512 .bf16) (r : Fin 1024) (s : Fin 2048) :
    k0_pay3 (F := Ideal) a b (ix2 r s) = ∑ k : Fin 512, a (ix2 r k) * b (ix2 s k) := by
  unfold k0_pay3
  rw [shapeCast_self, shapeCast_self]
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r s) ((ValueIdx.contrEquiv1 dot_S1024x512_S2048x512_S1024x2048_1_1_0_0_n_n 512 rfl rfl).symm k) = ix2 r k := funext fun a => Fin.ext (by
    match a with
    | ⟨0, _⟩ => exact lhsT_0 _ _
    | ⟨1, _⟩ => exact (lhsT_1 _ _).trans hk)
  have er : dot_S1024x512_S2048x512_S1024x2048_1_1_0_0_n_n.rhsIdx (ix2 r s) ((ValueIdx.contrEquiv1 dot_S1024x512_S2048x512_S1024x2048_1_1_0_0_n_n 512 rfl rfl).symm k) = ix2 s k := funext fun a => Fin.ext (by
    match a with
    | ⟨0, _⟩ => exact rhsT_0 _ _
    | ⟨1, _⟩ => exact (rhsT_1 _ _).trans hk)
  rw [el, er]

/-! ## The two infinities the reductions start from -/

theorem posInf_eq : Ideal.ofBits .f32 0x7F800000#32 = (⊤ : EReal) := by simp [Ideal.ofBits, Ideal.ieee]
theorem negInf_eq : Ideal.ofBits .f32 0xFF800000#32 = (⊥ : EReal) := by simp [Ideal.ofBits, Ideal.ieee]

/-! ## The least entry of a tile -/

/-- The index over row `r` of the tile with column `s` put back. -/
theorem lift_row (r : Fin 1024) (s : Fin 2048) : reduces_S1024x2048_S1024.lift (ix1 r) s = ix2 r s := by
  funext c; apply Fin.ext
  match c with
  | ⟨0, _⟩ => rfl
  | ⟨1, _⟩ => rfl

/-- The index over the one entry of the column of row minima with row `r` put back. -/
theorem lift_col (u : Fin 1) (r : Fin 1024) : reduces_S1024x1_S1.lift (ix1 u) r = ix2 r u := by
  funext c; apply Fin.ext
  match c with
  | ⟨0, _⟩ => rfl
  | ⟨1, _⟩ => rfl

/-- A number is below the least entry of row `r` of a tile iff it is below every entry of the row. -/
theorem le_rowMin_iff (T : FVec Ideal S1024x2048 .f32) (r : Fin 1024) (x : EReal) :
    x ≤ multiReduction .minimumf [1] S1024 T 0x7F800000#32 reduces_S1024x2048_S1024 (.inl rfl) rfl (ix1 r)
      ↔ ∀ s : Fin 2048, x ≤ T (ix2 r s) := by
  rw [Ideal.multiReduction_minimumf_single T 0x7F800000#32 reduces_S1024x2048_S1024 (.inl rfl) rfl (ix1 r), Finset.le_fold_min]
  constructor
  · rintro ⟨-, h⟩ s
    have := h s (Finset.mem_univ _)
    change x ≤ T (reduces_S1024x2048_S1024.lift (ix1 r) s) at this
    rwa [lift_row r s] at this
  · intro h
    refine ⟨le_of_le_of_eq le_top posInf_eq.symm, fun s _ => ?_⟩
    show x ≤ T (reduces_S1024x2048_S1024.lift (ix1 r) s)
    rw [lift_row r s]
    exact h s

/-- A number is below the least entry of a column iff it is below every entry of it. -/
theorem le_colMin_iff (C : FVec Ideal S1024x1 .f32) (u : Fin 1) (x : EReal) :
    x ≤ multiReduction .minimumf [0] S1 C 0x7F800000#32 reduces_S1024x1_S1 (.inl rfl) rfl (ix1 u)
      ↔ ∀ r : Fin 1024, x ≤ C (ix2 r u) := by
  rw [Ideal.multiReduction_minimumf_single C 0x7F800000#32 reduces_S1024x1_S1 (.inl rfl) rfl (ix1 u), Finset.le_fold_min]
  constructor
  · rintro ⟨-, h⟩ r
    have := h r (Finset.mem_univ _)
    change x ≤ C (reduces_S1024x1_S1.lift (ix1 u) r) at this
    rwa [lift_col u r] at this
  · intro h
    refine ⟨le_of_le_of_eq le_top posInf_eq.symm, fun r _ => ?_⟩
    show x ≤ C (reduces_S1024x1_S1.lift (ix1 u) r)
    rw [lift_col u r]
    exact h r

/-- The first scratch cell after a point: a number is below it iff it is below what the cell held and below every
    entry of the point's tile. -/
theorem le_pay4_iff (a : Vec Ideal S1024x512 .bf16) (b : Vec Ideal S2048x512 .bf16) (prev : Vec Ideal S1x1 .f32)
    (u v : Fin 1) (x : EReal) :
    x ≤ k0_pay4 (F := Ideal) a b prev (ix2 u v)
      ↔ x ≤ prev (ix2 u v) ∧ ∀ (r : Fin 1024) (s : Fin 2048), x ≤ k0_pay3 (F := Ideal) a b (ix2 r s) := by
  unfold k0_pay4
  rw [shapeCast_self]
  show x ≤ min (prev (ix2 u v)) _ ↔ _
  rw [le_min_iff]
  refine and_congr Iff.rfl ?_
  rw [shapeCast_a_a1_apply _ shapeCasts_S1_S1x1 u v, le_colMin_iff]
  refine forall_congr' fun r => ?_
  rw [shapeCast_a_a1_apply _ shapeCasts_S1024_S1024x1 r u, le_rowMin_iff]

/-! ## The greatest entry of a tile (the mirror image) -/

/-- The greatest entry of row `r` of a tile is below a number iff every entry of the row is. -/
theorem rowMax_le_iff (T : FVec Ideal S1024x2048 .f32) (r : Fin 1024) (x : EReal) :
    multiReduction .maximumf [1] S1024 T 0xFF800000#32 reduces_S1024x2048_S1024 (.inl rfl) rfl (ix1 r) ≤ x
      ↔ ∀ s : Fin 2048, T (ix2 r s) ≤ x := by
  rw [Ideal.multiReduction_maximumf_single T 0xFF800000#32 reduces_S1024x2048_S1024 (.inl rfl) rfl (ix1 r), Finset.fold_max_le]
  constructor
  · rintro ⟨-, h⟩ s
    have := h s (Finset.mem_univ _)
    change T (reduces_S1024x2048_S1024.lift (ix1 r) s) ≤ x at this
    rwa [lift_row r s] at this
  · intro h
    refine ⟨le_of_eq_of_le negInf_eq bot_le, fun s _ => ?_⟩
    show T (reduces_S1024x2048_S1024.lift (ix1 r) s) ≤ x
    rw [lift_row r s]
    exact h s

/-- The greatest entry of a column is below a number iff every entry of it is. -/
theorem colMax_le_iff (C : FVec Ideal S1024x1 .f32) (u : Fin 1) (x : EReal) :
    multiReduction .maximumf [0] S1 C 0xFF800000#32 reduces_S1024x1_S1 (.inl rfl) rfl (ix1 u) ≤ x
      ↔ ∀ r : Fin 1024, C (ix2 r u) ≤ x := by
  rw [Ideal.multiReduction_maximumf_single C 0xFF800000#32 reduces_S1024x1_S1 (.inl rfl) rfl (ix1 u), Finset.fold_max_le]
  constructor
  · rintro ⟨-, h⟩ r
    have := h r (Finset.mem_univ _)
    change C (reduces_S1024x1_S1.lift (ix1 u) r) ≤ x at this
    rwa [lift_col u r] at this
  · intro h
    refine ⟨le_of_eq_of_le negInf_eq bot_le, fun r _ => ?_⟩
    show C (reduces_S1024x1_S1.lift (ix1 u) r) ≤ x
    rw [lift_col u r]
    exact h r

/-- The second scratch cell after a point: it is below a number iff what the cell held and every entry of the
    point's tile are. -/
theorem pay5_le_iff (a : Vec Ideal S1024x512 .bf16) (b : Vec Ideal S2048x512 .bf16) (prev : Vec Ideal S1x1 .f32)
    (u v : Fin 1) (x : EReal) :
    k0_pay5 (F := Ideal) a b prev (ix2 u v) ≤ x
      ↔ prev (ix2 u v) ≤ x ∧ ∀ (r : Fin 1024) (s : Fin 2048), k0_pay3 (F := Ideal) a b (ix2 r s) ≤ x := by
  unfold k0_pay5
  rw [shapeCast_self]
  show max (prev (ix2 u v)) _ ≤ x ↔ _
  rw [max_le_iff]
  refine and_congr Iff.rfl ?_
  rw [shapeCast_a_a1_apply _ shapeCasts_S1_S1x1 u v, colMax_le_iff]
  refine forall_congr' fun r => ?_
  rw [shapeCast_a_a1_apply _ shapeCasts_S1024_S1024x1 r u, rowMax_le_iff]

-- the TensorCore's buffer contents when the region is entered, at the ideal instance
variable (V : (c : Dev nD) → (b : Ref sig .tc) → Buf (Elt Ideal) ((c : Thread nD τ).loc b))

/-! ## The blocks a point reads, as rows of the embeddings -/

/-- The embeddings the region reads, and a point's two blocks of them, at their literal types. -/
abbrev emb0 (c : Dev nD) : Vec Ideal S16384x512 .bf16 := V c main_v0
abbrev rowTile (c : Dev nD) (t : Fin cfg0.N) : Vec Ideal S1024x512 .bf16 := iblk0 V c 0 t
abbrev colTile (c : Dev nD) (t : Fin cfg0.N) : Vec Ideal S2048x512 .bf16 := iblk0 V c 1 t

/-- The printed index maps over the grid: point t reads row block t / 8 and column block t % 8, and writes row block
    t / 8 of each output. -/
theorem idx_facts0 : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- Row r of the row tile of point t, and row s of its column tile, as rows of the similarity matrix. -/
def rowOfPt (t : Fin cfg0.N) (r : Fin 1024) : Fin 16384 :=
  ⟨1024 * (t.val / 8) + r.val, by have := t.isLt; have hN : cfg0.N = 128 := N_0; omega⟩
def colOfPt (t : Fin cfg0.N) (s : Fin 2048) : Fin 16384 :=
  ⟨2048 * (t.val % 8) + s.val, by omega⟩

theorem rowTile_apply (c : Dev nD) (t : Fin cfg0.N) (r : Fin 1024) (k : Fin 512) :
    rowTile V c t (ix2 r k) = emb0 V c (ix2 (rowOfPt t r) k) := by
  obtain ⟨e0, e1, -⟩ := idx_facts0 t
  show V c main_v0 (((cfg0.win 0).blk t).view.emb (ix2 r k)) = V c main_v0 (ix2 (rowOfPt t r) k)
  refine congrArg (V c main_v0) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 512 + 1 * k.val = k.val; omega

theorem colTile_apply (c : Dev nD) (t : Fin cfg0.N) (s : Fin 2048) (k : Fin 512) :
    colTile V c t (ix2 s k) = emb0 V c (ix2 (colOfPt t s) k) := by
  obtain ⟨-, -, e0, e1, -⟩ := idx_facts0 t
  show V c main_v0 (((cfg0.win 1).blk t).view.emb (ix2 s k)) = V c main_v0 (ix2 (colOfPt t s) k)
  refine congrArg (V c main_v0) (funext fun a => Fin.ext ?_)
  match a with
  | ⟨0, _⟩ => show win0_1.index t (0 : Fin 2) * 2048 + 1 * s.val = 2048 * (t.val % 8) + s.val; omega
  | ⟨1, _⟩ => show win0_1.index t (1 : Fin 2) * 512 + 1 * k.val = k.val; omega

/-- Entry (r, s) of the tile point t computes is the similarity of the two rows. -/
theorem tile_entry (c : Dev nD) (t : Fin cfg0.N) (r : Fin 1024) (s : Fin 2048) :
    k0_pay3 (F := Ideal) (rowTile V c t) (colTile V c t) (ix2 r s) = Cert.Spec.sim (emb0 V c) (rowOfPt t r) (colOfPt t s) := by
  rw [tile_apply]
  unfold Cert.Spec.sim
  exact Finset.sum_congr rfl fun k _ => by rw [rowTile_apply, colTile_apply]

/-! ## The first scratch cell after each point -/

/-- The reset value of the first cell is +inf everywhere. -/
theorem pay1_apply (i : S1x1.Idx) : k0_pay1 (F := Ideal) i = (⊤ : EReal) := by
  unfold k0_pay1
  rw [shapeCast_self]
  exact posInf_eq

/-- The cells after a point depend on the point's number only. -/
theorem acc0_congr (c : Dev nD) {n n' : ℕ} (e : n = n') (h : n < cfg0.N) (h' : n' < cfg0.N) :
    acc0 V c n h = acc0 V c n' h' := by subst e; rfl

/-- THE INVARIANT. After point n the first cell holds the least similarity over the tiles of the points of n's row
    tile up to n: a number is below the cell iff it is below every entry of every such tile. -/
theorem le_cell_iff (c : Dev nD) : ∀ (n : ℕ) (hn : n < cfg0.N) (x : EReal),
    x ≤ (acc0 V c n hn).1 (ix2 0 0)
      ↔ ∀ t' : Fin cfg0.N, t'.val / 8 = n / 8 → t'.val ≤ n → ∀ (r : Fin 1024) (s : Fin 2048),
          x ≤ Cert.Spec.sim (emb0 V c) (rowOfPt t' r) (colOfPt t' s)
  | n, hn, x => by
    by_cases h0 : n % 8 = 0
    · have e := acc0_reset V c ⟨n, hn⟩ h0
      dsimp only at e
      rw [e]
      refine (le_pay4_iff (rowTile V c ⟨n, hn⟩) (colTile V c ⟨n, hn⟩) (k0_pay1 (F := Ideal)) 0 0 x).trans ?_
      constructor
      · rintro ⟨-, h⟩ t' e1 e2 r s
        obtain rfl : t' = ⟨n, hn⟩ := Fin.ext (by show t'.val = n; omega)
        rw [← tile_entry]; exact h r s
      · intro h
        refine ⟨le_of_le_of_eq le_top (pay1_apply _).symm, fun r s => ?_⟩
        rw [tile_entry]; exact h ⟨n, hn⟩ rfl le_rfl r s
    · have e := acc0_step V c ⟨n, hn⟩ h0
      dsimp only at e
      rw [e]
      refine (le_pay4_iff (rowTile V c ⟨n, hn⟩) (colTile V c ⟨n, hn⟩)
        (acc0 V c (n - 1) (Nat.lt_of_le_of_lt (Nat.sub_le _ _) hn)).1 0 0 x).trans ?_
      rw [le_cell_iff c (n - 1) (Nat.lt_of_le_of_lt (Nat.sub_le _ _) hn) x]
      constructor
      · rintro ⟨hp, h⟩ t' e1 e2 r s
        by_cases ht : t'.val = n
        · obtain rfl : t' = ⟨n, hn⟩ := Fin.ext ht
          rw [← tile_entry]; exact h r s
        · exact hp t' (by omega) (by omega) r s
      · intro h
        refine ⟨fun t' e1 e2 r s => h t' (by omega) (by omega) r s, fun r s => ?_⟩
        rw [tile_entry]; exact h ⟨n, hn⟩ rfl le_rfl r s
termination_by n => n
decreasing_by omega

/-! ## The first output array after the region -/

/-- The broadcast of the cell: every entry of the 8 x 128 block is the cell. -/
theorem pay6_apply (cell : Vec Ideal S1x1 .f32) (y : S8x128.Idx) : k0_pay6 (F := Ideal) cell y = cell (ix2 0 0) := by
  unfold k0_pay6
  rw [shapeCast_self]
  exact broadcastTo_apply cell broadcasts_S1x1_S8x128 y (ix2 0 0) (fun a => by
    match a with
    | ⟨0, _⟩ => rfl
    | ⟨1, _⟩ => rfl)

/-- The least similarity of row tile p: the first cell after the last point of the row tile. -/
def cellMin (c : Dev nD) (p : ℕ) (hp : p < 16) : EReal :=
  (acc0 V c (8 * p + 7) (by have hN : cfg0.N = 128 := N_0; omega)).1 (ix2 0 0)

/-- What the first output array ends holding: row block p (rows 8 p .. 8 p + 7) at the least similarity of row tile p. -/
def outMin (c : Dev nD) : Vec Ideal S128x128 .f32 :=
  fun i => cellMin V c ((i 0).val / 8) (by have := idx2_lt0 i; omega)

/-- WHAT A WRITING POINT WRITES BACK is its block of that array. -/
theorem flushed2_eq (c : Dev nD) (t : Fin cfg0.N) (hf : (cfg0.win 2).flush t = true) :
    (dat0 V c).flushed 2 t = ((cfg0.win 2).blk t).view.read (Elt Ideal) (outMin V c) := by
  have h7 : t.val % 8 = 7 := (flush0_2 t).mp hf
  have hN : cfg0.N = 128 := N_0
  obtain ⟨-, -, -, -, e0, e1, -⟩ := idx_facts0 t
  show (cfg0.win 2).cut (grid0.coords t) ((dat0 V c).after 2 t) = _
  rw [after0_2]
  funext y
  show k0_pay6 (F := Ideal) (acc0 V c t.val t.isLt).1 y = outMin V c (((cfg0.win 2).blk t).view.emb y)
  rw [pay6_apply]
  have hv : ((((cfg0.win 2).blk t).view.emb y) 0).val = win0_2.index t (0 : Fin 2) * 8 + 1 * (y 0).val := rfl
  have hy : (y 0).val < 8 := (y 0).isLt
  unfold outMin cellMin
  exact congrArg (fun a : Vec Ideal S1x1 .f32 × Vec Ideal S1x1 .f32 => a.1 (ix2 0 0))
    (acc0_congr V c (by rw [hv, e0]; have := t.isLt; omega) _ _)

/-- An index of the array is in point t's block iff each coordinate is in the block's range on its axis. -/
theorem mem_blk2 (t : Fin cfg0.N) (i : S128x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1_0).slice (win0_2.rect t)).set ↔ _
  rw [View.set_slice_whole, Rect.mem_set_unit]
  exact Iff.rfl

/-- Every index of the array is in the block of a point that writes back: the last point of its row tile. -/
theorem cover2 (i : S128x128.Idx) : ∃ t : Fin cfg0.N, (cfg0.win 2).flush t = true ∧ i ∈ ((cfg0.win 2).blk t).view.set := by
  have hN : cfg0.N = 128 := N_0
  have hi0 : (i 0).val < 128 := idx2_lt0 i
  have hi1 : (i 1).val < 128 := idx2_lt1 i
  have hlt : 8 * ((i 0).val / 8) + 7 < cfg0.N := by omega
  obtain ⟨-, -, -, -, e0, e1, -⟩ := idx_facts0 ⟨8 * ((i 0).val / 8) + 7, hlt⟩
  refine ⟨⟨8 * ((i 0).val / 8) + 7, hlt⟩, (flush0_2 _).mpr (by show (8 * ((i 0).val / 8) + 7) % 8 = 7; omega), ?_⟩
  rw [mem_blk2]
  intro a
  match a with
  | ⟨0, _⟩ =>
    show win0_2.index ⟨8 * ((i 0).val / 8) + 7, hlt⟩ (0 : Fin 2) * 8 ≤ (i 0).val ∧ (i 0).val < win0_2.index ⟨8 * ((i 0).val / 8) + 7, hlt⟩ (0 : Fin 2) * 8 + 8
    rw [e0]; dsimp only; omega
  | ⟨1, _⟩ =>
    show win0_2.index ⟨8 * ((i 0).val / 8) + 7, hlt⟩ (1 : Fin 2) * 128 ≤ (i 1).val ∧ (i 1).val < win0_2.index ⟨8 * ((i 0).val / 8) + 7, hlt⟩ (1 : Fin 2) * 128 + 128
    rw [e1]; omega

/-- THE ARRAY after the region. -/
theorem final2 (c : Dev nD) : (dat0 V c).arrAt 2 cfg0.N = outMin V c :=
  (dat0 V c).arrAt_eq_of_cover 2 (outMin V c) (flushed2_eq V c) cover2

/-! ## The host's reduction, and the least similarity -/

/-- A number is below the host's min over both axes iff it is below every entry. -/
theorem le_hostMin_iff (A : Vec Ideal S128x128 .f32) (j : S_.Idx) (x : EReal) :
    x ≤ (Host.reduce FloatOps.minimumf A (constant (F := Ideal) S_ .f32 0x7F800000#32) reducesTo_S128x128_S_d0_1 h_S_ : FVec Ideal S_ .f32) j
      ↔ ∀ i : S128x128.Idx, x ≤ A i := by
  rw [Host.reduce_eq_fold, Finset.filter_true_of_mem (fun i _ => funext fun a => a.elim0)]
  show x ≤ Finset.univ.fold min (Ideal.ofBits .f32 0x7F800000#32) A ↔ _
  rw [Finset.le_fold_min]
  exact ⟨fun h i => h.2 i (Finset.mem_univ _), fun h => ⟨le_of_le_of_eq le_top posInf_eq.symm, fun i _ => h i⟩⟩

/-- A number is below every entry of the first output array iff it is below every similarity. -/
theorem le_outMin_iff (c : Dev nD) (x : EReal) :
    (∀ i : S128x128.Idx, x ≤ outMin V c i) ↔ ∀ p : Fin 16384 × Fin 16384, x ≤ Cert.Spec.sim (emb0 V c) p.1 p.2 := by
  have hN : cfg0.N = 128 := N_0
  constructor
  · rintro h ⟨a, b⟩
    have ha : a.val < 16384 := a.isLt
    have hb : b.val < 16384 := b.isLt
    have h1 := h (ix2 ⟨8 * (a.val / 1024), by omega⟩ 0)
    unfold outMin cellMin at h1
    rw [le_cell_iff] at h1
    have h2 := h1 ⟨8 * (a.val / 1024) + b.val / 2048, by omega⟩ (by dsimp only; omega) (by dsimp only; omega)
      ⟨a.val % 1024, Nat.mod_lt _ (by decide)⟩ ⟨b.val % 2048, Nat.mod_lt _ (by decide)⟩
    have ea : rowOfPt ⟨8 * (a.val / 1024) + b.val / 2048, by omega⟩ ⟨a.val % 1024, Nat.mod_lt _ (by decide)⟩ = a :=
      Fin.ext (by show 1024 * ((8 * (a.val / 1024) + b.val / 2048) / 8) + a.val % 1024 = a.val; omega)
    have eb : colOfPt ⟨8 * (a.val / 1024) + b.val / 2048, by omega⟩ ⟨b.val % 2048, Nat.mod_lt _ (by decide)⟩ = b :=
      Fin.ext (by show 2048 * ((8 * (a.val / 1024) + b.val / 2048) % 8) + b.val % 2048 = b.val; omega)
    rw [ea, eb] at h2
    exact h2
  · intro h i
    unfold outMin cellMin
    rw [le_cell_iff]
    intro t' _ _ r s
    exact h (rowOfPt t' r, colOfPt t' s)

/-! ## The second scratch cell after each point (the mirror image) -/

/-- The reset value of the second cell is -inf everywhere. -/
theorem pay2_apply (i : S1x1.Idx) : k0_pay2 (F := Ideal) i = (⊥ : EReal) := by
  unfold k0_pay2
  rw [shapeCast_self]
  exact negInf_eq

/-- THE INVARIANT, for the greatest. After point n the second cell holds the greatest similarity over the tiles of the
    points of n's row tile up to n: the cell is below a number iff every entry of every such tile is. -/
theorem cell_le_iff (c : Dev nD) : ∀ (n : ℕ) (hn : n < cfg0.N) (x : EReal),
    (acc0 V c n hn).2 (ix2 0 0) ≤ x
      ↔ ∀ t' : Fin cfg0.N, t'.val / 8 = n / 8 → t'.val ≤ n → ∀ (r : Fin 1024) (s : Fin 2048),
          Cert.Spec.sim (emb0 V c) (rowOfPt t' r) (colOfPt t' s) ≤ x
  | n, hn, x => by
    by_cases h0 : n % 8 = 0
    · have e := acc0_reset V c ⟨n, hn⟩ h0
      dsimp only at e
      rw [e]
      refine (pay5_le_iff (rowTile V c ⟨n, hn⟩) (colTile V c ⟨n, hn⟩) (k0_pay2 (F := Ideal)) 0 0 x).trans ?_
      constructor
      · rintro ⟨-, h⟩ t' e1 e2 r s
        obtain rfl : t' = ⟨n, hn⟩ := Fin.ext (by show t'.val = n; omega)
        rw [← tile_entry]; exact h r s
      · intro h
        refine ⟨le_of_eq_of_le (pay2_apply _) bot_le, fun r s => ?_⟩
        rw [tile_entry]; exact h ⟨n, hn⟩ rfl le_rfl r s
    · have e := acc0_step V c ⟨n, hn⟩ h0
      dsimp only at e
      rw [e]
      refine (pay5_le_iff (rowTile V c ⟨n, hn⟩) (colTile V c ⟨n, hn⟩)
        (acc0 V c (n - 1) (Nat.lt_of_le_of_lt (Nat.sub_le _ _) hn)).2 0 0 x).trans ?_
      rw [cell_le_iff c (n - 1) (Nat.lt_of_le_of_lt (Nat.sub_le _ _) hn) x]
      constructor
      · rintro ⟨hp, h⟩ t' e1 e2 r s
        by_cases ht : t'.val = n
        · obtain rfl : t' = ⟨n, hn⟩ := Fin.ext ht
          rw [← tile_entry]; exact h r s
        · exact hp t' (by omega) (by omega) r s
      · intro h
        refine ⟨fun t' e1 e2 r s => h t' (by omega) (by omega) r s, fun r s => ?_⟩
        rw [tile_entry]; exact h ⟨n, hn⟩ rfl le_rfl r s
termination_by n => n
decreasing_by omega

/-! ## The second output array after the region -/

/-- The broadcast of the second cell: every entry of the 8 x 128 block is the cell. -/
theorem pay7_apply (cell : Vec Ideal S1x1 .f32) (y : S8x128.Idx) : k0_pay7 (F := Ideal) cell y = cell (ix2 0 0) := by
  unfold k0_pay7
  rw [shapeCast_self]
  exact broadcastTo_apply cell broadcasts_S1x1_S8x128 y (ix2 0 0) (fun a => by
    match a with
    | ⟨0, _⟩ => rfl
    | ⟨1, _⟩ => rfl)

/-- The greatest similarity of row tile p: the second cell after the last point of the row tile. -/
def cellMax (c : Dev nD) (p : ℕ) (hp : p < 16) : EReal :=
  (acc0 V c (8 * p + 7) (by have hN : cfg0.N = 128 := N_0; omega)).2 (ix2 0 0)

/-- What the second output array ends holding: row block p at the greatest similarity of row tile p. -/
def outMax (c : Dev nD) : Vec Ideal S128x128 .f32 :=
  fun i => cellMax V c ((i 0).val / 8) (by have := idx2_lt0 i; omega)

/-- WHAT A WRITING POINT WRITES BACK to the second output is its block of that array. -/
theorem flushed3_eq (c : Dev nD) (t : Fin cfg0.N) (hf : (cfg0.win 3).flush t = true) :
    (dat0 V c).flushed 3 t = ((cfg0.win 3).blk t).view.read (Elt Ideal) (outMax V c) := by
  have h7 : t.val % 8 = 7 := (flush0_3 t).mp hf
  have hN : cfg0.N = 128 := N_0
  obtain ⟨-, -, -, -, -, -, e0, e1⟩ := idx_facts0 t
  show (cfg0.win 3).cut (grid0.coords t) ((dat0 V c).after 3 t) = _
  rw [after0_3]
  funext y
  show k0_pay7 (F := Ideal) (acc0 V c t.val t.isLt).2 y = outMax V c (((cfg0.win 3).blk t).view.emb y)
  rw [pay7_apply]
  have hv : ((((cfg0.win 3).blk t).view.emb y) 0).val = win0_3.index t (0 : Fin 2) * 8 + 1 * (y 0).val := rfl
  have hy : (y 0).val < 8 := (y 0).isLt
  unfold outMax cellMax
  exact congrArg (fun a : Vec Ideal S1x1 .f32 × Vec Ideal S1x1 .f32 => a.2 (ix2 0 0))
    (acc0_congr V c (by rw [hv, e0]; have := t.isLt; omega) _ _)

/-- An index of the second output array is in point t's block iff each coordinate is in the block's range. -/
theorem mem_blk3 (t : Fin cfg0.N) (i : S128x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v1_1).slice (win0_3.rect t)).set ↔ _
  rw [View.set_slice_whole, Rect.mem_set_unit]
  exact Iff.rfl

/-- Every index of the second output array is in the block of the last point of its row tile. -/
theorem cover3 (i : S128x128.Idx) : ∃ t : Fin cfg0.N, (cfg0.win 3).flush t = true ∧ i ∈ ((cfg0.win 3).blk t).view.set := by
  have hN : cfg0.N = 128 := N_0
  have hi0 : (i 0).val < 128 := idx2_lt0 i
  have hi1 : (i 1).val < 128 := idx2_lt1 i
  have hlt : 8 * ((i 0).val / 8) + 7 < cfg0.N := by omega
  obtain ⟨-, -, -, -, -, -, e0, e1⟩ := idx_facts0 ⟨8 * ((i 0).val / 8) + 7, hlt⟩
  refine ⟨⟨8 * ((i 0).val / 8) + 7, hlt⟩, (flush0_3 _).mpr (by show (8 * ((i 0).val / 8) + 7) % 8 = 7; omega), ?_⟩
  rw [mem_blk3]
  intro a
  match a with
  | ⟨0, _⟩ =>
    show win0_3.index ⟨8 * ((i 0).val / 8) + 7, hlt⟩ (0 : Fin 2) * 8 ≤ (i 0).val ∧ (i 0).val < win0_3.index ⟨8 * ((i 0).val / 8) + 7, hlt⟩ (0 : Fin 2) * 8 + 8
    rw [e0]; dsimp only; omega
  | ⟨1, _⟩ =>
    show win0_3.index ⟨8 * ((i 0).val / 8) + 7, hlt⟩ (1 : Fin 2) * 128 ≤ (i 1).val ∧ (i 1).val < win0_3.index ⟨8 * ((i 0).val / 8) + 7, hlt⟩ (1 : Fin 2) * 128 + 128
    rw [e1]; omega

/-- THE SECOND ARRAY after the region. -/
theorem final3 (c : Dev nD) : (dat0 V c).arrAt 3 cfg0.N = outMax V c :=
  (dat0 V c).arrAt_eq_of_cover 3 (outMax V c) (flushed3_eq V c) cover3

/-- The host's max over both axes is below a number iff every entry is. -/
theorem hostMax_le_iff (A : Vec Ideal S128x128 .f32) (j : S_.Idx) (x : EReal) :
    (Host.reduce FloatOps.maximumf A (constant (F := Ideal) S_ .f32 0xFF800000#32) reducesTo_S128x128_S_d0_1 h_S_ : FVec Ideal S_ .f32) j ≤ x
      ↔ ∀ i : S128x128.Idx, A i ≤ x := by
  rw [Host.reduce_eq_fold, Finset.filter_true_of_mem (fun i _ => funext fun a => a.elim0)]
  show Finset.univ.fold max (Ideal.ofBits .f32 0xFF800000#32) A ≤ x ↔ _
  rw [Finset.fold_max_le]
  exact ⟨fun h i => h.2 i (Finset.mem_univ _), fun h => ⟨le_of_eq_of_le negInf_eq bot_le, fun i _ => h i⟩⟩

/-- Every entry of the second output array is below a number iff every similarity is. -/
theorem outMax_le_iff (c : Dev nD) (x : EReal) :
    (∀ i : S128x128.Idx, outMax V c i ≤ x) ↔ ∀ p : Fin 16384 × Fin 16384, Cert.Spec.sim (emb0 V c) p.1 p.2 ≤ x := by
  have hN : cfg0.N = 128 := N_0
  constructor
  · rintro h ⟨a, b⟩
    have ha : a.val < 16384 := a.isLt
    have hb : b.val < 16384 := b.isLt
    have h1 := h (ix2 ⟨8 * (a.val / 1024), by omega⟩ 0)
    unfold outMax cellMax at h1
    rw [cell_le_iff] at h1
    have h2 := h1 ⟨8 * (a.val / 1024) + b.val / 2048, by omega⟩ (by dsimp only; omega) (by dsimp only; omega)
      ⟨a.val % 1024, Nat.mod_lt _ (by decide)⟩ ⟨b.val % 2048, Nat.mod_lt _ (by decide)⟩
    have ea : rowOfPt ⟨8 * (a.val / 1024) + b.val / 2048, by omega⟩ ⟨a.val % 1024, Nat.mod_lt _ (by decide)⟩ = a :=
      Fin.ext (by show 1024 * ((8 * (a.val / 1024) + b.val / 2048) / 8) + a.val % 1024 = a.val; omega)
    have eb : colOfPt ⟨8 * (a.val / 1024) + b.val / 2048, by omega⟩ ⟨b.val % 2048, Nat.mod_lt _ (by decide)⟩ = b :=
      Fin.ext (by show 2048 * ((8 * (a.val / 1024) + b.val / 2048) % 8) + b.val % 2048 = b.val; omega)
    rw [ea, eb] at h2
    exact h2
  · intro h i
    unfold outMax cellMax
    rw [cell_le_iff]
    intro t' _ _ r s
    exact h (rowOfPt t' r, colOfPt t' s)

end MinMax

open MinMax

-- the TensorCore's buffer contents when the region is entered, at the ideal instance
variable (V : (c : Dev nD) → (b : Ref sig .tc) → Buf (Elt Ideal) ((c : Thread nD τ).loc b))

/-- The host's min over region 0's first output array is the least similarity of the embeddings the region read. -/
theorem minOut_eq (c : Dev nD) :
    (Host.reduce FloatOps.minimumf ((dat0 V c).arrAt 2 cfg0.N) (constant S_ .f32 0x7F800000#32) reducesTo_S128x128_S_d0_1 h_S_ : FVec Ideal S_ .f32)
      = fun _ => Cert.Spec.lo (V c main_v0) := by
  rw [final2]
  funext j
  refine eq_of_forall_le_iff fun x => ?_
  rw [le_hostMin_iff, le_outMin_iff]
  unfold Cert.Spec.lo
  exact le_iInf_iff.symm

/-- The host's max over region 0's second output array is the greatest similarity. -/
theorem maxOut_eq (c : Dev nD) :
    (Host.reduce FloatOps.maximumf ((dat0 V c).arrAt 3 cfg0.N) (constant S_ .f32 0xFF800000#32) reducesTo_S128x128_S_d0_1 h_S_ : FVec Ideal S_ .f32)
      = fun _ => Cert.Spec.hi (V c main_v0) := by
  rw [final3]
  funext j
  refine eq_of_forall_ge_iff fun x => ?_
  rw [hostMax_le_iff, outMax_le_iff]
  unfold Cert.Spec.hi
  exact iSup_le_iff.symm

end Cert.KernelIdeal.Hand

end
-- ==== Proof.Bridge.lean ====
/-
  The algebra that joins the two programs, on the extended reals.

  The reference normalises a similarity s as (s - lo) / d with d = hi - lo + eps; the kernel as s * (1 / d) + (-lo) / d.
  For real s and lo and a real d that is not zero the two are the same real number.  With every embedding a real
  number each similarity is a real number; the least and the greatest similarity over the finitely many pairs of rows
  are attained, so they are real numbers too and lo <= hi; eps is a positive real; so d is a positive real.
-/
import proofs.«405393_j40785009443380_2_alg».proof.Proof.Spec
import Mathlib.Data.EReal.Operations
import Mathlib.Order.ConditionallyCompleteLattice.Finset

noncomputable section

open scoped BigOperators

namespace Cert.Bridge

open Idealize.ShloMosaic Idealize.ShloMosaic.ValueIdx Cert.Spec

/-- The float 1.0 denotes the real 1. -/
theorem ofBits_one : Ideal.ofBits .f32 0x3F800000#32 = 1 := by
  simp [Ideal.ofBits, Ideal.ieee, -EReal.coe_mul]; norm_num

/-- The float 1e-7 denotes a positive real. -/
theorem eps_pos : ∃ e : ℝ, 0 < e ∧ eps = (e : EReal) := by
  refine ⟨14073749 / 2 ^ 47, by positivity, ?_⟩
  unfold eps
  simp [Ideal.ofBits, Ideal.ieee, -EReal.coe_mul]; norm_num

/-- A finite sum of products of reals is a real. -/
theorem sim_real (E : SEmb.Idx → EReal) (hE : ∀ i, ∃ r : ℝ, E i = (r : EReal)) (i j : Fin 16384) :
    ∃ r : ℝ, sim E i j = (r : EReal) := by
  choose f hf using hE
  refine ⟨∑ k : Fin 512, f (ix2 i k) * f (ix2 j k), ?_⟩
  unfold sim
  simp only [hf, ← EReal.coe_mul]
  induction (Finset.univ : Finset (Fin 512)) using Finset.induction_on with
  | empty => simp
  | insert a s ha ih => rw [Finset.sum_insert ha, Finset.sum_insert ha, ih, EReal.coe_add]

/-- The least similarity is attained. -/
theorem lo_attained (E : SEmb.Idx → EReal) : ∃ p : Fin 16384 × Fin 16384, lo E = sim E p.1 p.2 := by
  obtain ⟨p, hp⟩ := Finite.exists_min (fun p : Fin 16384 × Fin 16384 => sim E p.1 p.2)
  exact ⟨p, le_antisymm (iInf_le _ p) (le_iInf hp)⟩

/-- The greatest similarity is attained. -/
theorem hi_attained (E : SEmb.Idx → EReal) : ∃ p : Fin 16384 × Fin 16384, hi E = sim E p.1 p.2 := by
  obtain ⟨p, hp⟩ := Finite.exists_max (fun p : Fin 16384 × Fin 16384 => sim E p.1 p.2)
  exact ⟨p, le_antisymm (iSup_le hp) (le_iSup (fun p : Fin 16384 × Fin 16384 => sim E p.1 p.2) p)⟩

theorem lo_le_hi (E : SEmb.Idx → EReal) : lo E ≤ hi E :=
  (iInf_le _ (⟨0, by decide⟩, ⟨0, by decide⟩)).trans (le_iSup (fun p : Fin 16384 × Fin 16384 => sim E p.1 p.2) _)

/-- The two normalisations agree: (s - lo) / d = s * (1 / d) + (-lo) / d, for real embeddings. -/
theorem normalise (E : SEmb.Idx → EReal) (hE : ∀ i, ∃ r : ℝ, E i = (r : EReal)) (i j : Fin 16384) :
    Ideal.div (sim E i j - lo E) (den E)
      = sim E i j * Ideal.div (Ideal.ofBits .f32 0x3F800000#32) (den E) + Ideal.div (-(lo E)) (den E) := by
  obtain ⟨s, hs⟩ := sim_real E hE i j
  obtain ⟨pl, hpl⟩ := lo_attained E
  obtain ⟨ph, hph⟩ := hi_attained E
  obtain ⟨l, hl⟩ := sim_real E hE pl.1 pl.2
  obtain ⟨h, hh⟩ := sim_real E hE ph.1 ph.2
  obtain ⟨e, he, hee⟩ := eps_pos
  have hlh : l ≤ h := by
    have := lo_le_hi E
    rw [hpl, hph, hl, hh] at this
    exact_mod_cast this
  have hd : den E = ((h - l + e : ℝ) : EReal) := by
    unfold den; rw [hpl, hph, hl, hh, hee]; push_cast; rfl
  have hne : (h - l + e : ℝ) ≠ 0 := by linarith
  rw [hd, Ideal.div_coe hne, Ideal.div_coe hne, Ideal.div_coe hne, ofBits_one, hs, hpl, hl]
  rw [← EReal.coe_sub, ← EReal.coe_neg, ← EReal.coe_one, ← EReal.coe_mul, ← EReal.coe_mul, ← EReal.coe_mul, ← EReal.coe_mul,
    ← EReal.coe_add]
  congr 1
  ring

end Cert.Bridge

end
-- ==== Proof.KIValue.lean ====
/-
  The idealized kernel's result is the specification.

  Entry k of the result is the diagonal-block array at (row / 128, row mod 128, col mod 128); that entry is the inner
  product of rows 128 g + r and 128 g + q of the embeddings, scaled and shifted, with g = row / 128, r = row mod 128,
  q = col mod 128.  For a row below 16384, 128 g + r is the row itself; and since the column lies in the same block
  (col / 128 = row / 128), 128 g + q is the column.  The scale is 1 / d and the shift (-lo) / d with lo, hi the least and
  greatest similarity and d = hi - lo + eps, so the entry is sim * (1 / d) + (-lo) / d = (sim - lo) / d.
-/
import proofs.«405393_j40785009443380_2_alg».proof.Proof.KIRun
import proofs.«405393_j40785009443380_2_alg».proof.Proof.KIHostIdx
import proofs.«405393_j40785009443380_2_alg».proof.Proof.KIDiagValue
import proofs.«405393_j40785009443380_2_alg».proof.Proof.KIHostMid
import proofs.«405393_j40785009443380_2_alg».proof.Proof.KIMinMaxValue
import proofs.«405393_j40785009443380_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The three argument arrays, at their literal types. -/
abbrev embs (c : Dev nD) : Cert.Spec.SEmb.Idx → EReal := m ((c : Thread nD τ).loc main_arg0)
abbrev rows (c : Dev nD) : Cert.Spec.SIdx.Idx → BitVec 32 := m ((c : Thread nD τ).loc main_arg1)
abbrev cols (c : Dev nD) : Cert.Spec.SIdx.Idx → BitVec 32 := m ((c : Thread nD τ).loc main_arg2)

/-- The array region 0 read is the embeddings. -/
theorem E1_v0 (c : Dev nD) : (E1 m c main_v0 : Cert.Spec.SEmb.Idx → EReal) = embs m c := V1_v0 m c

/-- The host's least entry of region 0's first output is the least similarity. -/
theorem loV_eq (c : Dev nD) : loV m (outsA m) c = Cert.Spec.lo (embs m c) := by
  unfold loV
  have h : (V2 m (outsA m) c main_v1_0 : (⟨S128x128, .f32⟩ : BufTy).Contents (Elt Ideal)) = (dat0 (E1 m) c).arrAt 2 cfg0.N := by
    unfold V2
    rw [Function.update_of_ne (StableHlo.devRef_ne_of_ne (by decide)), Function.update_self, outsA_v1_0]
  rw [h, minOut_eq (E1 m) c, E1_v0]

/-- The host's greatest entry of region 0's second output is the greatest similarity. -/
theorem hiV_eq (c : Dev nD) : hiV m (outsA m) c = Cert.Spec.hi (embs m c) := by
  unfold hiV
  have h : (V2 m (outsA m) c main_v1_1 : (⟨S128x128, .f32⟩ : BufTy).Contents (Elt Ideal)) = (dat0 (E1 m) c).arrAt 3 cfg0.N := by
    unfold V2
    rw [Function.update_self, outsA_v1_1]
  rw [h, maxOut_eq (E1 m) c, E1_v0]

/-- The [128, 128, 512] view region 1 read: graph `g`, node `r` is row 128 g + r of the embeddings. -/
theorem E3_v9 (c : Dev nD) (g r : Fin 128) (k : Fin 512) :
    (E3 m c main_v9 : (⟨S128x128x512, .bf16⟩ : BufTy).Contents (Elt Ideal)) (ix3 g r k)
      = embs m c (ix2 (⟨g.val * 128 + r.val, by have := g.isLt; have := r.isLt; omega⟩ : Fin 16384) k) := by
  have h : (V2 m (outsA m) c main_v0 : (⟨S16384x512, .bf16⟩ : BufTy).Contents (Elt Ideal)) = embs m c :=
    (V2_of m (outsA m) c main_v0 (by decide)).trans (V1_v0 m c)
  rw [show (E3 m c main_v9 : (⟨S128x128x512, .bf16⟩ : BufTy).Contents (Elt Ideal)) = V3 m (outsA m) c main_v9 from rfl,
    V3_v9_apply m (outsA m) c g r k, h]

/-- THE VALUE: under the precondition's facts — every embedding a real number, every index below 16384, each
    (row, col) pair in one diagonal block — the result buffer after the last host line is the specification's. -/
theorem v35_eq (c : Dev nD) (hE : ∀ i, ∃ x : ℝ, embs m c i = (x : EReal))
    (hr : ∀ k, (rows m c k).toNat < 16384) (hc : ∀ k, (cols m c k).toNat < 16384)
    (hb : ∀ k, (rows m c k).toNat / 128 = (cols m c k).toNat / 128) :
    (V11 m (outs m) c main_v35 : (⟨S1040384, .f32⟩ : BufTy).Contents (Elt Ideal))
      = Cert.Spec.G (embs m c) (rows m c) (cols m c) := by
  funext k
  have h12 : (V4 m (outs m) c main_v12 : (⟨S128x128x128, .f32⟩ : BufTy).Contents (Elt Ideal)) = (dat1 (E3 m) c).arrAt 3 cfg1.N := by
    unfold V4
    rw [Function.update_self, outs_v12]
  rw [v35_read m (outs m) c hr hc k, h12, arrAt1_3 (E3 m) c]
  have hrow : (⟨(Cert.Spec.blkOf (rows m c k)).val * 128 + (Cert.Spec.laneOf (rows m c k)).val, by
      have := (Cert.Spec.blkOf (rows m c k)).isLt; have := (Cert.Spec.laneOf (rows m c k)).isLt; omega⟩ : Fin 16384)
      = Cert.Spec.rowOf (rows m c k) := by
    apply Fin.ext
    have := hr k
    simp only [Cert.Spec.blkOf, Cert.Spec.laneOf, Cert.Spec.rowOf]
    omega
  have hcol : (⟨(Cert.Spec.blkOf (rows m c k)).val * 128 + (Cert.Spec.laneOf (cols m c k)).val, by
      have := (Cert.Spec.blkOf (rows m c k)).isLt; have := (Cert.Spec.laneOf (cols m c k)).isLt; omega⟩ : Fin 16384)
      = Cert.Spec.rowOf (cols m c k) := by
    apply Fin.ext
    have := hr k; have := hc k; have := hb k
    simp only [Cert.Spec.blkOf, Cert.Spec.laneOf, Cert.Spec.rowOf]
    omega
  have hsum : (∑ j : Fin 512, embAt (E3 m) c (ix3 (Cert.Spec.blkOf (rows m c k)) (Cert.Spec.laneOf (rows m c k)) j)
        * embAt (E3 m) c (ix3 (Cert.Spec.blkOf (rows m c k)) (Cert.Spec.laneOf (cols m c k)) j))
      = Cert.Spec.sim (embs m c) (Cert.Spec.rowOf (rows m c k)) (Cert.Spec.rowOf (cols m c k)) := by
    unfold Cert.Spec.sim
    refine Finset.sum_congr rfl fun j _ => ?_
    rw [← hrow, ← hcol]
    exact congrArg₂ (· * ·) (E3_v9 m c _ _ j) (E3_v9 m c _ _ j)
  rw [hsum,
    show scaleAt (E3 m) c (ix2 0 0) = _ from V3_v10_apply m (outsA m) c,
    show shiftAt (E3 m) c (ix2 0 0) = _ from V3_v11_apply m (outsA m) c, loV_eq, hiV_eq]
  exact (Cert.Bridge.normalise (embs m c) hE (Cert.Spec.rowOf (rows m c k)) (Cert.Spec.rowOf (cols m c k))).symm

end Cert.KernelIdeal.Hand

end
-- ==== Proof.RefValue.lean ====
/-
  The reference program's result is the specification, and what the precondition says of the inputs.

  The reference forms the 16384 x 16384 matrix of inner products of the embeddings' rows, takes its least and its
  greatest entry (a minimum from plus infinity and a maximum from minus infinity over both axes: the infimum and the
  supremum over all pairs of rows), subtracts the least entry and divides by (greatest - least + eps), and reads the
  result at the pairs (row k, col k). A gather index below 16384 is left alone by the wrap-around of negative indices
  and by the clamp of the gather, so entry k is the normalised similarity of rows row(k) and col(k).
-/
import proofs.«405393_j40785009443380_2_alg».proof.Proof.Gen.ReferenceIdeal.Read
import proofs.«405393_j40785009443380_2_alg».proof.Proof.Gen.Pre_finite_inputs
import proofs.«405393_j40785009443380_2_alg».proof.Proof.Spec
import Idealize.ShloMosaic.Lib.ValueIdx
import Idealize.ShloMosaic.Lib.ReduceAll
import Idealize.ShloMosaic.Lib.StableHlo.Predicate
import Idealize.ShloMosaic.PureOps.Ideal.Laws

set_option maxRecDepth 16384

noncomputable section

open scoped BigOperators

namespace Cert.RefValue

open Idealize.ShloMosaic Idealize.ShloMosaic.ValueIdx Idealize.ShloMosaic.StableHlo.Predicate
open Cert.ReferenceIdeal Cert.ReferenceIdeal.Gen

/-- A fold of `min` from the top element over a whole finite type is the infimum. -/
theorem fold_min_top_eq_iInf {ι : Type} [Fintype ι] (f : ι → EReal) :
    Finset.univ.fold min (⊤ : EReal) f = ⨅ i, f i := by
  refine le_antisymm (le_iInf fun i => (Finset.fold_min_le _).2 (Or.inr ⟨i, Finset.mem_univ i, le_rfl⟩)) ?_
  exact (Finset.le_fold_min _).2 ⟨le_top, fun x _ => iInf_le f x⟩

/-- A fold of `max` from the bottom element over a whole finite type is the supremum. -/
theorem fold_max_bot_eq_iSup {ι : Type} [Fintype ι] (f : ι → EReal) :
    Finset.univ.fold max (⊥ : EReal) f = ⨆ i, f i := by
  refine le_antisymm ((Finset.fold_max_le _).2 ⟨bot_le, fun x _ => le_iSup f x⟩) ?_
  exact iSup_le fun i => (Finset.le_fold_max _).2 (Or.inr ⟨i, Finset.mem_univ i, le_rfl⟩)

/-- The matrix product at (i, j) is the similarity of rows i and j. -/
theorem v1_apply (x0 : (⟨S16384x512, .f32⟩ : BufTy).Contents (Elt Ideal)) (i j : Fin 16384) :
    Read.val_main_v1 (F := Ideal) x0 (ix2 i j) = Cert.Spec.sim x0 i j := by
  rw [Read.val_main_v1_apply]
  unfold Cert.Spec.sim
  refine Finset.sum_congr rfl fun k _ => ?_
  rw [Read.val_main_v0_apply]
  have e1 : Read.lidx_main_v1 (ix2 i j) k = ix2 i k :=
    funext fun a => Fin.ext (by match a with | ⟨0, _⟩ => rfl | ⟨1, _⟩ => rfl)
  have e2 : Read.idx_main_v0 (Read.ridx_main_v1 (ix2 i j) k) = ix2 j k :=
    funext fun a => Fin.ext (by match a with | ⟨0, _⟩ => rfl | ⟨1, _⟩ => rfl)
  rw [e1, e2]

/-- The reduced shape has one index, so every index of the operand reduces to it. -/
instance subsingleton_scalar_idx : Subsingleton S_.Idx := ⟨fun a b => funext fun d => d.elim0⟩

/-- The f32 word of plus infinity is the top element, that of minus infinity the bottom element. -/
theorem ofBits_pinf : Ideal.ofBits .f32 0x7F800000#32 = (⊤ : EReal) := by simp [Ideal.ofBits, Ideal.ieee]
theorem ofBits_ninf : Ideal.ofBits .f32 0xFF800000#32 = (⊥ : EReal) := by simp [Ideal.ofBits, Ideal.ieee]

/-- The minimum over both axes of a 16384 x 16384 matrix, from plus infinity, is the infimum over all pairs. -/
theorem reduce_min_all (y : (⟨S16384x16384, .f32⟩ : BufTy).Contents (Elt Ideal)) (j : S_.Idx) :
    Host.reduce (FloatOps.minimumf (F := Ideal) (φ := .f32)) y (Read.val_main_cst (F := Ideal)) reducesTo_S16384x16384_S_d0_1 h_S_ j
      = ⨅ p : Fin 16384 × Fin 16384, y (ix2 p.1 p.2) := by
  rw [Host.reduce_eq_fold, Finset.filter_true_of_mem fun i _ => Subsingleton.elim _ _, Read.val_main_cst_apply]
  show Finset.univ.fold min (Ideal.ofBits .f32 0x7F800000#32) y = _
  rw [ofBits_pinf, fold_min_top_eq_iInf]
  exact ((idxEquiv2 (n0 := 16384) (n1 := 16384)).symm.iInf_comp (g := y)).symm

/-- The maximum over both axes, from minus infinity, is the supremum over all pairs. -/
theorem reduce_max_all (y : (⟨S16384x16384, .f32⟩ : BufTy).Contents (Elt Ideal)) (j : S_.Idx) :
    Host.reduce (FloatOps.maximumf (F := Ideal) (φ := .f32)) y (Read.val_main_cst_0 (F := Ideal)) reducesTo_S16384x16384_S_d0_1 h_S_ j
      = ⨆ p : Fin 16384 × Fin 16384, y (ix2 p.1 p.2) := by
  rw [Host.reduce_eq_fold, Finset.filter_true_of_mem fun i _ => Subsingleton.elim _ _, Read.val_main_cst_0_apply]
  show Finset.univ.fold max (Ideal.ofBits .f32 0xFF800000#32) y = _
  rw [ofBits_ninf, fold_max_bot_eq_iSup]
  exact ((idxEquiv2 (n0 := 16384) (n1 := 16384)).symm.iSup_comp (g := y)).symm

/-- The reference's minimum is the least similarity. -/
theorem v2_apply (x0 : (⟨S16384x512, .f32⟩ : BufTy).Contents (Elt Ideal)) (j : S_.Idx) :
    Read.val_main_v2 (F := Ideal) x0 j = Cert.Spec.lo x0 := by
  unfold Read.val_main_v2 Cert.Spec.lo
  rw [reduce_min_all]
  exact iInf_congr fun p => v1_apply x0 p.1 p.2

/-- The reference's maximum is the greatest similarity. -/
theorem v3_apply (x0 : (⟨S16384x512, .f32⟩ : BufTy).Contents (Elt Ideal)) (j : S_.Idx) :
    Read.val_main_v3 (F := Ideal) x0 j = Cert.Spec.hi x0 := by
  unfold Read.val_main_v3 Cert.Spec.hi
  rw [reduce_max_all]
  exact iSup_congr fun p => v1_apply x0 p.1 p.2

/-- The normalised similarity matrix at (i, j). -/
theorem v9_apply (x0 : (⟨S16384x512, .f32⟩ : BufTy).Contents (Elt Ideal)) (i j : Fin 16384) :
    Read.val_main_v9 (F := Ideal) x0 (ix2 i j)
      = Ideal.div (Cert.Spec.sim x0 i j - Cert.Spec.lo x0) (Cert.Spec.den x0) := by
  rw [Read.val_main_v9_apply, Read.val_main_v5_apply, Read.val_main_v8_apply, Read.val_main_v7_apply,
    Read.val_main_v6_apply, Read.val_main_v4_apply, Read.val_main_cst_1_apply, v1_apply, v2_apply, v3_apply]
  rfl

/-- A gather index below 16384 is not negative, so the normalisation leaves it as it is. -/
theorem v14_apply (x1 : (⟨S1040384, .i32⟩ : BufTy).Contents (Elt Ideal)) (k : S1040384.Idx) (h : (x1 k).toNat < 16384) :
    Read.val_main_v14 (F := Ideal) x1 k = x1 k := by
  rw [Read.val_main_v14_apply, Read.val_main_v11_apply, Read.val_main_v10_apply, Read.val_main_c_apply]
  have hc : IntOp.cmpi .slt (x1 k) 0#32 = 0#1 := eq_zero_of_ne_one fun e => by
    have := (slt_iff_toNat (a := x1 k) (b := 0#32) (by omega) (by decide)).1 e
    simp at this
  rw [hc, select_zero]

theorem v19_apply (x2 : (⟨S1040384, .i32⟩ : BufTy).Contents (Elt Ideal)) (k : S1040384.Idx) (h : (x2 k).toNat < 16384) :
    Read.val_main_v19 (F := Ideal) x2 k = x2 k := by
  rw [Read.val_main_v19_apply, Read.val_main_v16_apply, Read.val_main_v15_apply, Read.val_main_c_3_apply]
  have hc : IntOp.cmpi .slt (x2 k) 0#32 = 0#1 := eq_zero_of_ne_one fun e => by
    have := (slt_iff_toNat (a := x2 k) (b := 0#32) (by omega) (by decide)).1 e
    simp at this
  rw [hc, select_zero]

/-- The index pairs: column 0 holds the row indices, column 1 the column indices. -/
theorem v22_left (x1 x2 : (⟨S1040384, .i32⟩ : BufTy).Contents (Elt Ideal)) (k : Fin 1040384) :
    Read.val_main_v22 (F := Ideal) x1 x2 (ix2 k (0 : Fin 2)) = Read.val_main_v14 (F := Ideal) x1 (ix1 k) := by
  unfold Read.val_main_v22
  rw [concatenate_pair_apply_left (1 : Fin S1040384x2.rank) _ _ concatenates_S1040384x1_S1040384x1_S1040384x2_d1
    (ix2 k (0 : Fin 2)) rfl (ix2 k (0 : Fin 1)) (fun b => by match b with | ⟨0, _⟩ => rfl | ⟨1, _⟩ => rfl)]
  rw [Read.val_main_v20_apply]
  exact congrArg _ (funext fun a => Fin.ext (by match a with | ⟨0, _⟩ => rfl))

theorem v22_right (x1 x2 : (⟨S1040384, .i32⟩ : BufTy).Contents (Elt Ideal)) (k : Fin 1040384) :
    Read.val_main_v22 (F := Ideal) x1 x2 (ix2 k (1 : Fin 2)) = Read.val_main_v19 (F := Ideal) x2 (ix1 k) := by
  unfold Read.val_main_v22
  rw [concatenate_pair_apply_right (1 : Fin S1040384x2.rank) _ _ concatenates_S1040384x1_S1040384x1_S1040384x2_d1
    (ix2 k (1 : Fin 2)) rfl rfl (ix2 k (0 : Fin 1))
    (fun b hb => by match b with | ⟨0, _⟩ => rfl | ⟨1, _⟩ => exact absurd rfl hb) rfl]
  rw [Read.val_main_v21_apply]
  exact congrArg _ (funext fun a => Fin.ext (by match a with | ⟨0, _⟩ => rfl))

/-- The gather's dimension numbers: both operand axes collapsed and start-indexed, slices of one element,
    the index vector along axis 1 of the [1040384, 2] start indices. -/
abbrev gd : GatherDims S16384x16384 S1040384x2 S1040384 := gather_S16384x16384_S1040384x2_S1040384_n_01_n_n_01_1_11

/-- The start-indices index at which result position `k` reads component `c` of its start index is (k, c). -/
theorem gd_siIdx_0 (k : Fin 1040384) (hc : List.idxOf (0 : Fin 2) gd.startIndexMap < gd.startIndexMap.length) :
    gd.siIdx (ix1 k) ⟨List.idxOf (0 : Fin 2) gd.startIndexMap, hc⟩ = ix2 k (0 : Fin 2) := by
  funext b; refine Fin.ext ?_
  match b with
  | ⟨0, _⟩ => rfl
  | ⟨1, _⟩ => rfl

theorem gd_siIdx_1 (k : Fin 1040384) (hc : List.idxOf (1 : Fin 2) gd.startIndexMap < gd.startIndexMap.length) :
    gd.siIdx (ix1 k) ⟨List.idxOf (1 : Fin 2) gd.startIndexMap, hc⟩ = ix2 k (1 : Fin 2) := by
  funext b; refine Fin.ext ?_
  match b with
  | ⟨0, _⟩ => rfl
  | ⟨1, _⟩ => rfl

/-- On operand axis 0 the gather reads at the row index of position `k`, read signed and clamped into [0, 16383]. -/
theorem gd_operandIdx_0 (idx : IVec S1040384x2 32) (k : Fin 1040384) :
    (gd.operandIdx (ix1 k) idx 0).val = min (idx (ix2 k (0 : Fin 2))).toInt.toNat 16383 := by
  show gd.start (ix1 k) idx 0 + gd.batchCoord (ix1 k) 0 + gd.offCoord (ix1 k) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ gd.startIndexMap from List.mem_cons_self), gd_siIdx_0]
  rfl

/-- On operand axis 1 it reads at the column index of position `k`. -/
theorem gd_operandIdx_1 (idx : IVec S1040384x2 32) (k : Fin 1040384) :
    (gd.operandIdx (ix1 k) idx 1).val = min (idx (ix2 k (1 : Fin 2))).toInt.toNat 16383 := by
  show gd.start (ix1 k) idx 1 + gd.batchCoord (ix1 k) 1 + gd.offCoord (ix1 k) 1 = _
  rw [GatherDims.batchCoord_eq_zero _ _ _ List.not_mem_nil,
    GatherDims.offCoord_eq_zero _ _ _ (fun h => ((GatherDims.mem_sKept _ _).mp h).1 (List.mem_cons_of_mem _ List.mem_cons_self))]
  simp only [Nat.add_zero]
  unfold GatherDims.start
  rw [dif_pos (show (1 : Fin 2) ∈ gd.startIndexMap from List.mem_cons_of_mem _ List.mem_cons_self), gd_siIdx_1]
  rfl

/-- THE GATHER READ AT `k`: the operand at (row k, col k), each index read signed and clamped into [0, 16383]. -/
theorem gather_apply {α : Type} (x : S16384x16384.Idx → α) (idx : IVec S1040384x2 32) (k : Fin 1040384) :
    Host.gather gd x idx (ix1 k)
      = x (ix2 (⟨min (idx (ix2 k (0 : Fin 2))).toInt.toNat 16383, by omega⟩ : Fin 16384)
               (⟨min (idx (ix2 k (1 : Fin 2))).toInt.toNat 16383, by omega⟩ : Fin 16384)) := by
  unfold Host.gather
  congr 1
  funext a
  refine Fin.ext ?_
  match a with
  | ⟨0, _⟩ => exact gd_operandIdx_0 idx k
  | ⟨1, _⟩ => exact gd_operandIdx_1 idx k

/-- A word below 16384, read signed and clamped into [0, 16383], is the row it names. -/
theorem clamp_row (w : BitVec 32) (h : w.toNat < 16384) (hlt : min w.toInt.toNat 16383 < 16384) :
    (⟨min w.toInt.toNat 16383, hlt⟩ : Fin 16384) = Cert.Spec.rowOf w := by
  refine Fin.ext ?_
  show min w.toInt.toNat 16383 = w.toNat % 16384
  rw [toInt_eq_toNat_of_lt (by omega), Int.toNat_natCast, Nat.mod_eq_of_lt h]
  omega

/-- The gather with both indices of position `k` rows of the matrix: the operand at (row k, col k). -/
theorem gather_rows {α : Type} (x : S16384x16384.Idx → α) (idx : IVec S1040384x2 32) (k : Fin 1040384)
    (h0 : (idx (ix2 k (0 : Fin 2))).toNat < 16384) (h1 : (idx (ix2 k (1 : Fin 2))).toNat < 16384) :
    Host.gather gd x idx (ix1 k)
      = x (ix2 (Cert.Spec.rowOf (idx (ix2 k (0 : Fin 2)))) (Cert.Spec.rowOf (idx (ix2 k (1 : Fin 2))))) := by
  rw [gather_apply, clamp_row _ h0, clamp_row _ h1]

/-- With every gather index a row of the similarity matrix, the reference's result is the specification's. -/
theorem ref_eq (x0 : (⟨S16384x512, .f32⟩ : BufTy).Contents (Elt Ideal)) (x1 x2 : (⟨S1040384, .i32⟩ : BufTy).Contents (Elt Ideal))
    (h1 : ∀ k, (x1 k).toNat < 16384) (h2 : ∀ k, (x2 k).toNat < 16384) :
    Cert.ReferenceIdeal.Read.val_main_v23 (F := Ideal) x0 x1 x2 = Cert.Spec.G x0 x1 x2 := by
  funext k
  obtain ⟨k0, rfl⟩ : ∃ k0 : Fin 1040384, k = ix1 k0 := ⟨k 0, eq_ix1 k⟩
  have e0 : Read.val_main_v22 (F := Ideal) x1 x2 (ix2 k0 (0 : Fin 2)) = x1 (ix1 k0) :=
    (v22_left x1 x2 k0).trans (v14_apply x1 _ (h1 _))
  have e1 : Read.val_main_v22 (F := Ideal) x1 x2 (ix2 k0 (1 : Fin 2)) = x2 (ix1 k0) :=
    (v22_right x1 x2 k0).trans (v19_apply x2 _ (h2 _))
  unfold Read.val_main_v23
  rw [gather_rows _ _ _ (by rw [e0]; exact h1 _) (by rw [e1]; exact h2 _), e0, e1, v9_apply]
  rfl

end Cert.RefValue

namespace Cert.PreDecode

open Idealize.ShloMosaic Idealize.ShloMosaic.ValueIdx Idealize.ShloMosaic.StableHlo.Predicate

/-- The rank-zero shape has one index. -/
instance subsingleton_scalar_idx : Subsingleton (⟨0, ![]⟩ : Shape).Idx := ⟨fun a b => funext fun d => d.elim0⟩

/-- An extended real whose absolute value is below plus infinity is a real number. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  unfold Ideal.cmp at h
  rw [ofBool_eq_one_iff] at h
  simp only [decide_eq_true_eq] at h
  induction x using EReal.rec with
  | bot => simp at h
  | coe r => exact ⟨r, rfl⟩
  | top => simp at h

/-- A word that is at least 0 and below 16384 as a signed integer has a value below 16384. -/
theorem toNat_lt_of_range (w : BitVec 32) (h0 : IntOp.cmpi .sge w 0#32 = 1#1) (h1 : IntOp.cmpi .slt w 16384#32 = 1#1) :
    w.toNat < 16384 := by
  have hnn : 0 ≤ w.toInt := by
    have := h0
    unfold IntOp.cmpi at this
    rw [ofBool_eq_one_iff] at this
    simpa [BitVec.sle] using this
  have hlt : w.toNat < 2 ^ 31 := by
    rw [BitVec.toInt_eq_toNat_cond] at hnn
    split at hnn <;> omega
  have := (slt_iff_toNat (a := w) (b := 16384#32) hlt (by decide)).1 h1
  simpa using this

/-- A word below 2^31 divided by 128 as a signed integer: no corner is met, and the quotient is the value's. -/
theorem divsi_128 (u : ArithUnit) (w : BitVec 32) (hw : w.toNat < 2 ^ 31) : (IntOp.divsi u w 128#32).toNat = w.toNat / 128 := by
  have hcorner : ¬ IntOp.SDivCorner w 128#32 := by
    intro hc; rcases hc with hc | ⟨_, hc⟩ <;> exact absurd hc (by decide)
  have hm : w.msb = false := BitVec.msb_eq_false_iff_two_mul_lt.mpr (by omega)
  simp only [IntOp.divsi, if_neg hcorner, BitVec.sdiv_eq, hm, show (128#32 : BitVec 32).msb = false from by decide, BitVec.udiv_eq,
    BitVec.toNat_udiv, BitVec.toNat_ofNat]

/-- What the precondition says: every embedding is a real number, every gather index lies in [0, 16384), and each
    (row, col) pair lies in one 128 x 128 diagonal block. -/
theorem decode [Cert.Pre_finite_inputs.Facts]
    (x0 : FVec Ideal Cert.Pre_finite_inputs.S16384x512 .f32) (x1 x2 : IVec Cert.Pre_finite_inputs.S1040384 32)
    (h : Cert.Pre_finite_inputs.fn (F := Ideal) x0 x1 x2 = fun _ => 1#1) :
    (∀ i, ∃ r : ℝ, x0 i = (r : EReal)) ∧ (∀ k, (x1 k).toNat < 16384) ∧ (∀ k, (x2 k).toNat < 16384)
      ∧ (∀ k, (x1 k).toNat / 128 = (x2 k).toNat / 128) := by
  have e := congrFun h ix0
  dsimp only [Cert.Pre_finite_inputs.fn, Cert.Pre_finite_inputs.fn_part1] at e
  simp only [andi, IntOp.andi_eq_one] at e
  obtain ⟨⟨⟨⟨⟨h3, h6⟩, h10⟩, h14⟩, h18⟩, h25⟩ := e
  have a3 := Host.reduce_andi_all _ _ _ _ _ h3
  have a6 := Host.reduce_andi_all _ _ _ _ _ h6
  have a10 := Host.reduce_andi_all _ _ _ _ _ h10
  have a14 := Host.reduce_andi_all _ _ _ _ _ h14
  have a18 := Host.reduce_andi_all _ _ _ _ _ h18
  have a25 := Host.reduce_andi_all _ _ _ _ _ h25
  have r1 : ∀ k, (x1 k).toNat < 16384 := fun k => toNat_lt_of_range _ (a6 k) (a10 k)
  have r2 : ∀ k, (x2 k).toNat < 16384 := fun k => toNat_lt_of_range _ (a14 k) (a18 k)
  refine ⟨fun i => real_of_abs_lt (x0 i) (a3 i), r1, r2, fun k => ?_⟩
  have e25 : IntOp.divsi .host (x1 k) 128#32 = IntOp.divsi .host (x2 k) 128#32 := cmpi_eq_iff.1 (a25 k)
  have := congrArg BitVec.toNat e25
  rwa [divsi_128 _ _ (by have := r1 k; omega), divsi_128 _ _ (by have := r2 k; omega)] at this

end Cert.PreDecode

end
-- ==== Proof.lean ====
/-
  The certificate's claim: the block-diagonal similarity kernel against its reference.

  The statement's precondition: every embedding finite, every gather index in [0, 16384), and each (row, col) pair in
  one 128 x 128 diagonal block (the reference gathers block-diagonal entries).  Under it both idealized programs end
  with the same result, entry k being (sim(row k, col k) - lo) / (hi - lo + eps) with sim the rows' inner product and
  lo, hi the least and greatest similarity over all pairs of rows: the kernel reaches it through per-row-tile running
  minima and maxima, the diagonal blocks scaled by 1 / d and shifted by (-lo) / d, and a gather at
  (row / 128, row mod 128, col mod 128); the reference through the full similarity matrix.  The three programs run to
  the end, fault nowhere and leave their arguments unchanged; the ideal pass rewrote nothing, so the kernel's
  idealization is its own text.
-/
import proofs.«405393_j40785009443380_2_alg».proof.Defs
import proofs.«405393_j40785009443380_2_alg».proof.Proof.Gen.Kernel
import proofs.«405393_j40785009443380_2_alg».proof.Proof.Gen.Kernel.Skeleton
import proofs.«405393_j40785009443380_2_alg».proof.Proof.Gen.Kernel.Launch
import proofs.«405393_j40785009443380_2_alg».proof.Proof.Gen.Kernel.Regions
import proofs.«405393_j40785009443380_2_alg».proof.Proof.Gen.Kernel.Points
import proofs.«405393_j40785009443380_2_alg».proof.Proof.Gen.KernelIdeal
import proofs.«405393_j40785009443380_2_alg».proof.Proof.Gen.KernelIdeal.Skeleton
import proofs.«405393_j40785009443380_2_alg».proof.Proof.Gen.KernelIdeal.Launch
import proofs.«405393_j40785009443380_2_alg».proof.Proof.Gen.KernelIdeal.Regions
import proofs.«405393_j40785009443380_2_alg».proof.Proof.Gen.KernelIdeal.Points
import proofs.«405393_j40785009443380_2_alg».proof.Proof.Gen.ReferenceIdeal
import proofs.«405393_j40785009443380_2_alg».proof.Proof.Gen.Pre_finite_inputs
import proofs.«405393_j40785009443380_2_alg».proof.Proof.Gen.ReferenceIdeal.Run
import proofs.«405393_j40785009443380_2_alg».proof.Proof.Gen.ReferenceIdeal.Read
import proofs.«405393_j40785009443380_2_alg».proof.Proof.KRun
import proofs.«405393_j40785009443380_2_alg».proof.Proof.KIRun
import proofs.«405393_j40785009443380_2_alg».proof.Proof.KIValue
import proofs.«405393_j40785009443380_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's result of the (agreeing) arguments. -/
theorem algebraic : Cert.algebraic_KernelIdeal_ReferenceIdeal := by
  intro m ρ m' ρ' hpre hagree
  have hd := fun c => Cert.PreDecode.decode _ _ _ (hpre c)
  refine ⟨fun c => Cert.Spec.G (Cert.KernelIdeal.Hand.embs m c) (Cert.KernelIdeal.Hand.rows m c) (Cert.KernelIdeal.Hand.cols m c), ?_, ?_⟩
  · exact (θ_run (Cert.KernelIdeal.defs (F := Ideal)) _ _).mono
      (fun r h c => ⟨(h c).1.trans (Cert.KernelIdeal.Hand.v35_eq m c (hd c).1 (hd c).2.1 (hd c).2.2.1 (hd c).2.2.2), (h c).2⟩)
      (Cert.KernelIdeal.Hand.run_main m ρ)
  · refine (θ_run (Cert.ReferenceIdeal.defs (F := Ideal)) _ _).mono (fun r h c => ⟨(h c).1.trans ?_, (h c).2⟩)
      (Cert.ReferenceIdeal.Value.run (F := Ideal) m' ρ')
    show Cert.ReferenceIdeal.Read.val_main_v23 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [(hagree c).1, (hagree c).2.1, (hagree c).2.2]
    exact Cert.RefValue.ref_eq _ _ _ (hd c).2.1 (hd c).2.2.1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
